-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x16 : Shape := ⟨2, ![800000, 16]⟩
abbrev S2x800000 : Shape := ⟨2, ![2, 800000]⟩
abbrev S50000 : Shape := ⟨1, ![50000]⟩
abbrev S16x64 : Shape := ⟨2, ![16, 64]⟩
abbrev S64 : Shape := ⟨1, ![64]⟩
abbrev S64x256 : Shape := ⟨2, ![64, 256]⟩
abbrev S256 : Shape := ⟨1, ![256]⟩
abbrev S256x256 : Shape := ⟨2, ![256, 256]⟩
abbrev S16x256 : Shape := ⟨2, ![16, 256]⟩
abbrev S256x128 : Shape := ⟨2, ![256, 128]⟩
abbrev S128 : Shape := ⟨1, ![128]⟩
abbrev S128x128 : Shape := ⟨2, ![128, 128]⟩
abbrev S16x128 : Shape := ⟨2, ![16, 128]⟩
abbrev S128x64 : Shape := ⟨2, ![128, 64]⟩
abbrev S64x64 : Shape := ⟨2, ![64, 64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S16x256 : S_.BroadcastsInDim S16x256 (![] : Fin 0 → Fin S16x256.rank)
  reducesTo_S16x256_S_d0_1 : S16x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S16x128 : S_.BroadcastsInDim S16x128 (![] : Fin 0 → Fin S16x128.rank)
  reducesTo_S16x128_S_d0_1 : S16x128.ReducesTo [0, 1] S_
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part11 {F : FTy → Type} [FloatOps F] (main_v178 : IVec S_ 1) (main_v185 : IVec S800000 32) (main_v187 : IVec S800000 1) (main_c_73 : IVec S_ 32) : IVec S_ 1 :=
  let main_v188 : IVec S800000 32 := broadcastInDim S800000 ![] bcast_S_S800000 main_c_73
  let main_v189 : IVec S800000 1 := cmpi .sle main_v185 main_v188
  let main_v190 : IVec S800000 1 := andi main_v187 main_v189
  let main_c_74 : IVec S_ 1 := constantI S_ 1 1#1
  let main_v191 : IVec S_ 1 := (fun x v => Host.reduce IntOp.andi x v reducesTo_S800000_S_d0 h_S_) main_v190 main_c_74
  let main_v192 : IVec S_ 1 := andi main_v178 main_v191
  main_v192

def fn_part10 {F : FTy → Type} [FloatOps F] (main_arg2 : IVec S2x800000 32) (main_arg37 : FVec F S1 .f32) (main_v168 : IVec S_ 1) (main_v169 : FVec F S16x1 .f32) (main_v170 : FVec F S16x1 .f32) : IVec S_ 1 :=
  let main_v171 : IVec S16x1 1 := cmpf .olt main_v169 main_v170
  let main_c_67 : IVec S_ 1 := constantI S_ 1 1#1
  let main_v172 : IVec S_ 1 := (fun x v => Host.reduce IntOp.andi x v reducesTo_S16x1_S_d0_1 h_S_) main_v171 main_c_67
  let main_v173 : IVec S_ 1 := andi main_v168 main_v172
  let main_v174 : FVec F S1 .f32 := Host.absf main_arg37
  let main_cst_68 : FVec F S_ .f32 := constant S_ .f32 0x7F800000#32
  let main_v175 : FVec F S1 .f32 := broadcastInDim S1 ![] bcast_S_S1 main_cst_68
  let main_v176 : IVec S1 1 := cmpf .olt main_v174 main_v175
  let main_c_69 : IVec S_ 1 := constantI S_ 1 1#1
  let main_v177 : IVec S_ 1 := (fun x v => Host.reduce IntOp.andi x v reducesTo_S1_S_d0 h_S_) main_v176 main_c_69
  let main_v178 : IVec S_ 1 := andi main_v173 main_v177
  let main_v179 : IVec S1x800000 32 := (extractStridedSlice S1x800000 ![0, 0] · slices_S2x800000_S1x800000_0_0) main_arg2
  let main_v180 : IVec S800000 32 := shapeCast S800000 main_v179 shapeCasts_S1x800000_S800000
  let main_c_70 : IVec S_ 32 := constantI S_ 32 0#32
  let main_v181 : IVec S800000 32 := broadcastInDim S800000 ![] bcast_S_S800000 main_c_70
  let main_v182 : IVec S800000 1 := cmpi .slt main_v180 main_v181
  let main_c_71 : IVec S_ 32 := constantI S_ 32 50000#32
  let main_v183 : IVec S800000 32 := broadcastInDim S800000 ![] bcast_S_S800000 main_c_71
  let main_v184 : IVec S800000 32 := addi main_v180 main_v183
  let main_v185 : IVec S800000 32 := select main_v182 main_v184 main_v180
  let main_c_72 : IVec S_ 32 := constantI S_ 32 0#32
  let main_v186 : IVec S800000 32 := broadcastInDim S800000 ![] bcast_S_S800000 main_c_72
  let main_v187 : IVec S800000 1 := cmpi .sge main_v185 main_v186
  let main_c_73 : IVec S_ 32 := constantI S_ 32 49999#32
  fn_part11 (F := F) main_v178 main_v185 main_v187 main_c_73

def fn_part9 {F : FTy → Type} [FloatOps F] (main_arg2 : IVec S2x800000 32) (main_arg33 : FVec F S64 .f32) (main_arg34 : FVec F S64x16 .f32) (main_arg35 : FVec F S16 .f32) (main_arg36 : FVec F S16x1 .f32) (main_arg37 : FVec F S1 .f32) (main_v153 : IVec S_ 1) : IVec S_ 1 :=
  let main_v154 : FVec F S64 .f32 := Host.absf main_arg33
  let main_cst_60 : FVec F S_ .f32 := constant S_ .f32 0x7F800000#32
  let main_v155 : FVec F S64 .f32 := broadcastInDim S64 ![] bcast_S_S64 main_cst_60
  let main_v156 : IVec S64 1 := cmpf .olt main_v154 main_v155
  let main_c_61 : IVec S_ 1 := constantI S_ 1 1#1
  let main_v157 : IVec S_ 1 := (fun x v => Host.reduce IntOp.andi x v reducesTo_S64_S_d0 h_S_) main_v156 main_c_61
  let main_v158 : IVec S_ 1 := andi main_v153 main_v157
  let main_v159 : FVec F S64x16 .f32 := Host.absf main_arg34
  let main_cst_62 : FVec F S_ .f32 := constant S_ .f32 0x7F800000#32
  let main_v160 : FVec F S64x16 .f32 := broadcastInDim S64x16 ![] bcast_S_S64x16 main_cst_62
  let main_v161 : IVec S64x16 1 := cmpf .olt main_v159 main_v160
  let main_c_63 : IVec S_ 1 := constantI S_ 1 1#1
  let main_v162 : IVec S_ 1 := (fun x v => Host.reduce IntOp.andi x v reducesTo_S64x16_S_d0_1 h_S_) main_v161 main_c_63
  let main_v163 : IVec S_ 1 := andi main_v158 main_v162
  let main_v164 : FVec F S16 .f32 := Host.absf main_arg35
  let main_cst_64 : FVec F S_ .f32 := constant S_ .f32 0x7F800000#32
  let main_v165 : FVec F S16 .f32 := broadcastInDim S16 ![] bcast_S_S16 main_cst_64
  let main_v166 : IVec S16 1 := cmpf .olt main_v164 main_v165
  let main_c_65 : IVec S_ 1 := constantI S_ 1 1#1
  let main_v167 : IVec S_ 1 := (fun x v => Host.reduce IntOp.andi x v reducesTo_S16_S_d0 h_S_) main_v166 main_c_65
  let main_v168 : IVec S_ 1 := andi main_v163 main_v167
  let main_v169 : FVec F S16x1 .f32 := Host.absf main_arg36
  let main_cst_66 : FVec F S_ .f32 := constant S_ .f32 0x7F800000#32
  let main_v170 : FVec F S16x1 .f32 := broadcastInDim S16x1 ![] bcast_S_S16x1 main_cst_66
  fn_part10 (F := F) main_arg2 main_arg37 main_v168 main_v169 main_v170

def fn_part8 {F : FTy → Type} [FloatOps F] (main_arg2 : IVec S2x800000 32) (main_arg30 : FVec F S64 .f32) (main_arg31 : FVec F S64 .f32) (main_arg32 : FVec F S64 .f32) (main_arg33 : FVec F S64 .f32) (main_arg34 : FVec F S64x16 .f32) (main_arg35 : FVec F S16 .f32) (main_arg36 : FVec F S16x1 .f32) (main_arg37 : FVec F S1 .f32) (main_v133 : IVec S_ 1) (main_v136 : IVec S64 1) : IVec S_ 1 :=
  let main_c_53 : IVec S_ 1 := constantI S_ 1 1#1
  let main_v137 : IVec S_ 1 := (fun x v => Host.reduce IntOp.andi x v reducesTo_S64_S_d0 h_S_) main_v136 main_c_53
  let main_v138 : IVec S_ 1 := andi main_v133 main_v137
  let main_v139 : FVec F S64 .f32 := Host.absf main_arg30
  let main_cst_54 : FVec F S_ .f32 := constant S_ .f32 0x7F800000#32
  let main_v140 : FVec F S64 .f32 := broadcastInDim S64 ![] bcast_S_S64 main_cst_54
  let main_v141 : IVec S64 1 := cmpf .olt main_v139 main_v140
  let main_c_55 : IVec S_ 1 := constantI S_ 1 1#1
  let main_v142 : IVec S_ 1 := (fun x v => Host.reduce IntOp.andi x v reducesTo_S64_S_d0 h_S_) main_v141 main_c_55
  let main_v143 : IVec S_ 1 := andi main_v138 main_v142
  let main_v144 : FVec F S64 .f32 := Host.absf main_arg31
  let main_cst_56 : FVec F S_ .f32 := constant S_ .f32 0x7F800000#32
  let main_v145 : FVec F S64 .f32 := broadcastInDim S64 ![] bcast_S_S64 main_cst_56
  let main_v146 : IVec S64 1 := cmpf .olt main_v144 main_v145
  let main_c_57 : IVec S_ 1 := constantI S_ 1 1#1
  let main_v147 : IVec S_ 1 := (fun x v => Host.reduce IntOp.andi x v reducesTo_S64_S_d0 h_S_) main_v146 main_c_57
  let main_v148 : IVec S_ 1 := andi main_v143 main_v147
  let main_v149 : FVec F S64 .f32 := Host.absf main_arg32
  let main_cst_58 : FVec F S_ .f32 := constant S_ .f32 0x7F800000#32
  let main_v150 : FVec F S64 .f32 := broadcastInDim S64 ![] bcast_S_S64 main_cst_58
  let main_v151 : IVec S64 1 := cmpf .olt main_v149 main_v150
  let main_c_59 : IVec S_ 1 := constantI S_ 1 1#1
  let main_v152 : IVec S_ 1 := (fun x v => Host.reduce IntOp.andi x v reducesTo_S64_S_d0 h_S_) main_v151 main_c_59
  let main_v153 : IVec S_ 1 := andi main_v148 main_v152
  fn_part9 (F := F) main_arg2 main_arg33 main_arg34 main_arg35 main_arg36 main_arg37 main_v153

def fn_part7 {F : FTy → Type} [FloatOps F] (main_arg2 : IVec S2x800000 32) (main_arg27 : FVec F S64 .f32) (main_arg28 : FVec F S64x64 .f32) (main_arg29 : FVec F S64 .f32) (main_arg30 : FVec F S64 .f32) (main_arg31 : FVec F S64 .f32) (main_arg32 : FVec F S64 .f32) (main_arg33 : FVec F S64 .f32) (main_arg34 : FVec F S64x16 .f32) (main_arg35 : FVec F S16 .f32) (main_arg36 : FVec F S16x1 .f32) (main_arg37 : FVec F S1 .f32) (main_v118 : IVec S_ 1) (main_v119 : FVec F S128x64 .f32) : IVec S_ 1 :=
  let main_cst_46 : FVec F S_ .f32 := constant S_ .f32 0x7F800000#32
  let main_v120 : FVec F S128x64 .f32 := broadcastInDim S128x64 ![] bcast_S_S128x64 main_cst_46
  let main_v121 : IVec S128x64 1 := cmpf .olt main_v119 main_v120
  let main_c_47 : IVec S_ 1 := constantI S_ 1 1#1
  let main_v122 : IVec S_ 1 := (fun x v => Host.reduce IntOp.andi x v reducesTo_S128x64_S_d0_1 h_S_) main_v121 main_c_47
  let main_v123 : IVec S_ 1 := andi main_v118 main_v122
  let main_v124 : FVec F S64 .f32 := Host.absf main_arg27
  let main_cst_48 : FVec F S_ .f32 := constant S_ .f32 0x7F800000#32
  let main_v125 : FVec F S64 .f32 := broadcastInDim S64 ![] bcast_S_S64 main_cst_48
  let main_v126 : IVec S64 1 := cmpf .olt main_v124 main_v125
  let main_c_49 : IVec S_ 1 := constantI S_ 1 1#1
  let main_v127 : IVec S_ 1 := (fun x v => Host.reduce IntOp.andi x v reducesTo_S64_S_d0 h_S_) main_v126 main_c_49
  let main_v128 : IVec S_ 1 := andi main_v123 main_v127
  let main_v129 : FVec F S64x64 .f32 := Host.absf main_arg28
  let main_cst_50 : FVec F S_ .f32 := constant S_ .f32 0x7F800000#32
  let main_v130 : FVec F S64x64 .f32 := broadcastInDim S64x64 ![] bcast_S_S64x64 main_cst_50
  let main_v131 : IVec S64x64 1 := cmpf .olt main_v129 main_v130
  let main_c_51 : IVec S_ 1 := constantI S_ 1 1#1
  let main_v132 : IVec S_ 1 := (fun x v => Host.reduce IntOp.andi x v reducesTo_S64x64_S_d0_1 h_S_) main_v131 main_c_51
  let main_v133 : IVec S_ 1 := andi main_v128 main_v132
  let main_v134 : FVec F S64 .f32 := Host.absf main_arg29
  let main_cst_52 : FVec F S_ .f32 := constant S_ .f32 0x7F800000#32
  let main_v135 : FVec F S64 .f32 := broadcastInDim S64 ![] bcast_S_S64 main_cst_52
  let main_v136 : IVec S64 1 := cmpf .olt main_v134 main_v135
  fn_part8 (F := F) main_arg2 main_arg30 main_arg31 main_arg32 main_arg33 main_arg34 main_arg35 main_arg36 main_arg37 main_v133 main_v136

def fn_part6 {F : FTy → Type} [FloatOps F] (main_arg2 : IVec S2x800000 32) (main_arg23 : FVec F S128 .f32) (main_arg24 : FVec F S16x128 .f32) (main_arg25 : FVec F S128 .f32) (main_arg26 : FVec F S128x64 .f32) (main_arg27 : FVec F S64 .f32) (main_arg28 : FVec F S64x64 .f32) (main_arg29 : FVec F S64 .f32) (main_arg30 : FVec F S64 .f32) (main_arg31 : FVec F S64 .f32) (main_arg32 : FVec F S64 .f32) (main_arg33 : FVec F S64 .f32) (main_arg34 : FVec F S64x16 .f32) (main_arg35 : FVec F S16 .f32) (main_arg36 : FVec F S16x1 .f32) (main_arg37 : FVec F S1 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S16x128 .f32 := Host.absf main_arg24
  let main_cst_42 : FVec F S_ .f32 := constant S_ .f32 0x7F800000#32
  let main_v110 : FVec F S16x128 .f32 := broadcastInDim S16x128 ![] bcast_S_S16x128 main_cst_42
  let main_v111 : IVec S16x128 1 := cmpf .olt main_v109 main_v110
  let main_c_43 : IVec S_ 1 := constantI S_ 1 1#1
  let main_v112 : IVec S_ 1 := (fun x v => Host.reduce IntOp.andi x v reducesTo_S16x128_S_d0_1 h_S_) main_v111 main_c_43
  let main_v113 : IVec S_ 1 := andi main_v108 main_v112
  let main_v114 : FVec F S128 .f32 := Host.absf main_arg25
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128x64 .f32 := Host.absf main_arg26
  fn_part7 (F := F) main_arg2 main_arg27 main_arg28 main_arg29 main_arg30 main_arg31 main_arg32 main_arg33 main_arg34 main_arg35 main_arg36 main_arg37 main_v118 main_v119

def fn_part5 {F : FTy → Type} [FloatOps F] (main_arg2 : IVec S2x800000 32) (main_arg20 : FVec F S128 .f32) (main_arg21 : FVec F S128 .f32) (main_arg22 : FVec F S128 .f32) (main_arg23 : FVec F S128 .f32) (main_arg24 : FVec F S16x128 .f32) (main_arg25 : FVec F S128 .f32) (main_arg26 : FVec F S128x64 .f32) (main_arg27 : FVec F S64 .f32) (main_arg28 : FVec F S64x64 .f32) (main_arg29 : FVec F S64 .f32) (main_arg30 : FVec F S64 .f32) (main_arg31 : FVec F S64 .f32) (main_arg32 : FVec F S64 .f32) (main_arg33 : FVec F S64 .f32) (main_arg34 : FVec F S64x16 .f32) (main_arg35 : FVec F S16 .f32) (main_arg36 : FVec F S16x1 .f32) (main_arg37 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg2 main_arg23 main_arg24 main_arg25 main_arg26 main_arg27 main_arg28 main_arg29 main_arg30 main_arg31 main_arg32 main_arg33 main_arg34 main_arg35 main_arg36 main_arg37 main_v98 main_v101 main_c_39

def fn_part4 {F : FTy → Type} [FloatOps F] (main_arg2 : IVec S2x800000 32) (main_arg16 : FVec F S256x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128 .f32) (main_arg24 : FVec F S16x128 .f32) (main_arg25 : FVec F S128 .f32) (main_arg26 : FVec F S128x64 .f32) (main_arg27 : FVec F S64 .f32) (main_arg28 : FVec F S64x64 .f32) (main_arg29 : FVec F S64 .f32) (main_arg30 : FVec F S64 .f32) (main_arg31 : FVec F S64 .f32) (main_arg32 : FVec F S64 .f32) (main_arg33 : FVec F S64 .f32) (main_arg34 : FVec F S64x16 .f32) (main_arg35 : FVec F S16 .f32) (main_arg36 : FVec F S16x1 .f32) (main_arg37 : FVec F S1 .f32) (main_v63 : IVec S_ 1) (main_v67 : IVec S_ 1) : IVec S_ 1 :=
  let main_v68 : IVec S_ 1 := andi main_v63 main_v67
  let main_v69 : FVec F S256x128 .f32 := Host.absf main_arg16
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg2 main_arg20 main_arg21 main_arg22 main_arg23 main_arg24 main_arg25 main_arg26 main_arg27 main_arg28 main_arg29 main_arg30 main_arg31 main_arg32 main_arg33 main_arg34 main_arg35 main_arg36 main_arg37 main_v83 main_v84 main_cst_32

def fn_part3 {F : FTy → Type} [FloatOps F] (main_arg2 : IVec S2x800000 32) (main_arg13 : FVec F S256 .f32) (main_arg14 : FVec F S16x256 .f32) (main_arg15 : FVec F S256 .f32) (main_arg16 : FVec F S256x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128 .f32) (main_arg24 : FVec F S16x128 .f32) (main_arg25 : FVec F S128 .f32) (main_arg26 : FVec F S128x64 .f32) (main_arg27 : FVec F S64 .f32) (main_arg28 : FVec F S64x64 .f32) (main_arg29 : FVec F S64 .f32) (main_arg30 : FVec F S64 .f32) (main_arg31 : FVec F S64 .f32) (main_arg32 : FVec F S64 .f32) (main_arg33 : FVec F S64 .f32) (main_arg34 : FVec F S64x16 .f32) (main_arg35 : FVec F S16 .f32) (main_arg36 : FVec F S16x1 .f32) (main_arg37 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S16x256 .f32 := Host.absf main_arg14
  let main_cst_22 : FVec F S_ .f32 := constant S_ .f32 0x7F800000#32
  let main_v60 : FVec F S16x256 .f32 := broadcastInDim S16x256 ![] bcast_S_S16x256 main_cst_22
  let main_v61 : IVec S16x256 1 := cmpf .olt main_v59 main_v60
  let main_c_23 : IVec S_ 1 := constantI S_ 1 1#1
  let main_v62 : IVec S_ 1 := (fun x v => Host.reduce IntOp.andi x v reducesTo_S16x256_S_d0_1 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg2 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_v63 main_v67

def fn_part2 {F : FTy → Type} [FloatOps F] (main_arg2 : IVec S2x800000 32) (main_arg9 : FVec F S256 .f32) (main_arg10 : FVec F S256 .f32) (main_arg11 : FVec F S256 .f32) (main_arg12 : FVec F S256 .f32) (main_arg13 : FVec F S256 .f32) (main_arg14 : FVec F S16x256 .f32) (main_arg15 : FVec F S256 .f32) (main_arg16 : FVec F S256x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128 .f32) (main_arg24 : FVec F S16x128 .f32) (main_arg25 : FVec F S128 .f32) (main_arg26 : FVec F S128x64 .f32) (main_arg27 : FVec F S64 .f32) (main_arg28 : FVec F S64x64 .f32) (main_arg29 : FVec F S64 .f32) (main_arg30 : FVec F S64 .f32) (main_arg31 : FVec F S64 .f32) (main_arg32 : FVec F S64 .f32) (main_arg33 : FVec F S64 .f32) (main_arg34 : FVec F S64x16 .f32) (main_arg35 : FVec F S16 .f32) (main_arg36 : FVec F S16x1 .f32) (main_arg37 : FVec F S1 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg2 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_v48 main_v49 main_v50

def fn_part1 {F : FTy → Type} [FloatOps F] (main_arg2 : IVec S2x800000 32) (main_arg6 : FVec F S64x256 .f32) (main_arg7 : FVec F S256 .f32) (main_arg8 : FVec F S256x256 .f32) (main_arg9 : FVec F S256 .f32) (main_arg10 : FVec F S256 .f32) (main_arg11 : FVec F S256 .f32) (main_arg12 : FVec F S256 .f32) (main_arg13 : FVec F S256 .f32) (main_arg14 : FVec F S16x256 .f32) (main_arg15 : FVec F S256 .f32) (main_arg16 : FVec F S256x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128 .f32) (main_arg24 : FVec F S16x128 .f32) (main_arg25 : FVec F S128 .f32) (main_arg26 : FVec F S128x64 .f32) (main_arg27 : FVec F S64 .f32) (main_arg28 : FVec F S64x64 .f32) (main_arg29 : FVec F S64 .f32) (main_arg30 : FVec F S64 .f32) (main_arg31 : FVec F S64 .f32) (main_arg32 : FVec F S64 .f32) (main_arg33 : FVec F S64 .f32) (main_arg34 : FVec F S64x16 .f32) (main_arg35 : FVec F S16 .f32) (main_arg36 : FVec F S16x1 .f32) (main_arg37 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x256 .f32 := Host.absf main_arg6
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg2 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_v33

def fn {F : FTy → Type} [FloatOps F] (main_arg0 : FVec F S50000x64 .f32) (main_arg1 : FVec F S800000x16 .f32) (main_arg2 : IVec S2x800000 32) (main_arg3 : IVec S50000 32) (main_arg4 : FVec F S16x64 .f32) (main_arg5 : FVec F S64 .f32) (main_arg6 : FVec F S64x256 .f32) (main_arg7 : FVec F S256 .f32) (main_arg8 : FVec F S256x256 .f32) (main_arg9 : FVec F S256 .f32) (main_arg10 : FVec F S256 .f32) (main_arg11 : FVec F S256 .f32) (main_arg12 : FVec F S256 .f32) (main_arg13 : FVec F S256 .f32) (main_arg14 : FVec F S16x256 .f32) (main_arg15 : FVec F S256 .f32) (main_arg16 : FVec F S256x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128 .f32) (main_arg24 : FVec F S16x128 .f32) (main_arg25 : FVec F S128 .f32) (main_arg26 : FVec F S128x64 .f32) (main_arg27 : FVec F S64 .f32) (main_arg28 : FVec F S64x64 .f32) (main_arg29 : FVec F S64 .f32) (main_arg30 : FVec F S64 .f32) (main_arg31 : FVec F S64 .f32) (main_arg32 : FVec F S64 .f32) (main_arg33 : FVec F S64 .f32) (main_arg34 : FVec F S64x16 .f32) (main_arg35 : FVec F S16 .f32) (main_arg36 : FVec F S16x1 .f32) (main_arg37 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x16 .f32 := Host.absf main_arg1
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S16x64 .f32 := Host.absf main_arg4
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_v13 main_v16
-- ==== Kernel.lean ====
abbrev S50000x64 : Shape := ⟨2, ![50000, 64]⟩
abbrev S800000x16 : Shape := ⟨2, ![800000, 16]⟩
abbrev S2x800000 : Shape := ⟨2, ![2, 800000]⟩
abbrev S50000 : Shape := ⟨1, ![50000]⟩
abbrev S16x64 : Shape := ⟨2, ![16, 64]⟩
abbrev S64 : Shape := ⟨1, ![64]⟩
abbrev S64x256 : Shape := ⟨2, ![64, 256]⟩
abbrev S256 : Shape := ⟨1, ![256]⟩
abbrev S256x256 : Shape := ⟨2, ![256, 256]⟩
abbrev S16x256 : Shape := ⟨2, ![16, 256]⟩
abbrev S256x128 : Shape := ⟨2, ![256, 128]⟩
abbrev S128 : Shape := ⟨1, ![128]⟩
abbrev S128x128 : Shape := ⟨2, ![128, 128]⟩
abbrev S16x128 : Shape := ⟨2, ![16, 128]⟩
abbrev S128x64 : Shape := ⟨2, ![128, 64]⟩
abbrev S64x64 : Shape := ⟨2, ![64, 64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x1 : Shape := ⟨2, ![1, 1]⟩
abbrev S800000x64 : Shape := ⟨2, ![800000, 64]⟩
abbrev S4000x16 : Shape := ⟨2, ![4000, 16]⟩
abbrev S4000x64 : Shape := ⟨2, ![4000, 64]⟩
abbrev S1x64 : Shape := ⟨2, ![1, 64]⟩
abbrev S50000x256 : Shape := ⟨2, ![50000, 256]⟩
abbrev S2000x64 : Shape := ⟨2, ![2000, 64]⟩
abbrev S2000x256 : Shape := ⟨2, ![2000, 256]⟩
abbrev S1x256 : Shape := ⟨2, ![1, 256]⟩
abbrev S800000x256 : Shape := ⟨2, ![800000, 256]⟩
abbrev S4000x256 : Shape := ⟨2, ![4000, 256]⟩
abbrev S50000x128 : Shape := ⟨2, ![50000, 128]⟩
abbrev S2000x128 : Shape := ⟨2, ![2000, 128]⟩
abbrev S1x128 : Shape := ⟨2, ![1, 128]⟩
abbrev S800000x128 : Shape := ⟨2, ![800000, 128]⟩
abbrev S4000x128 : Shape := ⟨2, ![4000, 128]⟩
abbrev S50000x1 : Shape := ⟨2, ![50000, 1]⟩
abbrev S128x1 : Shape := ⟨2, ![128, 1]⟩
abbrev S128x16 : Shape := ⟨2, ![128, 16]⟩
abbrev S1x16 : Shape := ⟨2, ![1, 16]⟩

abbrev nBuf : Space → Nat
  | .hbm => 134
  | .vmem => 72
  | .smem => 0
  | _ => 0

abbrev hbmTy0_0 (i : Nat) : BufTy := match i % 128 with
  | 0 => ⟨S50000x64, .f32⟩
  | 1 => ⟨S800000x16, .f32⟩
  | 2 => ⟨S2x800000, .i32⟩
  | 3 => ⟨S50000, .i32⟩
  | 4 => ⟨S16x64, .f32⟩
  | 5 => ⟨S64, .f32⟩
  | 6 => ⟨S64x256, .f32⟩
  | 7 => ⟨S256, .f32⟩
  | 8 => ⟨S256x256, .f32⟩
  | 9 => ⟨S256, .f32⟩
  | 10 => ⟨S256, .f32⟩
  | 11 => ⟨S256, .f32⟩
  | 12 => ⟨S256, .f32⟩
  | 13 => ⟨S256, .f32⟩
  | 14 => ⟨S16x256, .f32⟩
  | 15 => ⟨S256, .f32⟩
  | 16 => ⟨S256x128, .f32⟩
  | 17 => ⟨S128, .f32⟩
  | 18 => ⟨S128x128, .f32⟩
  | 19 => ⟨S128, .f32⟩
  | 20 => ⟨S128, .f32⟩
  | 21 => ⟨S128, .f32⟩
  | 22 => ⟨S128, .f32⟩
  | 23 => ⟨S128, .f32⟩
  | 24 => ⟨S16x128, .f32⟩
  | 25 => ⟨S128, .f32⟩
  | 26 => ⟨S128x64, .f32⟩
  | 27 => ⟨S64, .f32⟩
  | 28 => ⟨S64x64, .f32⟩
  | 29 => ⟨S64, .f32⟩
  | 30 => ⟨S64, .f32⟩
  | 31 => ⟨S64, .f32⟩
  | 32 => ⟨S64, .f32⟩
  | 33 => ⟨S64, .f32⟩
  | 34 => ⟨S64x16, .f32⟩
  | 35 => ⟨S16, .f32⟩
  | 36 => ⟨S16x1, .f32⟩
  | 37 => ⟨S1, .f32⟩
  | 38 => ⟨S1x800000, .i32⟩
  | 39 => ⟨S800000, .i32⟩
  | 40 => ⟨S1x800000, .i32⟩
  | 41 => ⟨S800000, .i32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S1, .i32⟩
  | 51 => ⟨S_, .i32⟩
  | 52 => ⟨S800000x1, .i32⟩
  | 53 => ⟨S800000x1, .i1⟩
  | 54 => ⟨S1x1, .i32⟩
  | 55 => ⟨S800000x1, .i32⟩
  | 56 => ⟨S800000x1, .i1⟩
  | 57 => ⟨S800000x1, .i1⟩
  | 58 => ⟨S_, .i1⟩
  | 59 => ⟨S800000, .i1⟩
  | 60 => ⟨S800000x64, .f32⟩
  | 61 => ⟨S800000x64, .i1⟩
  | 62 => ⟨S_, .f32⟩
  | 63 => ⟨S800000x64, .f32⟩
  | 64 => ⟨S800000x64, .f32⟩
  | 65 => ⟨S800000x64, .f32⟩
  | 66 => ⟨S_, .f32⟩
  | 67 => ⟨S50000x64, .f32⟩
  | 68 => ⟨S800000x1, .i32⟩
  | 69 => ⟨S50000x64, .f32⟩
  | 70 => ⟨S50000x256, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S1, .i32⟩
  | 80 => ⟨S_, .i32⟩
  | 81 => ⟨S800000x1, .i32⟩
  | 82 => ⟨S800000x1, .i1⟩
  | 83 => ⟨S1x1, .i32⟩
  | 84 => ⟨S800000x1, .i32⟩
  | 85 => ⟨S800000x1, .i1⟩
  | 86 => ⟨S800000x1, .i1⟩
  | 87 => ⟨S_, .i1⟩
  | 88 => ⟨S800000, .i1⟩
  | 89 => ⟨S800000x256, .f32⟩
  | 90 => ⟨S800000x256, .i1⟩
  | 91 => ⟨S_, .f32⟩
  | 92 => ⟨S800000x256, .f32⟩
  | 93 => ⟨S800000x256, .f32⟩
  | 94 => ⟨S800000x256, .f32⟩
  | 95 => ⟨S_, .f32⟩
  | 96 => ⟨S50000x256, .f32⟩
  | 97 => ⟨S800000x1, .i32⟩
  | 98 => ⟨S50000x256, .f32⟩
  | 99 => ⟨S50000x128, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S1, .i32⟩
  | 109 => ⟨S_, .i32⟩
  | 110 => ⟨S800000x1, .i32⟩
  | 111 => ⟨S800000x1, .i1⟩
  | 112 => ⟨S1x1, .i32⟩
  | 113 => ⟨S800000x1, .i32⟩
  | 114 => ⟨S800000x1, .i1⟩
  | 115 => ⟨S800000x1, .i1⟩
  | 116 => ⟨S_, .i1⟩
  | 117 => ⟨S800000, .i1⟩
  | 118 => ⟨S800000x128, .f32⟩
  | 119 => ⟨S800000x128, .i1⟩
  | 120 => ⟨S_, .f32⟩
  | 121 => ⟨S800000x128, .f32⟩
  | 122 => ⟨S800000x128, .f32⟩
  | 123 => ⟨S800000x128, .f32⟩
  | 124 => ⟨S_, .f32⟩
  | 125 => ⟨S50000x128, .f32⟩
  | 126 => ⟨S800000x1, .i32⟩
  | 127 => ⟨S50000x128, .f32⟩
  | _ => ⟨S50000x64, .f32⟩

abbrev hbmTy0_1 (i : Nat) : BufTy := match i % 128 with
  | 0 => ⟨S50000x64, .f32⟩
  | 1 => ⟨S_, .f32⟩
  | 2 => ⟨S128x64, .f32⟩
  | 3 => ⟨S50000x1, .i32⟩
  | 4 => ⟨S128x64, .f32⟩
  | 5 => ⟨S128x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S4000x16, .f32⟩
  | .local _ .vmem, ⟨1, _⟩ => ⟨S4000x16, .f32⟩
  | .local _ .vmem, ⟨2, _⟩ => ⟨S4000x64, .f32⟩
  | .local _ .vmem, ⟨3, _⟩ => ⟨S4000x64, .f32⟩
  | .local _ .vmem, ⟨4, _⟩ => ⟨S16x64, .f32⟩
  | .local _ .vmem, ⟨5, _⟩ => ⟨S64, .f32⟩
  | .local _ .vmem, ⟨6, _⟩ => ⟨S4000x64, .f32⟩
  | .local _ .vmem, ⟨7, _⟩ => ⟨S4000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x256, .f32⟩
  | .local _ .vmem, ⟨13, _⟩ => ⟨S256, .f32⟩
  | .local _ .vmem, ⟨14, _⟩ => ⟨S256x256, .f32⟩
  | .local _ .vmem, ⟨15, _⟩ => ⟨S256, .f32⟩
  | .local _ .vmem, ⟨16, _⟩ => ⟨S256, .f32⟩
  | .local _ .vmem, ⟨17, _⟩ => ⟨S256, .f32⟩
  | .local _ .vmem, ⟨18, _⟩ => ⟨S256, .f32⟩
  | .local _ .vmem, ⟨19, _⟩ => ⟨S256, .f32⟩
  | .local _ .vmem, ⟨20, _⟩ => ⟨S2000x256, .f32⟩
  | .local _ .vmem, ⟨21, _⟩ => ⟨S2000x256, .f32⟩
  | .local _ .vmem, ⟨22, _⟩ => ⟨S4000x16, .f32⟩
  | .local _ .vmem, ⟨23, _⟩ => ⟨S4000x16, .f32⟩
  | .local _ .vmem, ⟨24, _⟩ => ⟨S4000x256, .f32⟩
  | .local _ .vmem, ⟨25, _⟩ => ⟨S4000x256, .f32⟩
  | .local _ .vmem, ⟨26, _⟩ => ⟨S16x256, .f32⟩
  | .local _ .vmem, ⟨27, _⟩ => ⟨S256, .f32⟩
  | .local _ .vmem, ⟨28, _⟩ => ⟨S4000x256, .f32⟩
  | .local _ .vmem, ⟨29, _⟩ => ⟨S4000x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S256x128, .f32⟩
  | .local _ .vmem, ⟨35, _⟩ => ⟨S128, .f32⟩
  | .local _ .vmem, ⟨36, _⟩ => ⟨S128x128, .f32⟩
  | .local _ .vmem, ⟨37, _⟩ => ⟨S128, .f32⟩
  | .local _ .vmem, ⟨38, _⟩ => ⟨S128, .f32⟩
  | .local _ .vmem, ⟨39, _⟩ => ⟨S128, .f32⟩
  | .local _ .vmem, ⟨40, _⟩ => ⟨S128, .f32⟩
  | .local _ .vmem, ⟨41, _⟩ => ⟨S128, .f32⟩
  | .local _ .vmem, ⟨42, _⟩ => ⟨S2000x128, .f32⟩
  | .local _ .vmem, ⟨43, _⟩ => ⟨S2000x128, .f32⟩
  | .local _ .vmem, ⟨44, _⟩ => ⟨S4000x16, .f32⟩
  | .local _ .vmem, ⟨45, _⟩ => ⟨S4000x16, .f32⟩
  | .local _ .vmem, ⟨46, _⟩ => ⟨S4000x128, .f32⟩
  | .local _ .vmem, ⟨47, _⟩ => ⟨S4000x128, .f32⟩
  | .local _ .vmem, ⟨48, _⟩ => ⟨S16x128, .f32⟩
  | .local _ .vmem, ⟨49, _⟩ => ⟨S128, .f32⟩
  | .local _ .vmem, ⟨50, _⟩ => ⟨S4000x128, .f32⟩
  | .local _ .vmem, ⟨51, _⟩ => ⟨S4000x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S128x64, .f32⟩
  | .local _ .vmem, ⟨57, _⟩ => ⟨S64, .f32⟩
  | .local _ .vmem, ⟨58, _⟩ => ⟨S64x64, .f32⟩
  | .local _ .vmem, ⟨59, _⟩ => ⟨S64, .f32⟩
  | .local _ .vmem, ⟨60, _⟩ => ⟨S64, .f32⟩
  | .local _ .vmem, ⟨61, _⟩ => ⟨S64, .f32⟩
  | .local _ .vmem, ⟨62, _⟩ => ⟨S64, .f32⟩
  | .local _ .vmem, ⟨63, _⟩ => ⟨S64, .f32⟩
  | .local _ .vmem, ⟨64, _⟩ => ⟨S2000x64, .f32⟩
  | .local _ .vmem, ⟨65, _⟩ => ⟨S2000x64, .f32⟩
  | .local _ .vmem, ⟨66, _⟩ => ⟨S128x64, .f32⟩
  | .local _ .vmem, ⟨67, _⟩ => ⟨S64x16, .f32⟩
  | .local _ .vmem, ⟨68, _⟩ => ⟨S16, .f32⟩
  | .local _ .vmem, ⟨69, _⟩ => ⟨S16x1, .f32⟩
  | .local _ .vmem, ⟨70, _⟩ => ⟨S1, .f32⟩
  | .local _ .vmem, ⟨71, _⟩ => ⟨S128x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_v0 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_call0_c : Ref sig .tc := ⟨.hbm, 42, rfl⟩
abbrev main_call0_v0 : Ref sig .tc := ⟨.hbm, 43, rfl⟩
abbrev main_call0_v1 : Ref sig .tc := ⟨.hbm, 44, rfl⟩
abbrev main_call0_c_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_c_1 : Ref sig .tc := ⟨.hbm, 50, rfl⟩
abbrev main_call0_c_2 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_3 : Ref sig .tc := ⟨.hbm, 58, rfl⟩
abbrev main_call0_v12 : Ref sig .tc := ⟨.hbm, 59, rfl⟩
abbrev main_call0_v13 : Ref sig .tc := ⟨.hbm, 60, rfl⟩
abbrev main_call0_v14 : Ref sig .tc := ⟨.hbm, 61, rfl⟩
abbrev main_call0_cst : Ref sig .tc := ⟨.hbm, 62, rfl⟩
abbrev main_call0_v15 : Ref sig .tc := ⟨.hbm, 63, rfl⟩
abbrev main_v4 : Ref sig .tc := ⟨.hbm, 64, rfl⟩
abbrev main_v5 : Ref sig .tc := ⟨.hbm, 65, rfl⟩
abbrev main_cst : Ref sig .tc := ⟨.hbm, 66, rfl⟩
abbrev main_v6 : Ref sig .tc := ⟨.hbm, 67, rfl⟩
abbrev main_v7 : Ref sig .tc := ⟨.hbm, 68, rfl⟩
abbrev main_v8 : Ref sig .tc := ⟨.hbm, 69, rfl⟩
abbrev main_v9 : Ref sig .tc := ⟨.hbm, 70, rfl⟩
abbrev main_call1_c : Ref sig .tc := ⟨.hbm, 71, rfl⟩
abbrev main_call1_v0 : Ref sig .tc := ⟨.hbm, 72, rfl⟩
abbrev main_call1_v1 : Ref sig .tc := ⟨.hbm, 73, rfl⟩
abbrev main_call1_c_0 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_c_1 : Ref sig .tc := ⟨.hbm, 79, rfl⟩
abbrev main_call1_c_2 : Ref sig .tc := ⟨.hbm, 80, rfl⟩
abbrev main_call1_v6 : Ref sig .tc := ⟨.hbm, 81, rfl⟩
abbrev main_call1_v7 : Ref sig .tc := ⟨.hbm, 82, rfl⟩
abbrev main_call1_v8 : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_call1_c_3 : Ref sig .tc := ⟨.hbm, 87, rfl⟩
abbrev main_call1_v12 : Ref sig .tc := ⟨.hbm, 88, rfl⟩
abbrev main_call1_v13 : Ref sig .tc := ⟨.hbm, 89, rfl⟩
abbrev main_call1_v14 : Ref sig .tc := ⟨.hbm, 90, rfl⟩
abbrev main_call1_cst : Ref sig .tc := ⟨.hbm, 91, rfl⟩
abbrev main_call1_v15 : Ref sig .tc := ⟨.hbm, 92, rfl⟩
abbrev main_v10 : Ref sig .tc := ⟨.hbm, 93, rfl⟩
abbrev main_v11 : Ref sig .tc := ⟨.hbm, 94, rfl⟩
abbrev main_cst_0 : Ref sig .tc := ⟨.hbm, 95, rfl⟩
abbrev main_v12 : Ref sig .tc := ⟨.hbm, 96, rfl⟩
abbrev main_v13 : Ref sig .tc := ⟨.hbm, 97, rfl⟩
abbrev main_v14 : Ref sig .tc := ⟨.hbm, 98, rfl⟩
abbrev main_v15 : Ref sig .tc := ⟨.hbm, 99, rfl⟩
abbrev main_call2_c : Ref sig .tc := ⟨.hbm, 100, rfl⟩
abbrev main_call2_v0 : Ref sig .tc := ⟨.hbm, 101, rfl⟩
abbrev main_call2_v1 : Ref sig .tc := ⟨.hbm, 102, rfl⟩
abbrev main_call2_c_0 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_v5 : Ref sig .tc := ⟨.hbm, 107, rfl⟩
abbrev main_call2_c_1 : Ref sig .tc := ⟨.hbm, 108, rfl⟩
abbrev main_call2_c_2 : Ref sig .tc := ⟨.hbm, 109, rfl⟩
abbrev main_call2_v6 : Ref sig .tc := ⟨.hbm, 110, rfl⟩
abbrev main_call2_v7 : Ref sig .tc := ⟨.hbm, 111, rfl⟩
abbrev main_call2_v8 : Ref sig .tc := ⟨.hbm, 112, rfl⟩
abbrev main_call2_v9 : Ref sig .tc := ⟨.hbm, 113, rfl⟩
abbrev main_call2_v10 : Ref sig .tc := ⟨.hbm, 114, rfl⟩
abbrev main_call2_v11 : Ref sig .tc := ⟨.hbm, 115, rfl⟩
abbrev main_call2_c_3 : Ref sig .tc := ⟨.hbm, 116, rfl⟩
abbrev main_call2_v12 : Ref sig .tc := ⟨.hbm, 117, rfl⟩
abbrev main_call2_v13 : Ref sig .tc := ⟨.hbm, 118, rfl⟩
abbrev main_call2_v14 : Ref sig .tc := ⟨.hbm, 119, rfl⟩
abbrev main_call2_cst : Ref sig .tc := ⟨.hbm, 120, rfl⟩
abbrev main_call2_v15 : Ref sig .tc := ⟨.hbm, 121, rfl⟩
abbrev main_v16 : Ref sig .tc := ⟨.hbm, 122, rfl⟩
abbrev main_v17 : Ref sig .tc := ⟨.hbm, 123, rfl⟩
abbrev main_cst_1 : Ref sig .tc := ⟨.hbm, 124, rfl⟩
abbrev main_v18 : Ref sig .tc := ⟨.hbm, 125, rfl⟩
abbrev main_v19 : Ref sig .tc := ⟨.hbm, 126, rfl⟩
abbrev main_v20 : Ref sig .tc := ⟨.hbm, 127, rfl⟩
abbrev main_v21 : Ref sig .tc := ⟨.hbm, 128, rfl⟩
abbrev main_cst_2 : Ref sig .tc := ⟨.hbm, 129, rfl⟩
abbrev main_v22 : Ref sig .tc := ⟨.hbm, 130, rfl⟩
abbrev main_v23 : Ref sig .tc := ⟨.hbm, 131, rfl⟩
abbrev main_v24 : Ref sig .tc := ⟨.hbm, 132, rfl⟩
abbrev main_v25 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg10_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg7_0 : Ref sig .tc := ⟨.vmem, 39, rfl⟩
abbrev cc3_stg8_0 : Ref sig .tc := ⟨.vmem, 40, rfl⟩
abbrev cc3_stg9_0 : Ref sig .tc := ⟨.vmem, 41, rfl⟩
abbrev cc3_stg10_0 : Ref sig .tc := ⟨.vmem, 42, rfl⟩
abbrev cc3_stg10_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg4_1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg1_1 : Ref sig .tc := ⟨.vmem, 55, rfl⟩
abbrev cc5_stg2_0 : Ref sig .tc := ⟨.vmem, 56, rfl⟩
abbrev cc5_stg3_0 : Ref sig .tc := ⟨.vmem, 57, rfl⟩
abbrev cc5_stg4_0 : Ref sig .tc := ⟨.vmem, 58, rfl⟩
abbrev cc5_stg5_0 : Ref sig .tc := ⟨.vmem, 59, rfl⟩
abbrev cc5_stg6_0 : Ref sig .tc := ⟨.vmem, 60, rfl⟩
abbrev cc5_stg7_0 : Ref sig .tc := ⟨.vmem, 61, rfl⟩
abbrev cc5_stg8_0 : Ref sig .tc := ⟨.vmem, 62, rfl⟩
abbrev cc5_stg9_0 : Ref sig .tc := ⟨.vmem, 63, rfl⟩
abbrev cc5_stg10_0 : Ref sig .tc := ⟨.vmem, 64, rfl⟩
abbrev cc5_stg10_1 : Ref sig .tc := ⟨.vmem, 65, rfl⟩
abbrev cc6_stg0_0 : Ref sig .tc := ⟨.vmem, 66, rfl⟩
abbrev cc6_stg1_0 : Ref sig .tc := ⟨.vmem, 67, rfl⟩
abbrev cc6_stg2_0 : Ref sig .tc := ⟨.vmem, 68, rfl⟩
abbrev cc6_stg3_0 : Ref sig .tc := ⟨.vmem, 69, rfl⟩
abbrev cc6_stg4_0 : Ref sig .tc := ⟨.vmem, 70, rfl⟩
abbrev cc6_stg5_0 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem10_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem7_0 : DmaSem sig := 39
abbrev cc3_sem8_0 : DmaSem sig := 40
abbrev cc3_sem9_0 : DmaSem sig := 41
abbrev cc3_sem10_0 : DmaSem sig := 42
abbrev cc3_sem10_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem3_0 : DmaSem sig := 49
abbrev cc4_sem4_0 : DmaSem sig := 50
abbrev cc4_sem4_1 : DmaSem sig := 51
abbrev cc5_sem0_0 : DmaSem sig := 52
abbrev cc5_sem0_1 : DmaSem sig := 53
abbrev cc5_sem1_0 : DmaSem sig := 54
abbrev cc5_sem1_1 : DmaSem sig := 55
abbrev cc5_sem2_0 : DmaSem sig := 56
abbrev cc5_sem3_0 : DmaSem sig := 57
abbrev cc5_sem4_0 : DmaSem sig := 58
abbrev cc5_sem5_0 : DmaSem sig := 59
abbrev cc5_sem6_0 : DmaSem sig := 60
abbrev cc5_sem7_0 : DmaSem sig := 61
abbrev cc5_sem8_0 : DmaSem sig := 62
abbrev cc5_sem9_0 : DmaSem sig := 63
abbrev cc5_sem10_0 : DmaSem sig := 64
abbrev cc5_sem10_1 : DmaSem sig := 65
abbrev cc6_sem0_0 : DmaSem sig := 66
abbrev cc6_sem1_0 : DmaSem sig := 67
abbrev cc6_sem2_0 : DmaSem sig := 68
abbrev cc6_sem3_0 : DmaSem sig := 69
abbrev cc6_sem4_0 : DmaSem sig := 70
abbrev cc6_sem5_0 : DmaSem sig := 71

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S2000x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S16x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S4000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_8 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_9 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S64 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S64 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 2 → Memref sig .tc .vmem S2000x64 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S128x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S16 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S16x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  inb_S4000x16_S4000x16_0_0 : ∀ a, (![0, 0] : Fin 2 → Nat) a + S4000x16.size a ≤ S4000x16.size a
  h_S4000x16 : 0 < S4000x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  bcast_S_S50000x64 : S_.BroadcastsInDim S50000x64 (![] : Fin 0 → Fin S50000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x256_S64x256_0_0 : ∀ a, (![0, 0] : Fin 2 → Nat) a + S64x256.size a ≤ S64x256.size a
  h_S64x256 : 0 < S64x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S2000x256_S2000x256_0_0 : ∀ a, (![0, 0] : Fin 2 → Nat) a + S2000x256.size a ≤ S2000x256.size a
  h_S2000x256 : 0 < S2000x256.numel
  bcast_S800000_S800000x256_0 : S800000.BroadcastsInDim S800000x256 (![0] : Fin 1 → Fin S800000x256.rank)
  bcast_S_S800000x256 : S_.BroadcastsInDim S800000x256 (![] : Fin 0 → Fin S800000x256.rank)
  inb_S16x256_S16x256_0_0 : ∀ a, (![0, 0] : Fin 2 → Nat) a + S16x256.size a ≤ S16x256.size a
  h_S16x256 : 0 < S16x256.numel
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  broadcasts_S1x256_S4000x256 : S1x256.Broadcasts S4000x256
  bcast_S_S50000x256 : S_.BroadcastsInDim S50000x256 (![] : Fin 0 → Fin S50000x256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  bcast_S800000_S800000x128_0 : S800000.BroadcastsInDim S800000x128 (![0] : Fin 1 → Fin S800000x128.rank)
  bcast_S_S800000x128 : S_.BroadcastsInDim S800000x128 (![] : Fin 0 → Fin S800000x128.rank)
  inb_S16x128_S16x128_0_0 : ∀ a, (![0, 0] : Fin 2 → Nat) a + S16x128.size a ≤ S16x128.size a
  h_S16x128 : 0 < S16x128.numel
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S1x128_S4000x128 : S1x128.Broadcasts S4000x128
  bcast_S_S50000x128 : S_.BroadcastsInDim S50000x128 (![] : Fin 0 → Fin S50000x128.rank)
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  broadcasts_S1x64_S2000x64 : S1x64.Broadcasts S2000x64
  inb_S64x64_S64x64_0_0 : ∀ a, (![0, 0] : Fin 2 → Nat) a + S64x64.size a ≤ S64x64.size a
  h_S64x64 : 0 < S64x64.numel
  bcast_S_S128x64 : S_.BroadcastsInDim S128x64 (![] : Fin 0 → Fin S128x64.rank)
  bcast_S50000_S50000x1_0 : S50000.BroadcastsInDim S50000x1 (![0] : Fin 1 → Fin S50000x1.rank)
  shapeCasts_S128x64_S128x64 : S128x64.ShapeCasts S128x64
  inb_S64x16_S64x16_0_0 : ∀ a, (![0, 0] : Fin 2 → Nat) a + S64x16.size a ≤ S64x16.size a
  h_S64x16 : 0 < S64x16.numel
  inb_S16_S16_0 : ∀ a, (![0] : Fin 1 → Nat) a + S16.size a ≤ S16.size a
  h_S16 : 0 < S16.numel
  shapeCasts_S16_S1x16 : S16.ShapeCasts S1x16
  broadcasts_S1x16_S128x16 : S1x16.Broadcasts S128x16
  inb_S16x1_S16x1_0_0 : ∀ a, (![0, 0] : Fin 2 → Nat) a + S16x1.size a ≤ S16x1.size a
  h_S16x1 : 0 < S16x1.numel
  inb_S1_S1_0 : ∀ a, (![0] : Fin 1 → Nat) a + S1.size a ≤ S1.size a
  h_S1 : 0 < S1.numel
  shapeCasts_S1_S1x1 : S1.ShapeCasts S1x1
  broadcasts_S1x1_S128x1 : S1x1.Broadcasts S128x1
  inb_S128x1_S128x1_0_0 : ∀ a, (![0, 0] : Fin 2 → Nat) a + S128x1.size a ≤ S128x1.size a
  h_S128x1 : 0 < S128x1.numel
  gather_S50000x64_S800000x1_S800000x64_1_0_n_n_0_1_164_wf : GatherDims.WF S50000x64 S800000x1 S800000x64 [1] [0] [] [0] [] 1 ![1, 64]
  dot_S4000x16_S16x64_S4000x64_1_0_0_1_n_n_wf : DotDims.WF S4000x16 S16x64 S4000x64 [1] [0] [0] [1] [] []
  scatter_S50000x64_S800000x1_S800000x64_1_0_0_1_wf : ScatterDims.WF S50000x64 S800000x1 S800000x64 [1] [0] [0] 1
  dot_S2000x64_S64x256_S2000x256_1_0_0_1_n_n_wf : DotDims.WF S2000x64 S64x256 S2000x256 [1] [0] [0] [1] [] []
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  dot_S4000x16_S16x256_S4000x256_1_0_0_1_n_n_wf : DotDims.WF S4000x16 S16x256 S4000x256 [1] [0] [0] [1] [] []
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  dot_S4000x16_S16x128_S4000x128_1_0_0_1_n_n_wf : DotDims.WF S4000x16 S16x128 S4000x128 [1] [0] [0] [1] [] []
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  dot_S2000x64_S64x64_S2000x64_1_0_0_1_n_n_wf : DotDims.WF S2000x64 S64x64 S2000x64 [1] [0] [0] [1] [] []
  scatter_S128x64_S50000x1_S50000x64_1_0_0_1_wf : ScatterDims.WF S128x64 S50000x1 S50000x64 [1] [0] [0] 1
  dot_S128x64_S64x16_S128x16_1_0_0_1_n_n_wf : DotDims.WF S128x64 S64x16 S128x16 [1] [0] [0] [1] [] []
  dot_S128x16_S16x1_S128x1_1_0_0_1_n_n_wf : DotDims.WF S128x16 S16x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x16.size a ≤ S800000x16.size a
  hwx0_0 : ∀ i : grid0.Coords, EltTy.bits .f32 = 32 ∨ (Rect.block (s := S800000x16) S4000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S800000x64.size a
  hwx0_1 : ∀ i : grid0.Coords, EltTy.bits .f32 = 32 ∨ (Rect.block (s := S800000x64) S4000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x64.size a ≤ S16x64.size a
  hwx0_2 : ∀ i : grid0.Coords, EltTy.bits .f32 = 32 ∨ (Rect.block (s := S16x64) S16x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x64.size a ≤ S800000x64.size a
  hwx0_4 : ∀ i : grid0.Coords, EltTy.bits .f32 = 32 ∨ (Rect.block (s := S800000x64) S4000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x256.size a ≤ S64x256.size a
  hwx1_2 : ∀ i : grid1.Coords, EltTy.bits .f32 = 32 ∨ (Rect.block (s := S64x256) S64x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S256.size a
  hwx1_6 : ∀ i : grid1.Coords, EltTy.bits .f32 = 32 ∨ (Rect.block (s := S256) S256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256.size a ≤ S256.size a
  hwx1_7 : ∀ i : grid1.Coords, EltTy.bits .f32 = 32 ∨ (Rect.block (s := S256) S256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256.size a ≤ S256.size a
  hwx1_8 : ∀ i : grid1.Coords, EltTy.bits .f32 = 32 ∨ (Rect.block (s := S256) S256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256.size a ≤ S256.size a
  hwx1_9 : ∀ i : grid1.Coords, EltTy.bits .f32 = 32 ∨ (Rect.block (s := S256) S256.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x256.size a ≤ S50000x256.size a
  hwx1_10 : ∀ i : grid1.Coords, EltTy.bits .f32 = 32 ∨ (Rect.block (s := S50000x256) S2000x256.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x16.size a ≤ S800000x16.size a
  hwx2_0 : ∀ i : grid2.Coords, EltTy.bits .f32 = 32 ∨ (Rect.block (s := S800000x16) S4000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x256.size a ≤ S800000x256.size a
  hwx2_1 : ∀ i : grid2.Coords, EltTy.bits .f32 = 32 ∨ (Rect.block (s := S800000x256) S4000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x256.size a ≤ S16x256.size a
  hwx2_2 : ∀ i : grid2.Coords, EltTy.bits .f32 = 32 ∨ (Rect.block (s := S16x256) S16x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x256.size a ≤ S800000x256.size a
  hwx2_4 : ∀ i : grid2.Coords, EltTy.bits .f32 = 32 ∨ (Rect.block (s := S800000x256) S4000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x128.size a ≤ S256x128.size a
  hwx3_2 : ∀ i : grid3.Coords, EltTy.bits .f32 = 32 ∨ (Rect.block (s := S256x128) S256x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128.size a ≤ S128.size a
  hwx3_7 : ∀ i : grid3.Coords, EltTy.bits .f32 = 32 ∨ (Rect.block (s := S128) S128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128.size a ≤ S128.size a
  hwx3_8 : ∀ i : grid3.Coords, EltTy.bits .f32 = 32 ∨ (Rect.block (s := S128) S128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128.size a ≤ S128.size a
  hwx3_9 : ∀ i : grid3.Coords, EltTy.bits .f32 = 32 ∨ (Rect.block (s := S128) S128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S2000x128.size a ≤ S50000x128.size a
  hwx3_10 : ∀ i : grid3.Coords, EltTy.bits .f32 = 32 ∨ (Rect.block (s := S50000x128) S2000x128.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x16.size a ≤ S800000x16.size a
  hwx4_0 : ∀ i : grid4.Coords, EltTy.bits .f32 = 32 ∨ (Rect.block (s := S800000x16) S4000x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S800000x128.size a
  hwx4_1 : ∀ i : grid4.Coords, EltTy.bits .f32 = 32 ∨ (Rect.block (s := S800000x128) S4000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S16x128.size a ≤ S16x128.size a
  hwx4_2 : ∀ i : grid4.Coords, EltTy.bits .f32 = 32 ∨ (Rect.block (s := S16x128) S16x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x128.size a ≤ S800000x128.size a
  hwx4_4 : ∀ i : grid4.Coords, EltTy.bits .f32 = 32 ∨ (Rect.block (s := S800000x128) S4000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x64.size a ≤ S128x64.size a
  hwx5_2 : ∀ i : grid5.Coords, EltTy.bits .f32 = 32 ∨ (Rect.block (s := S128x64) S128x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64.size a ≤ S64.size a
  hwx5_3 : ∀ i : grid5.Coords, EltTy.bits .f32 = 32 ∨ (Rect.block (s := S64) S64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64.size a ≤ S64.size a
  hwx5_5 : ∀ i : grid5.Coords, EltTy.bits .f32 = 32 ∨ (Rect.block (s := S64) S64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S64.size a ≤ S64.size a
  hwx5_6 : ∀ i : grid5.Coords, EltTy.bits .f32 = 32 ∨ (Rect.block (s := S64) S64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S64.size a ≤ S64.size a
  hwx5_7 : ∀ i : grid5.Coords, EltTy.bits .f32 = 32 ∨ (Rect.block (s := S64) S64.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S64.size a ≤ S64.size a
  hwx5_8 : ∀ i : grid5.Coords, EltTy.bits .f32 = 32 ∨ (Rect.block (s := S64) S64.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S64.size a ≤ S64.size a
  hwx5_9 : ∀ i : grid5.Coords, EltTy.bits .f32 = 32 ∨ (Rect.block (s := S64) S64.size (cc5_transform_9 i) (hinb5_9 i)).WholeWords (EltTy.packing .f32)
  hstage5_10 : ∀ j, (stage5_10 j).IsWhole
  nbuf5_10 : grid5.bufCount reads5_10 false = 2
  hreads5_10 : ∀ i i' : grid5.Coords, (∀ a, reads5_10 a = true → i a = i' a) → cc5_transform_10 i = cc5_transform_10 i'
  hinb5_10 : ∀ (i : grid5.Coords) a, (cc5_transform_10 i a + 1) * S2000x64.size a ≤ S50000x64.size a
  hwx5_10 : ∀ i : grid5.Coords, EltTy.bits .f32 = 32 ∨ (Rect.block (s := S50000x64) S2000x64.size (cc5_transform_10 i) (hinb5_10 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S128x64.size a ≤ S128x64.size a
  hwx6_0 : ∀ i : grid6.Coords, EltTy.bits .f32 = 32 ∨ (Rect.block (s := S128x64) S128x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x16.size a ≤ S64x16.size a
  hwx6_1 : ∀ i : grid6.Coords, EltTy.bits .f32 = 32 ∨ (Rect.block (s := S64x16) S64x16.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S16.size a ≤ S16.size a
  hwx6_2 : ∀ i : grid6.Coords, EltTy.bits .f32 = 32 ∨ (Rect.block (s := S16) S16.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S16x1.size a ≤ S16x1.size a
  hwx6_3 : ∀ i : grid6.Coords, EltTy.bits .f32 = 32 ∨ (Rect.block (s := S16x1) S16x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1.size a ≤ S1.size a
  hwx6_4 : ∀ i : grid6.Coords, EltTy.bits .f32 = 32 ∨ (Rect.block (s := S1) S1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x1.size a ≤ S128x1.size a
  hwx6_5 : ∀ i : grid6.Coords, EltTy.bits .f32 = 32 ∨ (Rect.block (s := S128x1) S128x1.size (cc6_transform_5 i) (hinb6_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4000x16_S16x64_S4000x64_1_0_0_1_n_n : DotDims S4000x16 S16x64 S4000x64 where
  lhsContracting := [1]
  rhsContracting := [0]
  lhsNonContracting := [0]
  rhsNonContracting := [1]
  lhsBatch := []
  rhsBatch := []
  wf := dot_S4000x16_S16x64_S4000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def dot_S4000x16_S16x256_S4000x256_1_0_0_1_n_n : DotDims S4000x16 S16x256 S4000x256 where
  lhsContracting := [1]
  rhsContracting := [0]
  lhsNonContracting := [0]
  rhsNonContracting := [1]
  lhsBatch := []
  rhsBatch := []
  wf := dot_S4000x16_S16x256_S4000x256_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x16_S16x128_S4000x128_1_0_0_1_n_n : DotDims S4000x16 S16x128 S4000x128 where
  lhsContracting := [1]
  rhsContracting := [0]
  lhsNonContracting := [0]
  rhsNonContracting := [1]
  lhsBatch := []
  rhsBatch := []
  wf := dot_S4000x16_S16x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S128x64_S50000x1_S50000x64_1_0_0_1 : ScatterDims S128x64 S50000x1 S50000x64 where
  updateWindowDims := [1]
  insertedWindowDims := [0]
  scatterDimsToOperandDims := [0]
  indexVectorDim := 1
  wf := scatter_S128x64_S50000x1_S50000x64_1_0_0_1_wf
def dot_S128x64_S64x16_S128x16_1_0_0_1_n_n : DotDims S128x64 S64x16 S128x16 where
  lhsContracting := [1]
  rhsContracting := [0]
  lhsNonContracting := [0]
  rhsNonContracting := [1]
  lhsBatch := []
  rhsBatch := []
  wf := dot_S128x64_S64x16_S128x16_1_0_0_1_n_n_wf
def dot_S128x16_S16x1_S128x1_1_0_0_1_n_n : DotDims S128x16 S16x1 S128x1 where
  lhsContracting := [1]
  rhsContracting := [0]
  lhsNonContracting := [0]
  rhsNonContracting := [1]
  lhsBatch := []
  rhsBatch := []
  wf := dot_S128x16_S16x1_S128x1_1_0_0_1_n_n_wf

abbrev win0_0 : Pipeline.Window sig grid0 :=
  Pipeline.Window.ofSpec (Memref.whole main_arg1) S4000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S16x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg12) S256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg13) S256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v9) S2000x256.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_arg1) S4000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S4000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg14) S16x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg15) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11) S4000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v9) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg16) S256x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg17) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg18) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg19) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg20) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg21) S128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg22) S128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg23) S128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v15) S2000x128.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_arg1) S4000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v16) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg24) S16x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg25) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v17) S4000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v15) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v20) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg26) S128x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg27) S64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg28) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg29) S64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg30) S64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg31) S64.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_arg32) S64.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_arg33) S64.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v21) S2000x64.size cc5_transform_10 reads5_10 true false 2 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

abbrev win6_0 : Pipeline.Window sig grid6 :=
  Pipeline.Window.ofSpec (Memref.whole main_v24) S128x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg34) S64x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg35) S16.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg36) S16x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg37) S1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v25) S128x1.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x64 : Shape := ⟨2, ![50000, 64]⟩
abbrev S800000x16 : Shape := ⟨2, ![800000, 16]⟩
abbrev S2x800000 : Shape := ⟨2, ![2, 800000]⟩
abbrev S50000 : Shape := ⟨1, ![50000]⟩
abbrev S16x64 : Shape := ⟨2, ![16, 64]⟩
abbrev S64 : Shape := ⟨1, ![64]⟩
abbrev S64x256 : Shape := ⟨2, ![64, 256]⟩
abbrev S256 : Shape := ⟨1, ![256]⟩
abbrev S256x256 : Shape := ⟨2, ![256, 256]⟩
abbrev S16x256 : Shape := ⟨2, ![16, 256]⟩
abbrev S256x128 : Shape := ⟨2, ![256, 128]⟩
abbrev S128 : Shape := ⟨1, ![128]⟩
abbrev S128x128 : Shape := ⟨2, ![128, 128]⟩
abbrev S16x128 : Shape := ⟨2, ![16, 128]⟩
abbrev S128x64 : Shape := ⟨2, ![128, 64]⟩
abbrev S64x64 : Shape := ⟨2, ![64, 64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S50000x256 : Shape := ⟨2, ![50000, 256]⟩
abbrev S1x256 : Shape := ⟨2, ![1, 256]⟩
abbrev S800000x256 : Shape := ⟨2, ![800000, 256]⟩
abbrev S50000x128 : Shape := ⟨2, ![50000, 128]⟩
abbrev S1x128 : Shape := ⟨2, ![1, 128]⟩
abbrev S800000x128 : Shape := ⟨2, ![800000, 128]⟩
abbrev S50000x1 : Shape := ⟨2, ![50000, 1]⟩
abbrev S128x16 : Shape := ⟨2, ![128, 16]⟩
abbrev S1x16 : Shape := ⟨2, ![1, 16]⟩
abbrev S128x1 : Shape := ⟨2, ![128, 1]⟩
abbrev S1x1 : Shape := ⟨2, ![1, 1]⟩

abbrev nBuf : Space → Nat
  | .hbm => 221
  | .vmem => 0
  | .smem => 0
  | _ => 0

abbrev hbmTy0_0 (i : Nat) : BufTy := match i % 128 with
  | 0 => ⟨S50000x64, .f32⟩
  | 1 => ⟨S800000x16, .f32⟩
  | 2 => ⟨S2x800000, .i32⟩
  | 3 => ⟨S50000, .i32⟩
  | 4 => ⟨S16x64, .f32⟩
  | 5 => ⟨S64, .f32⟩
  | 6 => ⟨S64x256, .f32⟩
  | 7 => ⟨S256, .f32⟩
  | 8 => ⟨S256x256, .f32⟩
  | 9 => ⟨S256, .f32⟩
  | 10 => ⟨S256, .f32⟩
  | 11 => ⟨S256, .f32⟩
  | 12 => ⟨S256, .f32⟩
  | 13 => ⟨S256, .f32⟩
  | 14 => ⟨S16x256, .f32⟩
  | 15 => ⟨S256, .f32⟩
  | 16 => ⟨S256x128, .f32⟩
  | 17 => ⟨S128, .f32⟩
  | 18 => ⟨S128x128, .f32⟩
  | 19 => ⟨S128, .f32⟩
  | 20 => ⟨S128, .f32⟩
  | 21 => ⟨S128, .f32⟩
  | 22 => ⟨S128, .f32⟩
  | 23 => ⟨S128, .f32⟩
  | 24 => ⟨S16x128, .f32⟩
  | 25 => ⟨S128, .f32⟩
  | 26 => ⟨S128x64, .f32⟩
  | 27 => ⟨S64, .f32⟩
  | 28 => ⟨S64x64, .f32⟩
  | 29 => ⟨S64, .f32⟩
  | 30 => ⟨S64, .f32⟩
  | 31 => ⟨S64, .f32⟩
  | 32 => ⟨S64, .f32⟩
  | 33 => ⟨S64, .f32⟩
  | 34 => ⟨S64x16, .f32⟩
  | 35 => ⟨S16, .f32⟩
  | 36 => ⟨S16x1, .f32⟩
  | 37 => ⟨S1, .f32⟩
  | 38 => ⟨S1x800000, .i32⟩
  | 39 => ⟨S800000, .i32⟩
  | 40 => ⟨S1x800000, .i32⟩
  | 41 => ⟨S800000, .i32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x64, .f32⟩
  | 51 => ⟨S800000x64, .f32⟩
  | 52 => ⟨S800000x64, .f32⟩
  | 53 => ⟨S1x64, .f32⟩
  | 54 => ⟨S800000x64, .f32⟩
  | 55 => ⟨S800000x64, .f32⟩
  | 56 => ⟨S_, .f32⟩
  | 57 => ⟨S800000x64, .f32⟩
  | 58 => ⟨S800000x64, .f32⟩
  | 59 => ⟨S_, .f32⟩
  | 60 => ⟨S50000x64, .f32⟩
  | 61 => ⟨S800000x1, .i32⟩
  | 62 => ⟨S50000x64, .f32⟩
  | 63 => ⟨S50000x64, .f32⟩
  | 64 => ⟨S50000x256, .f32⟩
  | 65 => ⟨S1x256, .f32⟩
  | 66 => ⟨S50000x256, .f32⟩
  | 67 => ⟨S50000x256, .f32⟩
  | 68 => ⟨S_, .f32⟩
  | 69 => ⟨S50000x256, .f32⟩
  | 70 => ⟨S50000x256, .f32⟩
  | 71 => ⟨S50000x256, .f32⟩
  | 72 => ⟨S1x256, .f32⟩
  | 73 => ⟨S50000x256, .f32⟩
  | 74 => ⟨S50000x256, .f32⟩
  | 75 => ⟨S_, .f32⟩
  | 76 => ⟨S50000x256, .f32⟩
  | 77 => ⟨S50000x256, .f32⟩
  | 78 => ⟨S1x256, .f32⟩
  | 79 => ⟨S50000x256, .f32⟩
  | 80 => ⟨S50000x256, .f32⟩
  | 81 => ⟨S_, .f32⟩
  | 82 => ⟨S256, .f32⟩
  | 83 => ⟨S256, .f32⟩
  | 84 => ⟨S256, .f32⟩
  | 85 => ⟨S1x256, .f32⟩
  | 86 => ⟨S50000x256, .f32⟩
  | 87 => ⟨S50000x256, .f32⟩
  | 88 => ⟨S1x256, .f32⟩
  | 89 => ⟨S50000x256, .f32⟩
  | 90 => ⟨S50000x256, .f32⟩
  | 91 => ⟨S1x256, .f32⟩
  | 92 => ⟨S50000x256, .f32⟩
  | 93 => ⟨S50000x256, .f32⟩
  | 94 => ⟨S1x800000, .i32⟩
  | 95 => ⟨S800000, .i32⟩
  | 96 => ⟨S1x800000, .i32⟩
  | 97 => ⟨S800000, .i32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x256, .f32⟩
  | 107 => ⟨S800000x256, .f32⟩
  | 108 => ⟨S800000x256, .f32⟩
  | 109 => ⟨S1x256, .f32⟩
  | 110 => ⟨S800000x256, .f32⟩
  | 111 => ⟨S800000x256, .f32⟩
  | 112 => ⟨S_, .f32⟩
  | 113 => ⟨S800000x256, .f32⟩
  | 114 => ⟨S800000x256, .f32⟩
  | 115 => ⟨S_, .f32⟩
  | 116 => ⟨S50000x256, .f32⟩
  | 117 => ⟨S800000x1, .i32⟩
  | 118 => ⟨S50000x256, .f32⟩
  | 119 => ⟨S50000x256, .f32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S50000x128, .f32⟩
  | _ => ⟨S50000x64, .f32⟩

abbrev hbmTy0_1 (i : Nat) : BufTy := match i % 128 with
  | 0 => ⟨S1x128, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S1x128, .f32⟩
  | 7 => ⟨S50000x128, .f32⟩
  | 8 => ⟨S50000x128, .f32⟩
  | 9 => ⟨S_, .f32⟩
  | 10 => ⟨S128, .f32⟩
  | 11 => ⟨S128, .f32⟩
  | 12 => ⟨S128, .f32⟩
  | 13 => ⟨S1x128, .f32⟩
  | 14 => ⟨S50000x128, .f32⟩
  | 15 => ⟨S50000x128, .f32⟩
  | 16 => ⟨S1x128, .f32⟩
  | 17 => ⟨S50000x128, .f32⟩
  | 18 => ⟨S50000x128, .f32⟩
  | 19 => ⟨S1x128, .f32⟩
  | 20 => ⟨S50000x128, .f32⟩
  | 21 => ⟨S50000x128, .f32⟩
  | 22 => ⟨S1x800000, .i32⟩
  | 23 => ⟨S800000, .i32⟩
  | 24 => ⟨S1x800000, .i32⟩
  | 25 => ⟨S800000, .i32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x128, .f32⟩
  | 35 => ⟨S800000x128, .f32⟩
  | 36 => ⟨S800000x128, .f32⟩
  | 37 => ⟨S1x128, .f32⟩
  | 38 => ⟨S800000x128, .f32⟩
  | 39 => ⟨S800000x128, .f32⟩
  | 40 => ⟨S_, .f32⟩
  | 41 => ⟨S800000x128, .f32⟩
  | 42 => ⟨S800000x128, .f32⟩
  | 43 => ⟨S_, .f32⟩
  | 44 => ⟨S50000x128, .f32⟩
  | 45 => ⟨S800000x1, .i32⟩
  | 46 => ⟨S50000x128, .f32⟩
  | 47 => ⟨S50000x128, .f32⟩
  | 48 => ⟨S50000x64, .f32⟩
  | 49 => ⟨S1x64, .f32⟩
  | 50 => ⟨S50000x64, .f32⟩
  | 51 => ⟨S50000x64, .f32⟩
  | 52 => ⟨S_, .f32⟩
  | 53 => ⟨S50000x64, .f32⟩
  | 54 => ⟨S50000x64, .f32⟩
  | 55 => ⟨S50000x64, .f32⟩
  | 56 => ⟨S1x64, .f32⟩
  | 57 => ⟨S50000x64, .f32⟩
  | 58 => ⟨S50000x64, .f32⟩
  | 59 => ⟨S_, .f32⟩
  | 60 => ⟨S50000x64, .f32⟩
  | 61 => ⟨S50000x64, .f32⟩
  | 62 => ⟨S1x64, .f32⟩
  | 63 => ⟨S50000x64, .f32⟩
  | 64 => ⟨S50000x64, .f32⟩
  | 65 => ⟨S_, .f32⟩
  | 66 => ⟨S64, .f32⟩
  | 67 => ⟨S64, .f32⟩
  | 68 => ⟨S64, .f32⟩
  | 69 => ⟨S1x64, .f32⟩
  | 70 => ⟨S50000x64, .f32⟩
  | 71 => ⟨S50000x64, .f32⟩
  | 72 => ⟨S1x64, .f32⟩
  | 73 => ⟨S50000x64, .f32⟩
  | 74 => ⟨S50000x64, .f32⟩
  | 75 => ⟨S1x64, .f32⟩
  | 76 => ⟨S50000x64, .f32⟩
  | 77 => ⟨S50000x64, .f32⟩
  | 78 => ⟨S_, .f32⟩
  | 79 => ⟨S128x64, .f32⟩
  | 80 => ⟨S50000x1, .i32⟩
  | 81 => ⟨S128x64, .f32⟩
  | 82 => ⟨S128x16, .f32⟩
  | 83 => ⟨S1x16, .f32⟩
  | 84 => ⟨S128x16, .f32⟩
  | 85 => ⟨S128x16, .f32⟩
  | 86 => ⟨S_, .f32⟩
  | 87 => ⟨S128x16, .f32⟩
  | 88 => ⟨S128x16, .f32⟩
  | 89 => ⟨S128x1, .f32⟩
  | 90 => ⟨S1x1, .f32⟩
  | 91 => ⟨S128x1, .f32⟩
  | 92 => ⟨S128x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_v0 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_c : Ref sig .tc := ⟨.hbm, 42, rfl⟩
abbrev main_v4 : Ref sig .tc := ⟨.hbm, 43, rfl⟩
abbrev main_v5 : Ref sig .tc := ⟨.hbm, 44, rfl⟩
abbrev main_c_0 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_call0_cst : Ref sig .tc := ⟨.hbm, 56, rfl⟩
abbrev main_call0_v0 : Ref sig .tc := ⟨.hbm, 57, rfl⟩
abbrev main_v16 : Ref sig .tc := ⟨.hbm, 58, rfl⟩
abbrev main_cst : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_call1_cst : Ref sig .tc := ⟨.hbm, 68, rfl⟩
abbrev main_call1_v0 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_call2_cst : Ref sig .tc := ⟨.hbm, 75, rfl⟩
abbrev main_call2_v0 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_cst_1 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_c_2 : Ref sig .tc := ⟨.hbm, 98, rfl⟩
abbrev main_v50 : Ref sig .tc := ⟨.hbm, 99, rfl⟩
abbrev main_v51 : Ref sig .tc := ⟨.hbm, 100, rfl⟩
abbrev main_c_3 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_call3_cst : Ref sig .tc := ⟨.hbm, 112, rfl⟩
abbrev main_call3_v0 : Ref sig .tc := ⟨.hbm, 113, rfl⟩
abbrev main_v62 : Ref sig .tc := ⟨.hbm, 114, rfl⟩
abbrev main_cst_4 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_call4_cst : Ref sig .tc := ⟨.hbm, 124, rfl⟩
abbrev main_call4_v0 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_call5_cst : Ref sig .tc := ⟨.hbm, 131, rfl⟩
abbrev main_call5_v0 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_cst_5 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_c_6 : Ref sig .tc := ⟨.hbm, 154, rfl⟩
abbrev main_v96 : Ref sig .tc := ⟨.hbm, 155, rfl⟩
abbrev main_v97 : Ref sig .tc := ⟨.hbm, 156, rfl⟩
abbrev main_c_7 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_call6_cst : Ref sig .tc := ⟨.hbm, 168, rfl⟩
abbrev main_call6_v0 : Ref sig .tc := ⟨.hbm, 169, rfl⟩
abbrev main_v108 : Ref sig .tc := ⟨.hbm, 170, rfl⟩
abbrev main_cst_8 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_call7_cst : Ref sig .tc := ⟨.hbm, 180, rfl⟩
abbrev main_call7_v0 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_call8_cst : Ref sig .tc := ⟨.hbm, 187, rfl⟩
abbrev main_call8_v0 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_cst_9 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_cst_10 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_call9_cst : Ref sig .tc := ⟨.hbm, 214, rfl⟩
abbrev main_call9_v0 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S_S256 : S_.BroadcastsInDim S256 (![] : Fin 0 → Fin S256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S128 : S_.BroadcastsInDim S128 (![] : Fin 0 → Fin S128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1x64_S50000x64_0_1 : S1x64.BroadcastsInDim S50000x64 (![0, 1] : Fin 2 → Fin S50000x64.rank)
  bcast_S_S64 : S_.BroadcastsInDim S64 (![] : Fin 0 → Fin S64.rank)
  bcast_S_S128x64 : S_.BroadcastsInDim S128x64 (![] : Fin 0 → Fin S128x64.rank)
  bcast_S50000_S50000x1_0 : S50000.BroadcastsInDim S50000x1 (![0] : Fin 1 → Fin S50000x1.rank)
  bcast_S16_S1x16_1 : S16.BroadcastsInDim S1x16 (![1] : Fin 1 → Fin S1x16.rank)
  bcast_S1x16_S128x16_0_1 : S1x16.BroadcastsInDim S128x16 (![0, 1] : Fin 2 → Fin S128x16.rank)
  bcast_S_S128x16 : S_.BroadcastsInDim S128x16 (![] : Fin 0 → Fin S128x16.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  gather_S50000x64_S800000x1_S800000x64_1_0_n_n_0_1_164_wf : GatherDims.WF S50000x64 S800000x1 S800000x64 [1] [0] [] [0] [] 1 ![1, 64]
  dot_S800000x16_S16x64_S800000x64_1_0_0_1_n_n_wf : DotDims.WF S800000x16 S16x64 S800000x64 [1] [0] [0] [1] [] []
  scatter_S50000x64_S800000x1_S800000x64_1_0_0_1_wf : ScatterDims.WF S50000x64 S800000x1 S800000x64 [1] [0] [0] 1
  dot_S50000x64_S64x256_S50000x256_1_0_0_1_n_n_wf : DotDims.WF S50000x64 S64x256 S50000x256 [1] [0] [0] [1] [] []
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  dot_S800000x16_S16x256_S800000x256_1_0_0_1_n_n_wf : DotDims.WF S800000x16 S16x256 S800000x256 [1] [0] [0] [1] [] []
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  dot_S800000x16_S16x128_S800000x128_1_0_0_1_n_n_wf : DotDims.WF S800000x16 S16x128 S800000x128 [1] [0] [0] [1] [] []
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  scatter_S128x64_S50000x1_S50000x64_1_0_0_1_wf : ScatterDims.WF S128x64 S50000x1 S50000x64 [1] [0] [0] 1
  dot_S128x64_S64x16_S128x16_1_0_0_1_n_n_wf : DotDims.WF S128x64 S64x16 S128x16 [1] [0] [0] [1] [] []
  dot_S128x16_S16x1_S128x1_1_0_0_1_n_n_wf : DotDims.WF S128x16 S16x1 S128x1 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x16_S16x64_S800000x64_1_0_0_1_n_n : DotDims S800000x16 S16x64 S800000x64 where
  lhsContracting := [1]
  rhsContracting := [0]
  lhsNonContracting := [0]
  rhsNonContracting := [1]
  lhsBatch := []
  rhsBatch := []
  wf := dot_S800000x16_S16x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def dot_S800000x16_S16x256_S800000x256_1_0_0_1_n_n : DotDims S800000x16 S16x256 S800000x256 where
  lhsContracting := [1]
  rhsContracting := [0]
  lhsNonContracting := [0]
  rhsNonContracting := [1]
  lhsBatch := []
  rhsBatch := []
  wf := dot_S800000x16_S16x256_S800000x256_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x16_S16x128_S800000x128_1_0_0_1_n_n : DotDims S800000x16 S16x128 S800000x128 where
  lhsContracting := [1]
  rhsContracting := [0]
  lhsNonContracting := [0]
  rhsNonContracting := [1]
  lhsBatch := []
  rhsBatch := []
  wf := dot_S800000x16_S16x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S128x64_S50000x1_S50000x64_1_0_0_1 : ScatterDims S128x64 S50000x1 S50000x64 where
  updateWindowDims := [1]
  insertedWindowDims := [0]
  scatterDimsToOperandDims := [0]
  indexVectorDim := 1
  wf := scatter_S128x64_S50000x1_S50000x64_1_0_0_1_wf
def dot_S128x64_S64x16_S128x16_1_0_0_1_n_n : DotDims S128x64 S64x16 S128x16 where
  lhsContracting := [1]
  rhsContracting := [0]
  lhsNonContracting := [0]
  rhsNonContracting := [1]
  lhsBatch := []
  rhsBatch := []
  wf := dot_S128x64_S64x16_S128x16_1_0_0_1_n_n_wf
def dot_S128x16_S16x1_S128x1_1_0_0_1_n_n : DotDims S128x16 S16x1 S128x1 where
  lhsContracting := [1]
  rhsContracting := [0]
  lhsNonContracting := [0]
  rhsNonContracting := [1]
  lhsBatch := []
  rhsBatch := []
  wf := dot_S128x16_S16x1_S128x1_1_0_0_1_n_n_wf

class Facts : Prop extends Facts₀ where

variable [Facts]
-- ==== Proof.Take.lean ====
/-
  Taking rows of a table at a vector of indices, as the kernel's program spells it.

  The program reads, for each of the 800000 edges, the row of a 50000-row table at the edge's source index. An index
  `i` is first normalised (`i + 50000` where `i < 0`, else `i`); the normalised indices are laid out as a column; a
  flag per edge says whether its normalised index lies in `0 … 49999`; the rows are gathered at the column; and the
  result keeps the gathered row where the flag is set and holds a fixed filler word in every entry of the row where it
  is clear. This file names those pieces, for tables of 64, 256 and 128 columns, and the two rows of the edge index
  array (sources and destinations) as vectors.
-/
import proofs.«411645_j14336600834819_1_alg».proof.Proof.Gen.KernelIdeal

noncomputable section

namespace Cert.KernelIdeal.Take

open Cert.KernelIdeal Cert.KernelIdeal.Gen Idealize.ShloMosaic

variable {F : FTy → Type} [FloatOps F]

/-- The source indices: row 0 of the edge index array. -/
def srcRow (ei : IVec S2x800000 32) : IVec S800000 32 :=
  shapeCast _ (extractStridedSlice S1x800000 ![0, 0] ei slices_S2x800000_S1x800000_0_0) shapeCasts_S1x800000_S800000

/-- The destination indices: row 1 of the edge index array. -/
def dstRow (ei : IVec S2x800000 32) : IVec S800000 32 :=
  shapeCast _ (extractStridedSlice S1x800000 ![1, 0] ei slices_S2x800000_S1x800000_1_0) shapeCasts_S1x800000_S800000

/-- Each negative index moved up by the number of rows. -/
def wrap (s : IVec S800000 32) : IVec S800000 32 :=
  select (cmpi .slt s (broadcastInDim S800000 ![] bcast_S_S800000 (constantI S_ 32 0#32)))
    (addi s (broadcastInDim S800000 ![] bcast_S_S800000 (constantI S_ 32 50000#32))) s

/-- The normalised indices as a column. -/
def idxCol (s : IVec S800000 32) : IVec S800000x1 32 :=
  broadcastInDim S800000x1 ![0] bcast_S800000_S800000x1_0 (wrap s)

/-- Per edge, whether the normalised index lies in `0 … 49999`. -/
def inRange (s : IVec S800000 32) : IVec S800000 1 :=
  Host.reduce IntOp.andi
    (andi (cmpi .sge (idxCol s) (broadcastInDim S800000x1 ![] bcast_S_S800000x1 (constantI S_ 32 0#32)))
      (cmpi .sle (idxCol s) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- Rows of a 64-column table taken at the source indices: the gathered row where the index is in range, the filler
    word elsewhere. -/
def take64 (x : FVec F S50000x64 .f32) (s : IVec S800000 32) : FVec F S800000x64 .f32 :=
  select (broadcastInDim S800000x64 ![0] bcast_S800000_S800000x64_0 (inRange s))
    (Host.gather gather_S50000x64_S800000x1_S800000x64_1_0_n_n_0_1_164 x (idxCol s))
    (broadcastInDim S800000x64 ![] bcast_S_S800000x64 (constant S_ .f32 0x7FC00000#32))

/-- Rows of a 256-column table taken at the source indices: the gathered row where the index is in range, the filler
    word elsewhere. -/
def take256 (x : FVec F S50000x256 .f32) (s : IVec S800000 32) : FVec F S800000x256 .f32 :=
  select (broadcastInDim S800000x256 ![0] bcast_S800000_S800000x256_0 (inRange s))
    (Host.gather gather_S50000x256_S800000x1_S800000x256_1_0_n_n_0_1_1256 x (idxCol s))
    (broadcastInDim S800000x256 ![] bcast_S_S800000x256 (constant S_ .f32 0x7FC00000#32))

/-- Rows of a 128-column table taken at the source indices: the gathered row where the index is in range, the filler
    word elsewhere. -/
def take128 (x : FVec F S50000x128 .f32) (s : IVec S800000 32) : FVec F S800000x128 .f32 :=
  select (broadcastInDim S800000x128 ![0] bcast_S800000_S800000x128_0 (inRange s))
    (Host.gather gather_S50000x128_S800000x1_S800000x128_1_0_n_n_0_1_1128 x (idxCol s))
    (broadcastInDim S800000x128 ![] bcast_S_S800000x128 (constant S_ .f32 0x7FC00000#32))

end Cert.KernelIdeal.Take

end
-- ==== Proof.EdgeSpec.lean ====
/-
  The message an edge sends, as one function of the arrays it is computed from.

  For an edge `p` and a feature `q` the message is the entry `(p, q)` of the row gathered for the edge's source
  node, plus the projection of the edge's sixteen attributes onto feature `q` (a sum of sixteen products), plus the
  bias of feature `q`, clipped below at zero:

      msg p q = max (xs p q + (∑ k, ea p k * we k q) + be q) 0.

  The additions are grouped as written: the gathered entry and the projection first, the bias last. Nothing here
  needs the entries to be finite: the statement is about one fixed expression on the extended reals.

  The definition is stated for any number `R` of rows and any width `f`, so that it describes a block of rows and
  the whole array by the same words. A message depends only on its own row of the attributes and of the gathered
  rows (`edgeMsgAt_congr`): if row `p'` of one pair of arrays holds what row `p` of another pair holds, the two
  messages are equal. That is how a block of consecutive rows is related to the array it is cut from.
-/
import Idealize.ShloMosaic.PureOps.Ideal
import Idealize.ShloMosaic.Lib.ValueIdx

open scoped BigOperators

noncomputable section

namespace Cert.Spec

open Idealize.ShloMosaic Idealize.ShloMosaic.ValueIdx

/-- The message of edge `p` at feature `q`. -/
def edgeMsgAt {R f : ℕ} (ea : FVec Ideal ⟨2, ![R, 16]⟩ .f32) (xs : FVec Ideal ⟨2, ![R, f]⟩ .f32)
    (we : FVec Ideal ⟨2, ![16, f]⟩ .f32) (be : FVec Ideal ⟨1, ![f]⟩ .f32) (p : Fin R) (q : Fin f) : EReal :=
  max (xs (ix2 p q) + (∑ k : Fin 16, ea (ix2 p k) * we (ix2 k q)) + be (ix1 q)) 0

/-- All messages, as an array of `R` rows and `f` features. -/
def edgeMsg {R f : ℕ} (ea : FVec Ideal ⟨2, ![R, 16]⟩ .f32) (xs : FVec Ideal ⟨2, ![R, f]⟩ .f32)
    (we : FVec Ideal ⟨2, ![16, f]⟩ .f32) (be : FVec Ideal ⟨1, ![f]⟩ .f32) : FVec Ideal ⟨2, ![R, f]⟩ .f32 :=
  fun i => edgeMsgAt ea xs we be (i 0) (i 1)

/-- The array at `(p, q)` is the message of edge `p` at feature `q`. -/
theorem edgeMsg_apply {R f : ℕ} (ea : FVec Ideal ⟨2, ![R, 16]⟩ .f32) (xs : FVec Ideal ⟨2, ![R, f]⟩ .f32)
    (we : FVec Ideal ⟨2, ![16, f]⟩ .f32) (be : FVec Ideal ⟨1, ![f]⟩ .f32) (p : Fin R) (q : Fin f) :
    edgeMsg ea xs we be (ix2 p q) = edgeMsgAt ea xs we be p q := rfl

/-- A message depends only on its own row of the attributes and of the gathered rows: if two pairs of arrays agree
    on row `p'` of one and row `p` of the other, the messages of those rows are equal. -/
theorem edgeMsgAt_congr {R R' f : ℕ} (ea : FVec Ideal ⟨2, ![R, 16]⟩ .f32) (xs : FVec Ideal ⟨2, ![R, f]⟩ .f32)
    (ea' : FVec Ideal ⟨2, ![R', 16]⟩ .f32) (xs' : FVec Ideal ⟨2, ![R', f]⟩ .f32)
    (we : FVec Ideal ⟨2, ![16, f]⟩ .f32) (be : FVec Ideal ⟨1, ![f]⟩ .f32) (p : Fin R) (p' : Fin R') (q : Fin f)
    (hea : ∀ k : Fin 16, ea' (ix2 p' k) = ea (ix2 p k)) (hxs : xs' (ix2 p' q) = xs (ix2 p q)) :
    edgeMsgAt ea' xs' we be p' q = edgeMsgAt ea xs we be p q := by
  unfold edgeMsgAt
  rw [hxs]
  congr 3
  exact Finset.sum_congr rfl fun k _ => by rw [hea k]

end Cert.Spec

end
-- ==== Proof.NodeSpec.lean ====
/-
  A node's new feature vector, as one function of the arrays it is computed from.

  For a node `p` the update adds the aggregated messages to the node's own features, passes the sum through two
  dense layers with a clip below at zero after each, and normalises each output feature `q` with that feature's
  stored mean, variance, scale and shift:

      s j   = x p j + agg p j
      hid k = max ((∑ j, s j * wa j k) + ba k) 0
      o     = max ((∑ k, hid k * wb k q) + bb q) 0
      out p q = ((o - mu q) * rsqrt (var q + ε)) * g q + sh q,

  with `ε` the single-precision word nearest to one hundred-thousandth, kept as that word and never evaluated.
  The products of the last line are grouped as written, left to right. No entry is assumed finite and the variance
  is not assumed non-negative: the statement is about one fixed expression on the extended reals, whatever it
  evaluates to.

  The definition is stated for any number `R` of rows, so that it describes a block of rows and the whole array by
  the same words. A node's update depends only on its own row of the features and of the aggregate
  (`nodeUpdAt_congr`).
-/
import Idealize.ShloMosaic.PureOps.Ideal
import Idealize.ShloMosaic.Lib.ValueIdx

open scoped BigOperators

noncomputable section

namespace Cert.Spec

open Idealize.ShloMosaic Idealize.ShloMosaic.ValueIdx

/-- The constant added to a variance before the reciprocal square root: the word both programs carry. -/
def bnEps : EReal := Ideal.ofBits .f32 0x3727C5AC#32

/-- The first dense layer's output `k` for node `p`, clipped below at zero. -/
def nodeHidAt {R a h : ℕ} (x agg : FVec Ideal ⟨2, ![R, a]⟩ .f32) (wa : FVec Ideal ⟨2, ![a, h]⟩ .f32)
    (ba : FVec Ideal ⟨1, ![h]⟩ .f32) (p : Fin R) (k : Fin h) : EReal :=
  max ((∑ j : Fin a, (x (ix2 p j) + agg (ix2 p j)) * wa (ix2 j k)) + ba (ix1 k)) 0

/-- The new feature `q` of node `p`. -/
def nodeUpdAt {R a h b : ℕ} (x agg : FVec Ideal ⟨2, ![R, a]⟩ .f32) (wa : FVec Ideal ⟨2, ![a, h]⟩ .f32)
    (ba : FVec Ideal ⟨1, ![h]⟩ .f32) (wb : FVec Ideal ⟨2, ![h, b]⟩ .f32) (bb g sh mu var : FVec Ideal ⟨1, ![b]⟩ .f32)
    (p : Fin R) (q : Fin b) : EReal :=
  ((max ((∑ k : Fin h, nodeHidAt x agg wa ba p k * wb (ix2 k q)) + bb (ix1 q)) 0 - mu (ix1 q))
      * Ideal.rsqrt (var (ix1 q) + bnEps)) * g (ix1 q) + sh (ix1 q)

/-- All new features, as an array of `R` rows and `b` features. -/
def nodeUpd {R a h b : ℕ} (x agg : FVec Ideal ⟨2, ![R, a]⟩ .f32) (wa : FVec Ideal ⟨2, ![a, h]⟩ .f32)
    (ba : FVec Ideal ⟨1, ![h]⟩ .f32) (wb : FVec Ideal ⟨2, ![h, b]⟩ .f32) (bb g sh mu var : FVec Ideal ⟨1, ![b]⟩ .f32) :
    FVec Ideal ⟨2, ![R, b]⟩ .f32 :=
  fun i => nodeUpdAt x agg wa ba wb bb g sh mu var (i 0) (i 1)

/-- The array at `(p, q)` is the new feature `q` of node `p`. -/
theorem nodeUpd_apply {R a h b : ℕ} (x agg : FVec Ideal ⟨2, ![R, a]⟩ .f32) (wa : FVec Ideal ⟨2, ![a, h]⟩ .f32)
    (ba : FVec Ideal ⟨1, ![h]⟩ .f32) (wb : FVec Ideal ⟨2, ![h, b]⟩ .f32) (bb g sh mu var : FVec Ideal ⟨1, ![b]⟩ .f32)
    (p : Fin R) (q : Fin b) :
    nodeUpd x agg wa ba wb bb g sh mu var (ix2 p q) = nodeUpdAt x agg wa ba wb bb g sh mu var p q := rfl

/-- The first layer's output for a node depends only on the node's own row. -/
theorem nodeHidAt_congr {R R' a h : ℕ} (x agg : FVec Ideal ⟨2, ![R, a]⟩ .f32) (x' agg' : FVec Ideal ⟨2, ![R', a]⟩ .f32)
    (wa : FVec Ideal ⟨2, ![a, h]⟩ .f32) (ba : FVec Ideal ⟨1, ![h]⟩ .f32) (p : Fin R) (p' : Fin R') (k : Fin h)
    (hx : ∀ j : Fin a, x' (ix2 p' j) = x (ix2 p j)) (hagg : ∀ j : Fin a, agg' (ix2 p' j) = agg (ix2 p j)) :
    nodeHidAt x' agg' wa ba p' k = nodeHidAt x agg wa ba p k := by
  unfold nodeHidAt
  congr 2
  exact Finset.sum_congr rfl fun j _ => by rw [hx j, hagg j]

/-- A node's update depends only on its own row of the features and of the aggregate: if row `p'` of one pair of
    arrays holds what row `p` of another pair holds, the two updates are equal. -/
theorem nodeUpdAt_congr {R R' a h b : ℕ} (x agg : FVec Ideal ⟨2, ![R, a]⟩ .f32) (x' agg' : FVec Ideal ⟨2, ![R', a]⟩ .f32)
    (wa : FVec Ideal ⟨2, ![a, h]⟩ .f32) (ba : FVec Ideal ⟨1, ![h]⟩ .f32) (wb : FVec Ideal ⟨2, ![h, b]⟩ .f32)
    (bb g sh mu var : FVec Ideal ⟨1, ![b]⟩ .f32) (p : Fin R) (p' : Fin R') (q : Fin b)
    (hx : ∀ j : Fin a, x' (ix2 p' j) = x (ix2 p j)) (hagg : ∀ j : Fin a, agg' (ix2 p' j) = agg (ix2 p j)) :
    nodeUpdAt x' agg' wa ba wb bb g sh mu var p' q = nodeUpdAt x agg wa ba wb bb g sh mu var p q := by
  unfold nodeUpdAt
  have e : ∀ k : Fin h, nodeHidAt x' agg' wa ba p' k = nodeHidAt x agg wa ba p k :=
    fun k => nodeHidAt_congr x agg x' agg' wa ba p p' k hx hagg
  simp only [e]

end Cert.Spec

end
-- ==== Proof.ReadoutSpec.lean ====
/-
  The value read out for a graph, as one function of the arrays it is computed from.

  For a graph `p` the readout passes the graph's pooled feature vector through a dense layer with a clip below at
  zero and then through a second dense layer:

      hid k   = max ((∑ j, pooled p j * w1 j k) + b1 k) 0
      out p q = (∑ k, hid k * w2 k q) + b2 q.

  No entry is assumed finite: the statement is about one fixed expression on the extended reals.
-/
import Idealize.ShloMosaic.PureOps.Ideal
import Idealize.ShloMosaic.Lib.ValueIdx

open scoped BigOperators

noncomputable section

namespace Cert.Spec

open Idealize.ShloMosaic Idealize.ShloMosaic.ValueIdx

/-- The hidden unit `k` of graph `p`, clipped below at zero. -/
def readoutHidAt {G a h : ℕ} (pooled : FVec Ideal ⟨2, ![G, a]⟩ .f32) (w1 : FVec Ideal ⟨2, ![a, h]⟩ .f32)
    (b1 : FVec Ideal ⟨1, ![h]⟩ .f32) (p : Fin G) (k : Fin h) : EReal :=
  max ((∑ j : Fin a, pooled (ix2 p j) * w1 (ix2 j k)) + b1 (ix1 k)) 0

/-- The output `q` of graph `p`. -/
def readoutAt {G a h b : ℕ} (pooled : FVec Ideal ⟨2, ![G, a]⟩ .f32) (w1 : FVec Ideal ⟨2, ![a, h]⟩ .f32)
    (b1 : FVec Ideal ⟨1, ![h]⟩ .f32) (w2 : FVec Ideal ⟨2, ![h, b]⟩ .f32) (b2 : FVec Ideal ⟨1, ![b]⟩ .f32)
    (p : Fin G) (q : Fin b) : EReal :=
  (∑ k : Fin h, readoutHidAt pooled w1 b1 p k * w2 (ix2 k q)) + b2 (ix1 q)

/-- All outputs, as an array of `G` rows and `b` columns. -/
def readout {G a h b : ℕ} (pooled : FVec Ideal ⟨2, ![G, a]⟩ .f32) (w1 : FVec Ideal ⟨2, ![a, h]⟩ .f32)
    (b1 : FVec Ideal ⟨1, ![h]⟩ .f32) (w2 : FVec Ideal ⟨2, ![h, b]⟩ .f32) (b2 : FVec Ideal ⟨1, ![b]⟩ .f32) :
    FVec Ideal ⟨2, ![G, b]⟩ .f32 :=
  fun i => readoutAt pooled w1 b1 w2 b2 (i 0) (i 1)

/-- The array at `(p, q)` is the output `q` of graph `p`. -/
theorem readout_apply {G a h b : ℕ} (pooled : FVec Ideal ⟨2, ![G, a]⟩ .f32) (w1 : FVec Ideal ⟨2, ![a, h]⟩ .f32)
    (b1 : FVec Ideal ⟨1, ![h]⟩ .f32) (w2 : FVec Ideal ⟨2, ![h, b]⟩ .f32) (b2 : FVec Ideal ⟨1, ![b]⟩ .f32)
    (p : Fin G) (q : Fin b) : readout pooled w1 b1 w2 b2 (ix2 p q) = readoutAt pooled w1 b1 w2 b2 p q := rfl

end Cert.Spec

end
-- ==== Proof.KernelNet.lean ====
/-
  The network the kernel's program computes, as one function of its arguments.

  Each of the three layers takes, for every edge, the row of the current node features at the edge's source index,
  forms the edge's message from that row and the edge's attributes, adds the messages up per destination node starting
  from zeros, and updates every node from its own features and its sum. The node features of the last layer are added
  up per graph, starting from zeros, and the readout is applied to the result. The layers' message, update and readout
  functions are the specification's; the sums and the taking of rows are the program's own host operations.
-/
import proofs.«411645_j14336600834819_1_alg».proof.Proof.Take
import proofs.«411645_j14336600834819_1_alg».proof.Proof.EdgeSpec
import proofs.«411645_j14336600834819_1_alg».proof.Proof.NodeSpec
import proofs.«411645_j14336600834819_1_alg».proof.Proof.ReadoutSpec

noncomputable section

namespace Cert.KernelIdeal.Net

open Cert.KernelIdeal Cert.KernelIdeal.Gen Cert.KernelIdeal.Take Idealize.ShloMosaic Idealize.ShloMosaic.TcCoe Idealize.SL.Sem

/-- Messages of 64 features added up per destination node, starting from zeros. -/
def sumTo64 (dst : IVec S800000 32) (msg : FVec Ideal S800000x64 .f32) : FVec Ideal S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst) msg

/-- Messages of 256 features added up per destination node, starting from zeros. -/
def sumTo256 (dst : IVec S800000 32) (msg : FVec Ideal S800000x256 .f32) : FVec Ideal S50000x256 .f32 :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 dst) msg

/-- Messages of 128 features added up per destination node, starting from zeros. -/
def sumTo128 (dst : IVec S800000 32) (msg : FVec Ideal S800000x128 .f32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst) msg

/-- Node features added up per graph, starting from zeros. -/
def pool (batch : IVec S50000 32) (h : FVec Ideal S50000x64 .f32) : FVec Ideal S128x64 .f32 :=
  Host.scatterAdd scatter_S128x64_S50000x1_S50000x64_1_0_0_1
    (broadcastInDim S128x64 ![] bcast_S_S128x64 (constant S_ .f32 0x00000000#32))
    (broadcastInDim S50000x1 ![0] bcast_S50000_S50000x1_0 batch) h

/-- Layer 1: take each edge's source row, form the messages, add them up per destination node, update every node. -/
def layer1 (x : FVec Ideal S50000x64 .f32) (ea : FVec Ideal S800000x16 .f32) (src dst : IVec S800000 32)
    (we : FVec Ideal S16x64 .f32) (be : FVec Ideal S64 .f32) (wa : FVec Ideal S64x256 .f32) (ba : FVec Ideal S256 .f32)
    (wb : FVec Ideal S256x256 .f32) (bb g sh mu var : FVec Ideal S256 .f32) : FVec Ideal S50000x256 .f32 :=
  Cert.Spec.nodeUpd x (sumTo64 dst (Cert.Spec.edgeMsg ea (take64 x src) we be)) wa ba wb bb g sh mu var

/-- Layer 2: take each edge's source row, form the messages, add them up per destination node, update every node. -/
def layer2 (x : FVec Ideal S50000x256 .f32) (ea : FVec Ideal S800000x16 .f32) (src dst : IVec S800000 32)
    (we : FVec Ideal S16x256 .f32) (be : FVec Ideal S256 .f32) (wa : FVec Ideal S256x128 .f32) (ba : FVec Ideal S128 .f32)
    (wb : FVec Ideal S128x128 .f32) (bb g sh mu var : FVec Ideal S128 .f32) : FVec Ideal S50000x128 .f32 :=
  Cert.Spec.nodeUpd x (sumTo256 dst (Cert.Spec.edgeMsg ea (take256 x src) we be)) wa ba wb bb g sh mu var

/-- Layer 3: take each edge's source row, form the messages, add them up per destination node, update every node. -/
def layer3 (x : FVec Ideal S50000x128 .f32) (ea : FVec Ideal S800000x16 .f32) (src dst : IVec S800000 32)
    (we : FVec Ideal S16x128 .f32) (be : FVec Ideal S128 .f32) (wa : FVec Ideal S128x64 .f32) (ba : FVec Ideal S64 .f32)
    (wb : FVec Ideal S64x64 .f32) (bb g sh mu var : FVec Ideal S64 .f32) : FVec Ideal S50000x64 .f32 :=
  Cert.Spec.nodeUpd x (sumTo128 dst (Cert.Spec.edgeMsg ea (take128 x src) we be)) wa ba wb bb g sh mu var

variable (m : (ℓ : Loc nD τ sig) → Buf (Elt Ideal) ℓ) (c : Dev nD)

/-- The first layer's node features, from the launch contents of the arguments. -/
def h1 : FVec Ideal S50000x256 .f32 :=
  layer1 (m ((c : Thread nD τ).loc main_arg0)) (m ((c : Thread nD τ).loc main_arg1)) (srcRow (m ((c : Thread nD τ).loc main_arg2))) (dstRow (m ((c : Thread nD τ).loc main_arg2))) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- The second layer's node features. -/
def h2 : FVec Ideal S50000x128 .f32 :=
  layer2 (h1 m c) (m ((c : Thread nD τ).loc main_arg1)) (srcRow (m ((c : Thread nD τ).loc main_arg2))) (dstRow (m ((c : Thread nD τ).loc main_arg2))) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))

/-- The third layer's node features. -/
def h3 : FVec Ideal S50000x64 .f32 :=
  layer3 (h2 m c) (m ((c : Thread nD τ).loc main_arg1)) (srcRow (m ((c : Thread nD τ).loc main_arg2))) (dstRow (m ((c : Thread nD τ).loc main_arg2))) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33))

/-- The program's result. -/
def net : FVec Ideal S128x1 .f32 :=
  Cert.Spec.readout (pool (m ((c : Thread nD τ).loc main_arg3)) (h3 m c)) (m ((c : Thread nD τ).loc main_arg34)) (m ((c : Thread nD τ).loc main_arg35)) (m ((c : Thread nD τ).loc main_arg36)) (m ((c : Thread nD τ).loc main_arg37))

end Cert.KernelIdeal.Net

end
-- ==== Proof.Keeps.lean ====
/-
  No step of the program changes a buffer it does not write.

  The program is a chain of fifteen steps: eight stretches of host operations and seven kernel regions. The buffer
  contents at the sixteen boundaries between them are `W0` (the launch memory) to `W15` (the final contents). A
  stretch of host operations writes only its operations' result buffers, so every other buffer holds after the
  stretch what it held before. A kernel region writes back only its output window's array: its input windows' arrays
  are read, never written, and a buffer that is no array of the region is not touched. So every buffer other than
  the region's output holds after the region what it held before.

  Each lemma is stated for an arbitrary buffer `b` under the hypothesis that the step does not write it, so that a
  value certificate can carry any buffer (an argument, or an intermediate result still to be read) across as many
  steps as it needs.
-/
import proofs.«411645_j14336600834819_1_alg».proof.Proof.Gen.KernelIdeal.Frame

set_option maxRecDepth 16384

noncomputable section

namespace Cert.KernelIdeal.Keeps

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-! ## The host stretches -/

/-- The buffers the operations of `hostOps0` write, in order. -/
abbrev written_hostOps0 : List (Ref sig .tc) :=
  [main_v0, main_v1, main_v2, main_v3]

/-- A buffer none of them writes holds after the stretch what it held before. -/
theorem hostOps0_keeps (c : Dev nD) (b : Ref sig .tc) (hb : b ∉ written_hostOps0) :
    W1 m ρ c (Proc.devRef .tc b) = W0 m ρ c (Proc.devRef .tc b) := by
  have h : ∀ v ∈ written_hostOps0, b ≠ v := fun v hv e => hb (e ▸ hv)
  refine StableHlo.after_of_forall_not_mem (b := Proc.devRef .tc b) _ _ (List.forall_iff_forall_mem.mp ?_)
  simp only [hostOps0, List.Forall, StableHlo.nullary_writes, StableHlo.unary_writes, StableHlo.binary_writes,
    StableHlo.ternary_writes, StableHlo.reshape_writes, Finset.mem_singleton]
  refine ⟨?_, ?_, ?_, ?_⟩ <;> exact StableHlo.devRef_ne_of_ne (h _ (by simp [written_hostOps0]))

/-- The buffers the operations of `hostOps0_1` write, in order. -/
abbrev written_hostOps0_1 : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]

/-- A buffer none of them writes holds after the stretch what it held before. -/
theorem hostOps0_1_keeps (c : Dev nD) (b : Ref sig .tc) (hb : b ∉ written_hostOps0_1) :
    W2 m ρ c (Proc.devRef .tc b) = W1 m ρ c (Proc.devRef .tc b) := by
  have h : ∀ v ∈ written_hostOps0_1, b ≠ v := fun v hv e => hb (e ▸ hv)
  refine StableHlo.after_of_forall_not_mem (b := Proc.devRef .tc b) _ _ (List.forall_iff_forall_mem.mp ?_)
  simp only [hostOps0_1, List.flatten_cons, List.flatten_nil, List.append_nil, List.cons_append, List.nil_append,
    List.Forall, StableHlo.nullary_writes, StableHlo.unary_writes, StableHlo.binary_writes,
    StableHlo.ternary_writes, StableHlo.quaternary_writes, StableHlo.reshape_writes,
    StableHlo.binaryIndexed_writes, Finset.mem_singleton]
  repeat' apply And.intro
  all_goals exact StableHlo.devRef_ne_of_ne (h _ (by simp [written_hostOps0_1]))

/-- The buffers the operations of `hostOps1` write, in order. -/
abbrev written_hostOps1 : List (Ref sig .tc) :=
  [main_cst, main_v6, main_v7, main_v8]

/-- A buffer none of them writes holds after the stretch what it held before. -/
theorem hostOps1_keeps (c : Dev nD) (b : Ref sig .tc) (hb : b ∉ written_hostOps1) :
    W4 m ρ c (Proc.devRef .tc b) = W3 m ρ c (Proc.devRef .tc b) := by
  have h : ∀ v ∈ written_hostOps1, b ≠ v := fun v hv e => hb (e ▸ hv)
  refine StableHlo.after_of_forall_not_mem (b := Proc.devRef .tc b) _ _ (List.forall_iff_forall_mem.mp ?_)
  simp only [hostOps1, List.flatten_cons, List.flatten_nil, List.append_nil, List.cons_append, List.nil_append,
    List.Forall, StableHlo.nullary_writes, StableHlo.unary_writes, StableHlo.binary_writes,
    StableHlo.ternary_writes, StableHlo.quaternary_writes, StableHlo.reshape_writes,
    StableHlo.binaryIndexed_writes, Finset.mem_singleton]
  refine ⟨?_, ?_, ?_, ?_⟩ <;> exact StableHlo.devRef_ne_of_ne (h _ (by simp [written_hostOps1]))

/-- The buffers the operations of `hostOps2` write, in order. -/
abbrev written_hostOps2 : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v10]

/-- A buffer none of them writes holds after the stretch what it held before. -/
theorem hostOps2_keeps (c : Dev nD) (b : Ref sig .tc) (hb : b ∉ written_hostOps2) :
    W6 m ρ c (Proc.devRef .tc b) = W5 m ρ c (Proc.devRef .tc b) := by
  have h : ∀ v ∈ written_hostOps2, b ≠ v := fun v hv e => hb (e ▸ hv)
  refine StableHlo.after_of_forall_not_mem (b := Proc.devRef .tc b) _ _ (List.forall_iff_forall_mem.mp ?_)
  simp only [hostOps2, List.flatten_cons, List.flatten_nil, List.append_nil, List.cons_append, List.nil_append,
    List.Forall, StableHlo.nullary_writes, StableHlo.unary_writes, StableHlo.binary_writes,
    StableHlo.ternary_writes, StableHlo.quaternary_writes, StableHlo.reshape_writes,
    StableHlo.binaryIndexed_writes, Finset.mem_singleton]
  repeat' apply And.intro
  all_goals exact StableHlo.devRef_ne_of_ne (h _ (by simp [written_hostOps2]))

/-- The buffers the operations of `hostOps3` write, in order. -/
abbrev written_hostOps3 : List (Ref sig .tc) :=
  [main_cst_0, main_v12, main_v13, main_v14]

/-- A buffer none of them writes holds after the stretch what it held before. -/
theorem hostOps3_keeps (c : Dev nD) (b : Ref sig .tc) (hb : b ∉ written_hostOps3) :
    W8 m ρ c (Proc.devRef .tc b) = W7 m ρ c (Proc.devRef .tc b) := by
  have h : ∀ v ∈ written_hostOps3, b ≠ v := fun v hv e => hb (e ▸ hv)
  refine StableHlo.after_of_forall_not_mem (b := Proc.devRef .tc b) _ _ (List.forall_iff_forall_mem.mp ?_)
  simp only [hostOps3, List.flatten_cons, List.flatten_nil, List.append_nil, List.cons_append, List.nil_append,
    List.Forall, StableHlo.nullary_writes, StableHlo.unary_writes, StableHlo.binary_writes,
    StableHlo.ternary_writes, StableHlo.quaternary_writes, StableHlo.reshape_writes,
    StableHlo.binaryIndexed_writes, Finset.mem_singleton]
  refine ⟨?_, ?_, ?_, ?_⟩ <;> exact StableHlo.devRef_ne_of_ne (h _ (by simp [written_hostOps3]))

/-- The buffers the operations of `hostOps4` write, in order. -/
abbrev written_hostOps4 : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v16]

/-- A buffer none of them writes holds after the stretch what it held before. -/
theorem hostOps4_keeps (c : Dev nD) (b : Ref sig .tc) (hb : b ∉ written_hostOps4) :
    W10 m ρ c (Proc.devRef .tc b) = W9 m ρ c (Proc.devRef .tc b) := by
  have h : ∀ v ∈ written_hostOps4, b ≠ v := fun v hv e => hb (e ▸ hv)
  refine StableHlo.after_of_forall_not_mem (b := Proc.devRef .tc b) _ _ (List.forall_iff_forall_mem.mp ?_)
  simp only [hostOps4, List.flatten_cons, List.flatten_nil, List.append_nil, List.cons_append, List.nil_append,
    List.Forall, StableHlo.nullary_writes, StableHlo.unary_writes, StableHlo.binary_writes,
    StableHlo.ternary_writes, StableHlo.quaternary_writes, StableHlo.reshape_writes,
    StableHlo.binaryIndexed_writes, Finset.mem_singleton]
  repeat' apply And.intro
  all_goals exact StableHlo.devRef_ne_of_ne (h _ (by simp [written_hostOps4]))

/-- The buffers the operations of `hostOps5` write, in order. -/
abbrev written_hostOps5 : List (Ref sig .tc) :=
  [main_cst_1, main_v18, main_v19, main_v20]

/-- A buffer none of them writes holds after the stretch what it held before. -/
theorem hostOps5_keeps (c : Dev nD) (b : Ref sig .tc) (hb : b ∉ written_hostOps5) :
    W12 m ρ c (Proc.devRef .tc b) = W11 m ρ c (Proc.devRef .tc b) := by
  have h : ∀ v ∈ written_hostOps5, b ≠ v := fun v hv e => hb (e ▸ hv)
  refine StableHlo.after_of_forall_not_mem (b := Proc.devRef .tc b) _ _ (List.forall_iff_forall_mem.mp ?_)
  simp only [hostOps5, List.flatten_cons, List.flatten_nil, List.append_nil, List.cons_append, List.nil_append,
    List.Forall, StableHlo.nullary_writes, StableHlo.unary_writes, StableHlo.binary_writes,
    StableHlo.ternary_writes, StableHlo.quaternary_writes, StableHlo.reshape_writes,
    StableHlo.binaryIndexed_writes, Finset.mem_singleton]
  refine ⟨?_, ?_, ?_, ?_⟩ <;> exact StableHlo.devRef_ne_of_ne (h _ (by simp [written_hostOps5]))

/-- The buffers the operations of `hostOps6` write, in order. -/
abbrev written_hostOps6 : List (Ref sig .tc) :=
  [main_cst_2, main_v22, main_v23, main_v24]

/-- A buffer none of them writes holds after the stretch what it held before. -/
theorem hostOps6_keeps (c : Dev nD) (b : Ref sig .tc) (hb : b ∉ written_hostOps6) :
    W14 m ρ c (Proc.devRef .tc b) = W13 m ρ c (Proc.devRef .tc b) := by
  have h : ∀ v ∈ written_hostOps6, b ≠ v := fun v hv e => hb (e ▸ hv)
  refine StableHlo.after_of_forall_not_mem (b := Proc.devRef .tc b) _ _ (List.forall_iff_forall_mem.mp ?_)
  simp only [hostOps6, List.flatten_cons, List.flatten_nil, List.append_nil, List.cons_append, List.nil_append,
    List.Forall, StableHlo.nullary_writes, StableHlo.unary_writes, StableHlo.binary_writes,
    StableHlo.ternary_writes, StableHlo.quaternary_writes, StableHlo.reshape_writes,
    StableHlo.binaryIndexed_writes, Finset.mem_singleton]
  refine ⟨?_, ?_, ?_, ?_⟩ <;> exact StableHlo.devRef_ne_of_ne (h _ (by simp [written_hostOps6]))

/-! ## The kernel regions -/

/-- Region 0 writes back only `main_v5`: every other buffer holds after it what it held before. -/
theorem region0_keeps (c : Dev nD) (b : Ref sig .tc) (hb : b ≠ main_v5) :
    W3 m ρ c (Proc.devRef .tc b) = W2 m ρ c (Proc.devRef .tc b) := by
  by_cases h : ∃ w, Pipeline.arrRef spec0 w = b
  · obtain ⟨w, rfl⟩ := h
    match w with
    | ⟨0, _⟩ => exact (W3_arr m ρ c 0).trans (((dat0 (V2 m ρ) c).arrAt_in 0 rfl _).trans (A_eq0 (V2 m ρ) c 0))
    | ⟨1, _⟩ => exact (W3_arr m ρ c 1).trans (((dat0 (V2 m ρ) c).arrAt_in 1 rfl _).trans (A_eq0 (V2 m ρ) c 1))
    | ⟨2, _⟩ => exact (W3_arr m ρ c 2).trans (((dat0 (V2 m ρ) c).arrAt_in 2 rfl _).trans (A_eq0 (V2 m ρ) c 2))
    | ⟨3, _⟩ => exact (W3_arr m ρ c 3).trans (((dat0 (V2 m ρ) c).arrAt_in 3 rfl _).trans (A_eq0 (V2 m ρ) c 3))
    | ⟨4, _⟩ => exact absurd rfl hb
  · exact W3_of_ne m ρ c b (fun w e => h ⟨w, e⟩)

/-- Region 1 writes back only `main_v9`: every other buffer holds after it what it held before. -/
theorem region1_keeps (c : Dev nD) (b : Ref sig .tc) (hb : b ≠ main_v9) :
    W5 m ρ c (Proc.devRef .tc b) = W4 m ρ c (Proc.devRef .tc b) := by
  by_cases h : ∃ w, Pipeline.arrRef spec1 w = b
  · obtain ⟨w, rfl⟩ := h
    have hin : (cfg1.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => rfl
      | ⟨7, _⟩ => rfl
      | ⟨8, _⟩ => rfl
      | ⟨9, _⟩ => rfl
      | ⟨10, _⟩ => exact absurd rfl hb
    exact (W5_arr m ρ c w).trans (((dat1 (V4 m ρ) c).arrAt_in w hin _).trans (A_eq1 (V4 m ρ) c w))
  · exact W5_of_ne m ρ c b (fun w e => h ⟨w, e⟩)

/-- Region 2 writes back only `main_v11`: every other buffer holds after it what it held before. -/
theorem region2_keeps (c : Dev nD) (b : Ref sig .tc) (hb : b ≠ main_v11) :
    W7 m ρ c (Proc.devRef .tc b) = W6 m ρ c (Proc.devRef .tc b) := by
  by_cases h : ∃ w, Pipeline.arrRef spec2 w = b
  · obtain ⟨w, rfl⟩ := h
    match w with
    | ⟨0, _⟩ => exact (W7_arr m ρ c 0).trans (((dat2 (V6 m ρ) c).arrAt_in 0 rfl _).trans (A_eq2 (V6 m ρ) c 0))
    | ⟨1, _⟩ => exact (W7_arr m ρ c 1).trans (((dat2 (V6 m ρ) c).arrAt_in 1 rfl _).trans (A_eq2 (V6 m ρ) c 1))
    | ⟨2, _⟩ => exact (W7_arr m ρ c 2).trans (((dat2 (V6 m ρ) c).arrAt_in 2 rfl _).trans (A_eq2 (V6 m ρ) c 2))
    | ⟨3, _⟩ => exact (W7_arr m ρ c 3).trans (((dat2 (V6 m ρ) c).arrAt_in 3 rfl _).trans (A_eq2 (V6 m ρ) c 3))
    | ⟨4, _⟩ => exact absurd rfl hb
  · exact W7_of_ne m ρ c b (fun w e => h ⟨w, e⟩)

/-- Region 3 writes back only `main_v15`: every other buffer holds after it what it held before. -/
theorem region3_keeps (c : Dev nD) (b : Ref sig .tc) (hb : b ≠ main_v15) :
    W9 m ρ c (Proc.devRef .tc b) = W8 m ρ c (Proc.devRef .tc b) := by
  by_cases h : ∃ w, Pipeline.arrRef spec3 w = b
  · obtain ⟨w, rfl⟩ := h
    have hin : (cfg3.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => rfl
      | ⟨7, _⟩ => rfl
      | ⟨8, _⟩ => rfl
      | ⟨9, _⟩ => rfl
      | ⟨10, _⟩ => exact absurd rfl hb
    exact (W9_arr m ρ c w).trans (((dat3 (V8 m ρ) c).arrAt_in w hin _).trans (A_eq3 (V8 m ρ) c w))
  · exact W9_of_ne m ρ c b (fun w e => h ⟨w, e⟩)

/-- Region 4 writes back only `main_v17`: every other buffer holds after it what it held before. -/
theorem region4_keeps (c : Dev nD) (b : Ref sig .tc) (hb : b ≠ main_v17) :
    W11 m ρ c (Proc.devRef .tc b) = W10 m ρ c (Proc.devRef .tc b) := by
  by_cases h : ∃ w, Pipeline.arrRef spec4 w = b
  · obtain ⟨w, rfl⟩ := h
    match w with
    | ⟨0, _⟩ => exact (W11_arr m ρ c 0).trans (((dat4 (V10 m ρ) c).arrAt_in 0 rfl _).trans (A_eq4 (V10 m ρ) c 0))
    | ⟨1, _⟩ => exact (W11_arr m ρ c 1).trans (((dat4 (V10 m ρ) c).arrAt_in 1 rfl _).trans (A_eq4 (V10 m ρ) c 1))
    | ⟨2, _⟩ => exact (W11_arr m ρ c 2).trans (((dat4 (V10 m ρ) c).arrAt_in 2 rfl _).trans (A_eq4 (V10 m ρ) c 2))
    | ⟨3, _⟩ => exact (W11_arr m ρ c 3).trans (((dat4 (V10 m ρ) c).arrAt_in 3 rfl _).trans (A_eq4 (V10 m ρ) c 3))
    | ⟨4, _⟩ => exact absurd rfl hb
  · exact W11_of_ne m ρ c b (fun w e => h ⟨w, e⟩)

/-- Region 5 writes back only `main_v21`: every other buffer holds after it what it held before. -/
theorem region5_keeps (c : Dev nD) (b : Ref sig .tc) (hb : b ≠ main_v21) :
    W13 m ρ c (Proc.devRef .tc b) = W12 m ρ c (Proc.devRef .tc b) := by
  by_cases h : ∃ w, Pipeline.arrRef spec5 w = b
  · obtain ⟨w, rfl⟩ := h
    have hin : (cfg5.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => rfl
      | ⟨7, _⟩ => rfl
      | ⟨8, _⟩ => rfl
      | ⟨9, _⟩ => rfl
      | ⟨10, _⟩ => exact absurd rfl hb
    exact (W13_arr m ρ c w).trans (((dat5 (V12 m ρ) c).arrAt_in w hin _).trans (A_eq5 (V12 m ρ) c w))
  · exact W13_of_ne m ρ c b (fun w e => h ⟨w, e⟩)

/-- Region 6 writes back only `main_v25`: every other buffer holds after it what it held before. -/
theorem region6_keeps (c : Dev nD) (b : Ref sig .tc) (hb : b ≠ main_v25) :
    W15 m ρ c (Proc.devRef .tc b) = W14 m ρ c (Proc.devRef .tc b) := by
  by_cases h : ∃ w, Pipeline.arrRef spec6 w = b
  · obtain ⟨w, rfl⟩ := h
    match w with
    | ⟨0, _⟩ => exact (W15_arr m ρ c 0).trans (((dat6 (V14 m ρ) c).arrAt_in 0 rfl _).trans (A_eq6 (V14 m ρ) c 0))
    | ⟨1, _⟩ => exact (W15_arr m ρ c 1).trans (((dat6 (V14 m ρ) c).arrAt_in 1 rfl _).trans (A_eq6 (V14 m ρ) c 1))
    | ⟨2, _⟩ => exact (W15_arr m ρ c 2).trans (((dat6 (V14 m ρ) c).arrAt_in 2 rfl _).trans (A_eq6 (V14 m ρ) c 2))
    | ⟨3, _⟩ => exact (W15_arr m ρ c 3).trans (((dat6 (V14 m ρ) c).arrAt_in 3 rfl _).trans (A_eq6 (V14 m ρ) c 3))
    | ⟨4, _⟩ => exact (W15_arr m ρ c 4).trans (((dat6 (V14 m ρ) c).arrAt_in 4 rfl _).trans (A_eq6 (V14 m ρ) c 4))
    | ⟨5, _⟩ => exact absurd rfl hb
  · exact W15_of_ne m ρ c b (fun w e => h ⟨w, e⟩)

end Cert.KernelIdeal.Keeps

end
-- ==== Proof.Carry.lean ====
/-
  An argument array holds its launch contents at every boundary of the program.

  No stretch of host operations and no kernel region writes an argument buffer: the host operations write only their own
  result buffers and a region writes only its output array. So, step after step, an argument buffer holds at each of the
  sixteen boundaries what it held at the launch. The lemmas are stated for any buffer outside the list of ALL buffers the
  program writes (the host operations' results and the seven regions' outputs); for a given argument that side condition
  is decided by comparing names.
-/
import proofs.«411645_j14336600834819_1_alg».proof.Proof.Keeps

set_option maxRecDepth 16384

noncomputable section

namespace Cert.KernelIdeal.Carry

open Cert.KernelIdeal Cert.KernelIdeal.Gen Cert.KernelIdeal.Keeps Idealize.ShloMosaic Idealize.ShloMosaic.TcCoe Idealize.SL.Sem

variable {F : FTy → Type} [FloatOps F]
variable (m : (ℓ : Loc nD τ sig) → Buf (Elt F) ℓ) (ρ : Dev nD → PrngReg)

/-- Every buffer the program writes: the host operations' results, stretch by stretch, and the regions' outputs. -/
abbrev writtenAll : List (Ref sig .tc) :=
  written_hostOps0 ++ written_hostOps0_1 ++ written_hostOps1 ++ written_hostOps2 ++ written_hostOps3 ++ written_hostOps4
    ++ written_hostOps5 ++ written_hostOps6 ++ [main_v5, main_v9, main_v11, main_v15, main_v17, main_v21, main_v25]

/-- At the launch boundary a buffer holds its launch contents. -/
theorem at_W0 (c : Dev nD) (b : Ref sig .tc) : W0 m ρ c (Proc.devRef .tc b) = m ((c : Thread nD τ).loc b) := rfl

/-- A buffer the program never writes holds its launch contents at boundary 1. -/
theorem at_W1 (c : Dev nD) (b : Ref sig .tc) (hb : b ∉ writtenAll) :
    W1 m ρ c (Proc.devRef .tc b) = m ((c : Thread nD τ).loc b) :=
  (hostOps0_keeps m ρ c b (fun h => hb (List.mem_append_left _ (List.mem_append_left _ (List.mem_append_left _ (List.mem_append_left _ (List.mem_append_left _ (List.mem_append_left _ (List.mem_append_left _ (List.mem_append_left _ (h))))))))))).trans (at_W0 m ρ c b)

/-- A buffer the program never writes holds its launch contents at boundary 2. -/
theorem at_W2 (c : Dev nD) (b : Ref sig .tc) (hb : b ∉ writtenAll) :
    W2 m ρ c (Proc.devRef .tc b) = m ((c : Thread nD τ).loc b) :=
  (hostOps0_1_keeps m ρ c b (fun h => hb (List.mem_append_left _ (List.mem_append_left _ (List.mem_append_left _ (List.mem_append_left _ (List.mem_append_left _ (List.mem_append_left _ (List.mem_append_left _ (List.mem_append_right _ h)))))))))).trans (at_W1 m ρ c b hb)

/-- A buffer the program never writes holds its launch contents at boundary 3. -/
theorem at_W3 (c : Dev nD) (b : Ref sig .tc) (hb : b ∉ writtenAll) :
    W3 m ρ c (Proc.devRef .tc b) = m ((c : Thread nD τ).loc b) :=
  (region0_keeps m ρ c b (fun h => hb (List.mem_append_right _ (by simp [h])))).trans (at_W2 m ρ c b hb)

/-- A buffer the program never writes holds its launch contents at boundary 4. -/
theorem at_W4 (c : Dev nD) (b : Ref sig .tc) (hb : b ∉ writtenAll) :
    W4 m ρ c (Proc.devRef .tc b) = m ((c : Thread nD τ).loc b) :=
  (hostOps1_keeps m ρ c b (fun h => hb (List.mem_append_left _ (List.mem_append_left _ (List.mem_append_left _ (List.mem_append_left _ (List.mem_append_left _ (List.mem_append_left _ (List.mem_append_right _ h))))))))).trans (at_W3 m ρ c b hb)

/-- A buffer the program never writes holds its launch contents at boundary 5. -/
theorem at_W5 (c : Dev nD) (b : Ref sig .tc) (hb : b ∉ writtenAll) :
    W5 m ρ c (Proc.devRef .tc b) = m ((c : Thread nD τ).loc b) :=
  (region1_keeps m ρ c b (fun h => hb (List.mem_append_right _ (by simp [h])))).trans (at_W4 m ρ c b hb)

/-- A buffer the program never writes holds its launch contents at boundary 6. -/
theorem at_W6 (c : Dev nD) (b : Ref sig .tc) (hb : b ∉ writtenAll) :
    W6 m ρ c (Proc.devRef .tc b) = m ((c : Thread nD τ).loc b) :=
  (hostOps2_keeps m ρ c b (fun h => hb (List.mem_append_left _ (List.mem_append_left _ (List.mem_append_left _ (List.mem_append_left _ (List.mem_append_left _ (List.mem_append_right _ h)))))))).trans (at_W5 m ρ c b hb)

/-- A buffer the program never writes holds its launch contents at boundary 7. -/
theorem at_W7 (c : Dev nD) (b : Ref sig .tc) (hb : b ∉ writtenAll) :
    W7 m ρ c (Proc.devRef .tc b) = m ((c : Thread nD τ).loc b) :=
  (region2_keeps m ρ c b (fun h => hb (List.mem_append_right _ (by simp [h])))).trans (at_W6 m ρ c b hb)

/-- A buffer the program never writes holds its launch contents at boundary 8. -/
theorem at_W8 (c : Dev nD) (b : Ref sig .tc) (hb : b ∉ writtenAll) :
    W8 m ρ c (Proc.devRef .tc b) = m ((c : Thread nD τ).loc b) :=
  (hostOps3_keeps m ρ c b (fun h => hb (List.mem_append_left _ (List.mem_append_left _ (List.mem_append_left _ (List.mem_append_left _ (List.mem_append_right _ h))))))).trans (at_W7 m ρ c b hb)

/-- A buffer the program never writes holds its launch contents at boundary 9. -/
theorem at_W9 (c : Dev nD) (b : Ref sig .tc) (hb : b ∉ writtenAll) :
    W9 m ρ c (Proc.devRef .tc b) = m ((c : Thread nD τ).loc b) :=
  (region3_keeps m ρ c b (fun h => hb (List.mem_append_right _ (by simp [h])))).trans (at_W8 m ρ c b hb)

/-- A buffer the program never writes holds its launch contents at boundary 10. -/
theorem at_W10 (c : Dev nD) (b : Ref sig .tc) (hb : b ∉ writtenAll) :
    W10 m ρ c (Proc.devRef .tc b) = m ((c : Thread nD τ).loc b) :=
  (hostOps4_keeps m ρ c b (fun h => hb (List.mem_append_left _ (List.mem_append_left _ (List.mem_append_left _ (List.mem_append_right _ h)))))).trans (at_W9 m ρ c b hb)

/-- A buffer the program never writes holds its launch contents at boundary 11. -/
theorem at_W11 (c : Dev nD) (b : Ref sig .tc) (hb : b ∉ writtenAll) :
    W11 m ρ c (Proc.devRef .tc b) = m ((c : Thread nD τ).loc b) :=
  (region4_keeps m ρ c b (fun h => hb (List.mem_append_right _ (by simp [h])))).trans (at_W10 m ρ c b hb)

/-- A buffer the program never writes holds its launch contents at boundary 12. -/
theorem at_W12 (c : Dev nD) (b : Ref sig .tc) (hb : b ∉ writtenAll) :
    W12 m ρ c (Proc.devRef .tc b) = m ((c : Thread nD τ).loc b) :=
  (hostOps5_keeps m ρ c b (fun h => hb (List.mem_append_left _ (List.mem_append_left _ (List.mem_append_right _ h))))).trans (at_W11 m ρ c b hb)

/-- A buffer the program never writes holds its launch contents at boundary 13. -/
theorem at_W13 (c : Dev nD) (b : Ref sig .tc) (hb : b ∉ writtenAll) :
    W13 m ρ c (Proc.devRef .tc b) = m ((c : Thread nD τ).loc b) :=
  (region5_keeps m ρ c b (fun h => hb (List.mem_append_right _ (by simp [h])))).trans (at_W12 m ρ c b hb)

/-- A buffer the program never writes holds its launch contents at boundary 14. -/
theorem at_W14 (c : Dev nD) (b : Ref sig .tc) (hb : b ∉ writtenAll) :
    W14 m ρ c (Proc.devRef .tc b) = m ((c : Thread nD τ).loc b) :=
  (hostOps6_keeps m ρ c b (fun h => hb (List.mem_append_left _ (List.mem_append_right _ h)))).trans (at_W13 m ρ c b hb)

/-- A buffer the program never writes holds its launch contents at boundary 15. -/
theorem at_W15 (c : Dev nD) (b : Ref sig .tc) (hb : b ∉ writtenAll) :
    W15 m ρ c (Proc.devRef .tc b) = m ((c : Thread nD τ).loc b) :=
  (region6_keeps m ρ c b (fun h => hb (List.mem_append_right _ (by simp [h])))).trans (at_W14 m ρ c b hb)

end Cert.KernelIdeal.Carry

end
-- ==== Proof.Aggregates.lean ====
/-
  What the short host stretches between the kernel regions leave in their result buffers.

  Between its kernel regions the program runs stretches of four host operations each. The first stretch cuts the
  two rows of the 2 × 800000 edge index array out as vectors: row 0, the source indices, and row 1, the destination
  indices (a slice of one row, then a change of shape from 1 × 800000 to 800000). Each of the three layers has a
  stretch that adds the layer's messages up per destination node: an array of zeros (a zero scalar spread over
  50000 × f), the destination indices laid out as a column, and a scatter-add of the 800000 message rows into the
  zeros at those indices. The last stretch pools the node features per graph in the same way: zeros of 128 × 64,
  the graph index of each node as a column, and a scatter-add of the 50000 node rows.

  Each lemma says what the stretch's result buffer holds afterwards as that host operation applied to what the
  buffers held before the stretch. A stretch's operations write distinct buffers and read only what an earlier
  operation of the stretch, or the state before it, put there, so the value follows by reading the stretch
  operation by operation.
-/
import proofs.«411645_j14336600834819_1_alg».proof.Proof.Gen.KernelIdeal.Frame
import proofs.«411645_j14336600834819_1_alg».proof.Proof.Take
import Idealize.ShloMosaic.Lib.StableHlo.Run

set_option maxRecDepth 16384

noncomputable section

namespace Cert.KernelIdeal.Aggregates

open Cert.KernelIdeal Cert.KernelIdeal.Gen Cert.KernelIdeal.Take
open Idealize.ShloMosaic Idealize.ShloMosaic.TcCoe Idealize.ShloMosaic.StableHlo
open Idealize.SL.Sem

variable {F : FTy → Type} [FloatOps F]
variable (m : (ℓ : Loc nD τ sig) → Buf (Elt F) ℓ) (ρ : Dev nD → PrngReg)

set_option maxHeartbeats 20000000 in
/-- Layer 1's sum of messages per destination node: the messages scattered, by the destination column, into zeros. -/
theorem agg1_val (c : Dev nD) :
    W4 m ρ c (Proc.devRef .tc main_v8)
      = Host.scatterAdd scatter_S50000x64_S800000x1_S800000x64_1_0_0_1
          (broadcastInDim S50000x64 ![] bcast_S_S50000x64 (constant S_ .f32 0x00000000#32))
          (broadcastInDim S800000x1 ![0] bcast_S800000_S800000x1_0 (W3 m ρ c (Proc.devRef .tc main_v3)))
          (W3 m ρ c (Proc.devRef .tc main_v5)) := by
  unfold W4 hostOps1
  after_results

set_option maxHeartbeats 20000000 in
/-- The source indices after the first stretch: row 0 of the edge index array as launched. -/
theorem src_val (c : Dev nD) : W1 m ρ c (Proc.devRef .tc main_v1) = srcRow (W0 m ρ c (Proc.devRef .tc main_arg2)) := by
  unfold W1 hostOps0
  after_results
  rfl

set_option maxHeartbeats 20000000 in
/-- The destination indices after the first stretch: row 1 of the edge index array as launched. -/
theorem dst_val (c : Dev nD) : W1 m ρ c (Proc.devRef .tc main_v3) = dstRow (W0 m ρ c (Proc.devRef .tc main_arg2)) := by
  unfold W1 hostOps0
  after_results
  rfl

set_option maxHeartbeats 20000000 in
/-- Layer 2's sum of messages per destination node, over rows of 256 features. -/
theorem agg2_val (c : Dev nD) :
    W8 m ρ c (Proc.devRef .tc main_v14)
      = Host.scatterAdd scatter_S50000x256_S800000x1_S800000x256_1_0_0_1
          (broadcastInDim S50000x256 ![] bcast_S_S50000x256 (constant S_ .f32 0x00000000#32))
          (broadcastInDim S800000x1 ![0] bcast_S800000_S800000x1_0 (W7 m ρ c (Proc.devRef .tc main_v3)))
          (W7 m ρ c (Proc.devRef .tc main_v11)) := by
  unfold W8 hostOps3
  after_results

set_option maxHeartbeats 20000000 in
/-- Layer 3's sum of messages per destination node, over rows of 128 features. -/
theorem agg3_val (c : Dev nD) :
    W12 m ρ c (Proc.devRef .tc main_v20)
      = Host.scatterAdd scatter_S50000x128_S800000x1_S800000x128_1_0_0_1
          (broadcastInDim S50000x128 ![] bcast_S_S50000x128 (constant S_ .f32 0x00000000#32))
          (broadcastInDim S800000x1 ![0] bcast_S800000_S800000x1_0 (W11 m ρ c (Proc.devRef .tc main_v3)))
          (W11 m ρ c (Proc.devRef .tc main_v17)) := by
  unfold W12 hostOps5
  after_results

set_option maxHeartbeats 20000000 in
/-- The node features pooled per graph: the 50000 node rows scattered, by the graph-index column, into zeros of
    128 × 64. -/
theorem pool_val (c : Dev nD) :
    W14 m ρ c (Proc.devRef .tc main_v24)
      = Host.scatterAdd scatter_S128x64_S50000x1_S50000x64_1_0_0_1
          (broadcastInDim S128x64 ![] bcast_S_S128x64 (constant S_ .f32 0x00000000#32))
          (broadcastInDim S50000x1 ![0] bcast_S50000_S50000x1_0 (W13 m ρ c (Proc.devRef .tc main_arg3)))
          (W13 m ρ c (Proc.devRef .tc main_v21)) := by
  unfold W14 hostOps6
  after_results

end Cert.KernelIdeal.Aggregates

end
-- ==== Proof.IdxCarry.lean ====
/-
  The source and destination index vectors, wherever the program reads them.

  The first stretch of host operations cuts the two rows of the edge index array out into two buffers. No later step
  writes either buffer, so each still holds its row when the three gather stretches read the source indices and when
  the three summing stretches read the destination indices.
-/
import proofs.«411645_j14336600834819_1_alg».proof.Proof.Keeps
import proofs.«411645_j14336600834819_1_alg».proof.Proof.Aggregates

set_option maxRecDepth 16384

noncomputable section

namespace Cert.KernelIdeal.IdxCarry

open Cert.KernelIdeal Cert.KernelIdeal.Gen Cert.KernelIdeal.Take Cert.KernelIdeal.Keeps Idealize.ShloMosaic Idealize.ShloMosaic.TcCoe
open Idealize.SL.Sem

variable {F : FTy → Type} [FloatOps F]
variable (m : (ℓ : Loc nD τ sig) → Buf (Elt F) ℓ) (ρ : Dev nD → PrngReg)

/-- The source indices when the first gather stretch reads them. -/
theorem src_at1 (c : Dev nD) : W1 m ρ c (Proc.devRef .tc main_v1) = srcRow (m ((c : Thread nD τ).loc main_arg2)) :=
  Aggregates.src_val m ρ c

/-- The source indices when the second gather stretch reads them. -/
theorem src_at5 (c : Dev nD) : W5 m ρ c (Proc.devRef .tc main_v1) = srcRow (m ((c : Thread nD τ).loc main_arg2)) :=
  (region1_keeps m ρ c main_v1 (by decide)).trans ((hostOps1_keeps m ρ c main_v1 (by decide)).trans
    ((region0_keeps m ρ c main_v1 (by decide)).trans ((hostOps0_1_keeps m ρ c main_v1 (by decide)).trans (src_at1 m ρ c))))

/-- The source indices when the third gather stretch reads them. -/
theorem src_at9 (c : Dev nD) : W9 m ρ c (Proc.devRef .tc main_v1) = srcRow (m ((c : Thread nD τ).loc main_arg2)) :=
  (region3_keeps m ρ c main_v1 (by decide)).trans ((hostOps3_keeps m ρ c main_v1 (by decide)).trans
    ((region2_keeps m ρ c main_v1 (by decide)).trans ((hostOps2_keeps m ρ c main_v1 (by decide)).trans (src_at5 m ρ c))))

/-- The destination indices when the first summing stretch reads them. -/
theorem dst_at3 (c : Dev nD) : W3 m ρ c (Proc.devRef .tc main_v3) = dstRow (m ((c : Thread nD τ).loc main_arg2)) :=
  (region0_keeps m ρ c main_v3 (by decide)).trans
    ((hostOps0_1_keeps m ρ c main_v3 (by decide)).trans (Aggregates.dst_val m ρ c))

/-- The destination indices when the second summing stretch reads them. -/
theorem dst_at7 (c : Dev nD) : W7 m ρ c (Proc.devRef .tc main_v3) = dstRow (m ((c : Thread nD τ).loc main_arg2)) :=
  (region2_keeps m ρ c main_v3 (by decide)).trans ((hostOps2_keeps m ρ c main_v3 (by decide)).trans
    ((region1_keeps m ρ c main_v3 (by decide)).trans ((hostOps1_keeps m ρ c main_v3 (by decide)).trans (dst_at3 m ρ c))))

/-- The destination indices when the third summing stretch reads them. -/
theorem dst_at11 (c : Dev nD) : W11 m ρ c (Proc.devRef .tc main_v3) = dstRow (m ((c : Thread nD τ).loc main_arg2)) :=
  (region4_keeps m ρ c main_v3 (by decide)).trans ((hostOps4_keeps m ρ c main_v3 (by decide)).trans
    ((region3_keeps m ρ c main_v3 (by decide)).trans ((hostOps3_keeps m ρ c main_v3 (by decide)).trans (dst_at7 m ρ c))))

end Cert.KernelIdeal.IdxCarry

end
-- ==== Proof.TakeValues.lean ====
/-
  What the three gather stretches leave in their result buffers.

  Before each message kernel the program runs a stretch of host operations that takes, for every edge, the row of the
  current node-feature table at the edge's source index (normalised, range-checked, gathered, and masked with a filler
  word where out of range). Read against the buffer contents at the boundary before the stretch, the result buffer
  after it holds exactly that: the rows of the table taken at the source index vector. The stretch's operations move
  values between a buffer's own type and the type an operation is stated at; those moves are identities, and once they
  are removed the stretch's composed operations and the definition of the taken rows are the same expression.
-/
import proofs.«411645_j14336600834819_1_alg».proof.Proof.Gen.KernelIdeal.Frame
import proofs.«411645_j14336600834819_1_alg».proof.Proof.Take
import Idealize.ShloMosaic.Lib.StableHlo.Run

set_option maxRecDepth 16384

noncomputable section

namespace Cert.KernelIdeal.TakeValues

open Cert.KernelIdeal Cert.KernelIdeal.Gen Cert.KernelIdeal.Take Idealize.ShloMosaic Idealize.ShloMosaic.TcCoe Idealize.SL.Sem
open Idealize.ShloMosaic.StableHlo

variable {F : FTy → Type} [FloatOps F]

/-- Contents moved to a buffer's own type and back are unchanged. -/
theorem ofBuf_toBuf {T : BufTy} (x : TRef sig T) (v : T.Contents (Elt F)) : x.ofBuf (x.toBuf v) = v := by
  obtain ⟨r, rfl, _, _⟩ := x; rfl

variable (m : (ℓ : Loc nD τ sig) → Buf (Elt F) ℓ) (ρ : Dev nD → PrngReg)

set_option maxHeartbeats 40000000 in
/-- After the first gather stretch the result buffer holds the rows of the 64-column table taken at the source indices, both
    read at the boundary before the stretch. -/
theorem take64_val (c : Dev nD) :
    W2 m ρ c (Proc.devRef .tc main_v4)
      = take64 (W1 m ρ c (Proc.devRef .tc main_arg0)) (W1 m ρ c (Proc.devRef .tc main_v1)) := by
  have out_id : ∀ X : (⟨S800000x64, .f32⟩ : BufTy).Contents (Elt F),
      ((TRef.of main_v4 : TRef sig ⟨S800000x64, .f32⟩).toBuf X : Buf (Elt F) ((c : Thread nD τ).loc main_v4)) = X := fun _ => rfl
  have idx_id : ∀ X : main_v1.ty.Contents (Elt F), (TRef.of main_v1 : TRef sig ⟨S800000, .i32⟩).ofBuf X = X := fun _ => rfl
  have tab_id : ∀ X : main_arg0.ty.Contents (Elt F), (TRef.of main_arg0 : TRef sig ⟨S50000x64, .f32⟩).ofBuf X = X := fun _ => rfl
  unfold W2
  generalize W1 m ρ c = V
  unfold hostOps0_1 take64 inRange idxCol wrap
  after_results
  simp only [ofBuf_toBuf, idx_id, tab_id]
  rw [out_id]

set_option maxHeartbeats 40000000 in
/-- After the second gather stretch the result buffer holds the rows of the 256-column table taken at the source indices, both
    read at the boundary before the stretch. -/
theorem take256_val (c : Dev nD) :
    W6 m ρ c (Proc.devRef .tc main_v10)
      = take256 (W5 m ρ c (Proc.devRef .tc main_v9)) (W5 m ρ c (Proc.devRef .tc main_v1)) := by
  have out_id : ∀ X : (⟨S800000x256, .f32⟩ : BufTy).Contents (Elt F),
      ((TRef.of main_v10 : TRef sig ⟨S800000x256, .f32⟩).toBuf X : Buf (Elt F) ((c : Thread nD τ).loc main_v10)) = X := fun _ => rfl
  have idx_id : ∀ X : main_v1.ty.Contents (Elt F), (TRef.of main_v1 : TRef sig ⟨S800000, .i32⟩).ofBuf X = X := fun _ => rfl
  have tab_id : ∀ X : main_v9.ty.Contents (Elt F), (TRef.of main_v9 : TRef sig ⟨S50000x256, .f32⟩).ofBuf X = X := fun _ => rfl
  unfold W6
  generalize W5 m ρ c = V
  unfold hostOps2 take256 inRange idxCol wrap
  after_results
  simp only [ofBuf_toBuf, idx_id, tab_id]
  rw [out_id]

set_option maxHeartbeats 40000000 in
/-- After the third gather stretch the result buffer holds the rows of the 128-column table taken at the source indices, both
    read at the boundary before the stretch. -/
theorem take128_val (c : Dev nD) :
    W10 m ρ c (Proc.devRef .tc main_v16)
      = take128 (W9 m ρ c (Proc.devRef .tc main_v15)) (W9 m ρ c (Proc.devRef .tc main_v1)) := by
  have out_id : ∀ X : (⟨S800000x128, .f32⟩ : BufTy).Contents (Elt F),
      ((TRef.of main_v16 : TRef sig ⟨S800000x128, .f32⟩).toBuf X : Buf (Elt F) ((c : Thread nD τ).loc main_v16)) = X := fun _ => rfl
  have idx_id : ∀ X : main_v1.ty.Contents (Elt F), (TRef.of main_v1 : TRef sig ⟨S800000, .i32⟩).ofBuf X = X := fun _ => rfl
  have tab_id : ∀ X : main_v15.ty.Contents (Elt F), (TRef.of main_v15 : TRef sig ⟨S50000x128, .f32⟩).ofBuf X = X := fun _ => rfl
  unfold W10
  generalize W9 m ρ c = V
  unfold hostOps4 take128 inRange idxCol wrap
  after_results
  simp only [ofBuf_toBuf, idx_id, tab_id]
  rw [out_id]

end Cert.KernelIdeal.TakeValues

end
-- ==== Proof.RowBias.lean ====
/-
  A bias vector spread over the rows of an array, read at one entry.

  Both programs add to an `a × b` array a vector `v` of `b` entries, the same vector to every row. Each first views
  the vector as a single row and then repeats that row `a` times; the two spell the two steps differently (a change
  of shape followed by a row broadcast on one side, two broadcasts along named axes on the other), and both come to
  the same thing: the spread array holds `v q` at every entry `(p, q)`.
-/
import Idealize.ShloMosaic.Lib.ValueIdx
import Idealize.ShloMosaic.Lib.ValueLayout
import Idealize.ShloMosaic.Lib.StableHlo.Predicate

noncomputable section

namespace Cert.Spec

open Idealize.ShloMosaic Idealize.ShloMosaic.ValueIdx

variable {α : Type}

/-- The two ways of writing the entry `(p, q)` of an `n × m` array are the same index. -/
theorem ij_eq_ix2 {n m : ℕ} (p : Fin n) (q : Fin m) : StableHlo.Predicate.ij p q = ix2 p q := by
  funext d; match d with | ⟨0, _⟩ => rfl | ⟨1, _⟩ => rfl

/-- The two ways of writing the entry `(0, q)` of a `1 × m` row are the same index. -/
theorem i1q_eq_ix2 {m : ℕ} (q : Fin m) : StableHlo.Predicate.i1q q = ix2 (0 : Fin 1) q := by
  funext d; match d with | ⟨0, _⟩ => rfl | ⟨1, _⟩ => rfl

/-- The two ways of writing the entry `q` of a vector of `m` entries are the same index. -/
theorem ofFin_eq_ix1 {m : ℕ} (q : Fin m) : (Shape.Idx.ofFin q : (⟨1, ![m]⟩ : Shape).Idx) = ix1 q := by
  funext d; match d with | ⟨0, _⟩ => rfl

/-- A vector reshaped to one row and that row repeated over `a` rows holds, at `(p, q)`, the vector's entry `q`. -/
theorem rowSpread_cast_apply {a b : ℕ} (v : (⟨1, ![b]⟩ : Shape).Idx → α)
    (h₁ : (⟨1, ![b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix1 q) := by
  rw [broadcastTo_1b_ab_apply, shapeCast_a_1a_apply]

/-- A vector broadcast to one row along the second axis, and that row broadcast to `a` rows, holds, at `(p, q)`,
    the vector's entry `q`. -/
theorem rowSpread_bcast_apply {a b : ℕ} (v : (⟨1, ![b]⟩ : Shape).Idx → α)
    (h₁ : (⟨1, ![b]⟩ : Shape).BroadcastsInDim ⟨2, ![1, b]⟩ ![1])
    (h₂ : (⟨2, ![1, b]⟩ : Shape).BroadcastsInDim ⟨2, ![a, b]⟩ ![0, 1]) (p : Fin a) (q : Fin b) :
    broadcastInDim ⟨2, ![a, b]⟩ ![0, 1] h₂ (broadcastInDim ⟨2, ![1, b]⟩ ![1] h₁ v) (ix2 p q) = v (ix1 q) := by
  rw [← ij_eq_ix2, StableHlo.Predicate.bcast_of_row, StableHlo.Predicate.bcast_row1, ofFin_eq_ix1]

end Cert.Spec

end
-- ==== Proof.LibDot.lean ====
/-
  A matrix product with one contracted axis, read at one element of its result.

  A product of a rank-2 left operand and a rank-2 right operand with a single contracted axis on each side and
  no batch axis is, at an output position, the sum over the contracted coordinate of the two operands' entries
  there. The file states this for the three arrangements of axes a dense layer meets: rows by columns
  (left contracted on axis 1, right on axis 0), a left operand contracted on its FIRST axis against a right
  operand contracted on its last (the product written transposed), and both operands contracted on their first
  axis. Each lemma is generic in the extents and takes the dimension record's lists as hypotheses, which a
  printed record supplies by rfl.
-/
import Idealize.ShloMosaic.PureOps.Ideal
import Idealize.ShloMosaic.PureOps.Ideal.Laws
import Idealize.ShloMosaic.Lib.ValueIdx

open scoped BigOperators

namespace Cert.Lib.Dot

open Idealize.ShloMosaic
open Idealize.ShloMosaic.ValueIdx

variable {sl sr so : Shape} (d : DotDims sl sr so)

/-- Two reads of an index at positions with equal values agree. -/
theorem idx_val_congr {s : Shape} (j : s.Idx) (p q : Nat) (hp : p < s.rank) (hq : q < s.rank) (h : p = q) :
    (j ⟨p, hp⟩).val = (j ⟨q, hq⟩).val := by subst h; rfl

/-- With no batch axis and one kept left axis, the left operand's index on that axis is the result's first
    coordinate. -/
theorem lhsIdx_val_kept {nl : Fin sl.rank} (hb : d.lhsBatch = []) (hn : d.lhsNonContracting = [nl])
    (j : so.Idx) (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  exact idx_val_congr j _ _ _ _ (by simp [hb, hn])

/-- With no batch axis, one kept left axis and one kept right axis, the right operand's index on its kept axis
    is the result's second coordinate. -/
theorem rhsIdx_val_kept {nl : Fin sl.rank} {nr : Fin sr.rank} (hlb : d.lhsBatch = []) (hrb : d.rhsBatch = [])
    (hln : d.lhsNonContracting = [nl]) (hrn : d.rhsNonContracting = [nr])
    (j : so.Idx) (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hrn]; exact List.mem_singleton.mpr rfl
  unfold DotDims.rhsIdx
  rw [dif_neg hnb, dif_pos hmem]
  simp only [Fin.val_cast]
  exact idx_val_congr j _ _ _ _ (by simp [hlb, hln, hrn])

/-- One contracted axis: the contraction shape has rank one. -/
theorem contr_rank_one {cl : Fin sl.rank} (hc : d.lhsContracting = [cl]) : d.contr.rank = 1 := by
  rw [d.rank_contr, hc]; rfl

/-- One contracted axis: the contraction shape's extent is the left operand's extent on that axis. -/
theorem contr_size_one {cl : Fin sl.rank} (hc : d.lhsContracting = [cl]) :
    d.contr.size ⟨0, by rw [contr_rank_one d hc]; exact Nat.one_pos⟩ = sl.size cl := by
  have h := d.size_contr 0 (by rw [hc]; exact Nat.one_pos)
  rw [h]
  exact congrArg sl.size (by simp [hc])

/-! ## The three arrangements, as sums over the contracted coordinate -/

section Arrangements

open Cert.Lib.Dot

/-- Rows by columns: the left operand [M, K] contracted on axis 1, the right [K, N] on axis 0. -/
theorem sum_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 p k := by
    funext a; refine Fin.ext ?_
    match a with
    | ⟨0, _⟩ => exact lhsIdx_val_kept d hlb hln _ _ Nat.zero_lt_two
    | ⟨1, _⟩ => exact (d.lhsIdx_val_of_single hlc _ _).trans (contrEquiv1_symm_val d K _ _ k)
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-- The product written transposed: the left operand [K, M] contracted on axis 0, the right [N, K] on axis 1;
    the result is [M, N]. -/
theorem sum_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    ∑ k : d.contr.Idx, l (d.lhsIdx (ix2 p q) k) * r (d.rhsIdx (ix2 p q) k) = ∑ k : Fin K, l (ix2 k p) * r (ix2 q k) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 q k := by
    funext a; refine Fin.ext ?_
    match a with
    | ⟨0, _⟩ => exact rhsIdx_val_kept d hlb hrb hln hrn _ _ Nat.one_lt_two
    | ⟨1, _⟩ => exact (d.rhsIdx_val_of_single hrc _ _).trans (contrEquiv1_symm_val d K _ _ k)
  rw [e1, e2]

/-- Both operands contracted on their first axis: the left [K, M], the right [K, N]; the result is [M, N]. -/
theorem sum_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 k p) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-! ## The three arrangements as properties of a dimension record (a printed record proves each by six rfl's) -/

/-- Rows by columns: left contracted on axis 1, right on axis 0, no batch axis. -/
def IsRowsCols {M K N : Nat} (d : DotDims ⟨2, ![M, K]⟩ ⟨2, ![K, N]⟩ ⟨2, ![M, N]⟩) : Prop :=
  d.lhsContracting = [1] ∧ d.rhsContracting = [0] ∧ d.lhsNonContracting = [0] ∧ d.rhsNonContracting = [1]
    ∧ d.lhsBatch = [] ∧ d.rhsBatch = []

/-- Left contracted on axis 0, right on axis 1, no batch axis. -/
def IsColsRows {M K N : Nat} (d : DotDims ⟨2, ![K, M]⟩ ⟨2, ![N, K]⟩ ⟨2, ![M, N]⟩) : Prop :=
  d.lhsContracting = [0] ∧ d.rhsContracting = [1] ∧ d.lhsNonContracting = [1] ∧ d.rhsNonContracting = [0]
    ∧ d.lhsBatch = [] ∧ d.rhsBatch = []

/-- Both contracted on axis 0, no batch axis. -/
def IsColsCols {M K N : Nat} (d : DotDims ⟨2, ![K, M]⟩ ⟨2, ![K, N]⟩ ⟨2, ![M, N]⟩) : Prop :=
  d.lhsContracting = [0] ∧ d.rhsContracting = [0] ∧ d.lhsNonContracting = [1] ∧ d.rhsNonContracting = [1]
    ∧ d.lhsBatch = [] ∧ d.rhsBatch = []

/-! ## The host product and the kernel's product into a zero accumulator, read at an element -/

/-- The host's rows-by-columns product at (p, q). -/
theorem hostDot_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  (Ideal.dotGeneral_apply d none .single l r (ix2 p q)).trans (sum_rows_cols d hlc hrc hln hrn hlb hrb l r p q)

/-- The kernel's rows-by-columns product into a zero accumulator at (p, q). -/
theorem matmul0_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  (Ideal.matmul_constant_zero_apply d none l r (ix2 p q)).trans (sum_rows_cols d hlc hrc hln hrn hlb hrb l r p q)

/-- The kernel's transposed product into a zero accumulator at (p, q). -/
theorem matmul0_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  (Ideal.matmul_constant_zero_apply d none l r (ix2 p q)).trans (sum_cols_rows d hlc hrc hln hrn hlb hrb l r p q)

/-- The kernel's product of two operands contracted on their first axes, into a zero accumulator, at (p, q). -/
theorem matmul0_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  (Ideal.matmul_constant_zero_apply d none l r (ix2 p q)).trans (sum_cols_cols d hlc hrc hln hrn hlb hrb l r p q)

/-- The host's rows-by-columns product at (p, q), from the record's property. -/
theorem hostDot_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  hostDot_rows_cols d h.1 h.2.1 h.2.2.1 h.2.2.2.1 h.2.2.2.2.1 h.2.2.2.2.2 l r p q

/-- The kernel's rows-by-columns product into zeros at (p, q), from the record's property. -/
theorem matmul0_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  matmul0_rows_cols d h.1 h.2.1 h.2.2.1 h.2.2.2.1 h.2.2.2.2.1 h.2.2.2.2.2 l r p q

/-- The kernel's transposed product into zeros at (p, q), from the record's property. -/
theorem matmul0_cr {M K N : Nat} {φ₁ φ₂ : FTy} (d : DotDims ⟨2, ![K, M]⟩ ⟨2, ![N, K]⟩ ⟨2, ![M, N]⟩) (h : IsColsRows d)
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  matmul0_cols_rows d h.1 h.2.1 h.2.2.1 h.2.2.2.1 h.2.2.2.2.1 h.2.2.2.2.2 l r p q

/-- The kernel's product of two operands contracted on their first axes, into zeros, at (p, q), from the record's
    property. -/
theorem matmul0_cc {M K N : Nat} {φ₁ φ₂ : FTy} (d : DotDims ⟨2, ![K, M]⟩ ⟨2, ![K, N]⟩ ⟨2, ![M, N]⟩) (h : IsColsCols d)
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  matmul0_cols_cols d h.1 h.2.1 h.2.2.1 h.2.2.2.1 h.2.2.2.2.1 h.2.2.2.2.2 l r p q

end Arrangements

end Cert.Lib.Dot
-- ==== Proof.EdgeBody0.lean ====
/-
  What the first message kernel computes from one block of rows.

  The body loads a block of edge attributes `ea` (4000 × 16), the weights `we` (16 × 64), the block of gathered
  source rows `xs` (4000 × 64) and the bias `be` (64), and stores

      max ((xs + ea · we) + be) 0

  where `ea · we` is the matrix product accumulated from zero (its operands pass through a narrower float format on
  the way in, which changes nothing on the extended reals) and `be` is repeated over the rows. Read at row `p` and
  feature `q` this is the message of row `p` at feature `q` as the specification writes it.
-/
import proofs.«411645_j14336600834819_1_alg».proof.Proof.Gen.KernelIdeal.Frame
import proofs.«411645_j14336600834819_1_alg».proof.Proof.EdgeSpec
import proofs.«411645_j14336600834819_1_alg».proof.Proof.RowBias
import proofs.«411645_j14336600834819_1_alg».proof.Proof.LibDot
import Idealize.ShloMosaic.PureOps.Ideal.Laws
import Idealize.ShloMosaic.Lib.Pipeline.Value

open scoped BigOperators

noncomputable section

namespace Cert.KernelIdeal.EdgeBody0

open Cert.KernelIdeal Cert.KernelIdeal.Gen Idealize.ShloMosaic Idealize.ShloMosaic.ValueIdx

/-- The product's dimension record contracts the left operand's columns against the right operand's rows. -/
theorem dot_rowsCols : Cert.Lib.Dot.IsRowsCols dot_S4000x16_S16x64_S4000x64_1_0_0_1_n_n :=
  ⟨rfl, rfl, rfl, rfl, rfl, rfl⟩

/-- The stored value at row `p`, feature `q`: the message of that row at that feature. -/
theorem pay_apply (ea : Vec Ideal S4000x16 .f32) (we : Vec Ideal S16x64 .f32) (xs : Vec Ideal S4000x64 .f32)
    (be : Vec Ideal S64 .f32) (p : Fin 4000) (q : Fin 64) :
    k0_pay1 (F := Ideal) ea we xs be (ix2 p q) = Cert.Spec.edgeMsgAt ea xs we be p q := by
  unfold k0_pay1 Cert.Spec.edgeMsgAt
  simp only [maximumf_apply, addf_apply, broadcast_apply, shapeCast_self]
  rw [Cert.Lib.Dot.matmul0_rc _ dot_rowsCols, Cert.Spec.rowSpread_cast_apply]
  simp only [truncf_apply]
  rw [Ideal.ofBits_def, Ideal.ofBits_zero_f32]

/-- A rectangle of a rank-2 buffer that starts at the first row and first column starts at the origin. -/
theorem origin2 : (![0, 0] : Fin 2 → Nat) = fun _ => 0 := funext fun a => by fin_cases a <;> rfl

/-- A segment of a rank-1 buffer that starts at its first entry starts at the origin. -/
theorem origin1 : (![0] : Fin 1 → Nat) = fun _ => 0 := funext fun a => by fin_cases a; rfl

/-- What the body leaves in the output block, from the four input blocks: the messages of the block's rows. -/
theorem out_eq (ea : Vec Ideal S4000x16 .f32) (xs : Vec Ideal S4000x64 .f32) (we : Vec Ideal S16x64 .f32)
    (be : Vec Ideal S64 .f32) : out0_4 (F := Ideal) ea xs we be = Cert.Spec.edgeMsg ea xs we be := by
  unfold out0_4
  rw [View.canon_unit_zero origin2]
  simp only [View.ld_unit_zero (S := S4000x16) origin2, View.ld_unit_zero (S := S16x64) origin2,
    View.ld_unit_zero (S := S4000x64) origin2, View.ld_unit_zero (S := S64) origin1]
  funext j
  obtain ⟨p, q, rfl⟩ : ∃ (p : Fin 4000) (q : Fin 64), j = ix2 p q := ⟨j 0, j 1, eq_ix2 j⟩
  exact pay_apply ea we xs be p q

end Cert.KernelIdeal.EdgeBody0

end
-- ==== Proof.EdgeArray0.lean ====
/-
  The first message kernel's output array, from its input arrays.

  The kernel runs over 200 grid points. Point `t` reads rows `4000 t` to `4000 t + 3999` of the edge attributes and of
  the gathered source rows, the whole weight matrix and the whole bias, and writes the same rows of the output. Since
  a message depends only on its own row of the attributes and of the gathered rows, what point `t` writes is exactly
  rows `4000 t …` of the array of ALL messages; and every row lies in the block of point `row / 4000`. So after the
  last point the output array holds all the messages.
-/
import proofs.«411645_j14336600834819_1_alg».proof.Proof.Gen.KernelIdeal.Frame
import proofs.«411645_j14336600834819_1_alg».proof.Proof.EdgeBody0
import Idealize.ShloMosaic.Lib.Pipeline.Value

set_option maxRecDepth 16384

open scoped BigOperators

noncomputable section

namespace Cert.KernelIdeal.EdgeArray0

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The four arrays the region reads, as it finds them: edge attributes, gathered source rows, weights, bias. -/
abbrev eaArr (c : Dev nD) : Vec Ideal S800000x16 .f32 := V c (Pipeline.arrRef spec0 0)
abbrev xsArr (c : Dev nD) : Vec Ideal S800000x64 .f32 := V c (Pipeline.arrRef spec0 1)
abbrev weArr (c : Dev nD) : Vec Ideal S16x64 .f32 := V c (Pipeline.arrRef spec0 2)
abbrev beArr (c : Dev nD) : Vec Ideal S64 .f32 := V c (Pipeline.arrRef spec0 3)

/-- Where each window's block sits at grid point `t`: the row-blocked windows (attributes, gathered rows, output) at
    block row `t`, block column 0; the weights and the bias at the origin, whatever the point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- Row `p` of the attribute block of point `t` is row `4000 t + p` of the attribute array. -/
theorem ea_row (c : Dev nD) (t : Fin cfg0.N) (p : Fin 4000) (k : Fin 16) (hp : t.val * 4000 + p.val < 800000) :
    iblk0 V c 0 t (ix2 p k) = eaArr V c (ix2 ⟨t.val * 4000 + p.val, hp⟩ k) := by
  obtain ⟨e0, e1, -⟩ := idx_facts t
  unfold iblk0
  rw [View.read_apply]
  show eaArr V c (((cfg0.win 0).blk t).view.emb (ix2 p k)) = eaArr V c (ix2 ⟨t.val * 4000 + p.val, hp⟩ k)
  refine congrArg (eaArr V c) (funext fun a => Fin.ext ?_)
  match a with
  | ⟨0, _⟩ => show win0_0.index t (0 : Fin 2) * 4000 + 1 * p.val = t.val * 4000 + p.val; omega
  | ⟨1, _⟩ => show win0_0.index t (1 : Fin 2) * 16 + 1 * k.val = k.val; omega

/-- Row `p` of the gathered-rows block of point `t` is row `4000 t + p` of the gathered-rows array. -/
theorem xs_row (c : Dev nD) (t : Fin cfg0.N) (p : Fin 4000) (q : Fin 64) (hp : t.val * 4000 + p.val < 800000) :
    iblk0 V c 1 t (ix2 p q) = xsArr V c (ix2 ⟨t.val * 4000 + p.val, hp⟩ q) := by
  obtain ⟨-, -, e2, e3, -⟩ := idx_facts t
  unfold iblk0
  rw [View.read_apply]
  show xsArr V c (((cfg0.win 1).blk t).view.emb (ix2 p q)) = xsArr V c (ix2 ⟨t.val * 4000 + p.val, hp⟩ q)
  refine congrArg (xsArr V c) (funext fun a => Fin.ext ?_)
  match a with
  | ⟨0, _⟩ => show win0_1.index t (0 : Fin 2) * 4000 + 1 * p.val = t.val * 4000 + p.val; omega
  | ⟨1, _⟩ => show win0_1.index t (1 : Fin 2) * 64 + 1 * q.val = q.val; omega

/-- The weights window covers the whole weight matrix at every point: its block is the matrix. -/
theorem we_blk (c : Dev nD) (t : Fin cfg0.N) : iblk0 V c 2 t = weArr V c := by
  obtain ⟨-, -, -, -, e4, e5, -⟩ := idx_facts t
  unfold iblk0
  funext y
  rw [View.read_apply]
  show weArr V c (((cfg0.win 2).blk t).view.emb y) = weArr V c y
  refine congrArg (weArr V c) (funext fun a => Fin.ext ?_)
  match a with
  | ⟨0, _⟩ => show win0_2.index t (0 : Fin 2) * 16 + 1 * (y 0).val = (y 0).val; omega
  | ⟨1, _⟩ => show win0_2.index t (1 : Fin 2) * 64 + 1 * (y 1).val = (y 1).val; omega

/-- The bias window covers the whole bias vector at every point: its block is the vector. -/
theorem be_blk (c : Dev nD) (t : Fin cfg0.N) : iblk0 V c 3 t = beArr V c := by
  obtain ⟨-, -, -, -, -, -, e6, -⟩ := idx_facts t
  unfold iblk0
  funext y
  rw [View.read_apply]
  show beArr V c (((cfg0.win 3).blk t).view.emb y) = beArr V c y
  refine congrArg (beArr V c) (funext fun a => Fin.ext ?_)
  match a with
  | ⟨0, _⟩ => show win0_3.index t (0 : Fin 1) * 64 + 1 * (y 0).val = (y 0).val; omega

/-- The two row-blocked input blocks of point `t`, at their literal types. -/
abbrev eaBlk (c : Dev nD) (t : Fin cfg0.N) : Vec Ideal S4000x16 .f32 := iblk0 V c 0 t
abbrev xsBlk (c : Dev nD) (t : Fin cfg0.N) : Vec Ideal S4000x64 .f32 := iblk0 V c 1 t

/-- All the messages, from the arrays as the region finds them. -/
abbrev allMsg (c : Dev nD) : Vec Ideal S800000x64 .f32 :=
  Cert.Spec.edgeMsg (eaArr V c) (xsArr V c) (weArr V c) (beArr V c)

/-- There are 200 grid points, so a row of a block is a row of the array. -/
theorem row_lt (t : Fin cfg0.N) (p : Fin 4000) : t.val * 4000 + p.val < 800000 := by
  have ht : t.val < 200 := t.isLt
  have hp : p.val < 4000 := p.isLt
  omega

/-- The message of row `p` of point `t`'s blocks is the message of row `4000 t + p` of the arrays: a message
    depends only on its own row of the attributes and of the gathered rows, and the weights and bias are shared. -/
theorem blk_msg (c : Dev nD) (t : Fin cfg0.N) (p : Fin 4000) (q : Fin 64) :
    Cert.Spec.edgeMsg (eaBlk V c t) (xsBlk V c t) (weArr V c) (beArr V c) (ix2 p q)
      = allMsg V c (ix2 ⟨t.val * 4000 + p.val, row_lt t p⟩ q) := by
  rw [Cert.Spec.edgeMsg_apply]
  show _ = Cert.Spec.edgeMsgAt (eaArr V c) (xsArr V c) (weArr V c) (beArr V c) ⟨t.val * 4000 + p.val, row_lt t p⟩ q
  exact Cert.Spec.edgeMsgAt_congr (eaArr V c) (xsArr V c) (eaBlk V c t) (xsBlk V c t) (weArr V c) (beArr V c)
    ⟨t.val * 4000 + p.val, row_lt t p⟩ p q (fun k => ea_row V c t p k (row_lt t p)) (xs_row V c t p q (row_lt t p))

/-- Entry `(p, q)` of the output block of point `t` is entry `(4000 t + p, q)` of the output array. -/
theorem out_emb (t : Fin cfg0.N) (p : Fin 4000) (q : Fin 64) :
    ((cfg0.win 4).blk t).view.emb (ix2 p q) = ix2 ⟨t.val * 4000 + p.val, row_lt t p⟩ q := by
  obtain ⟨-, -, -, -, -, -, -, e7, e8⟩ := idx_facts t
  refine funext fun a => Fin.ext ?_
  match a with
  | ⟨0, _⟩ => show win0_4.index t (0 : Fin 2) * 4000 + 1 * p.val = t.val * 4000 + p.val; omega
  | ⟨1, _⟩ => show win0_4.index t (1 : Fin 2) * 64 + 1 * q.val = q.val; omega

/-- What point `t` writes back is its block of rows of the array of all messages. -/
theorem flushed_eq (c : Dev nD) (t : Fin cfg0.N) :
    (dat0 V c).flushed 4 t = ((cfg0.win 4).blk t).view.read (Elt Ideal) (allMsg V c) := by
  show (cfg0.win 4).cut (grid0.coords t) ((dat0 V c).after 4 t) = _
  rw [after0_4, we_blk, be_blk]
  show (cfg0.win 4).cut (grid0.coords t) (out0_4 (eaBlk V c t) (xsBlk V c t) (weArr V c) (beArr V c)) = _
  rw [Cert.KernelIdeal.EdgeBody0.out_eq]
  funext j
  show Cert.Spec.edgeMsg (eaBlk V c t) (xsBlk V c t) (weArr V c) (beArr V c) j
    = allMsg V c (((cfg0.win 4).blk t).view.emb j)
  obtain ⟨p, q, rfl⟩ : ∃ (p : Fin 4000) (q : Fin 64), j = ix2 p q := ⟨j 0, j 1, eq_ix2 j⟩
  rw [out_emb]
  exact blk_msg V c t p q

/-- An entry of the output array lies in point `t`'s block exactly when each of its coordinates lies in the
    block's range on that axis. -/
theorem mem_blk (t : Fin cfg0.N) (i : S800000x64.Idx) :
    i ∈ ((cfg0.win 4).blk t).view.set ↔ ∀ a : Fin 2, win0_4.index t a * S4000x64.size a ≤ (i a).val
      ∧ (i a).val < win0_4.index t a * S4000x64.size a + S4000x64.size a := by
  show i ∈ ((View.whole main_v5).slice (win0_4.rect t)).set ↔ _
  rw [View.set_slice_whole, Rect.mem_set_unit]
  exact Iff.rfl

/-- Every entry of the output array lies in some point's block: row `r` in the block of point `r / 4000`. -/
theorem cover (i : S800000x64.Idx) :
    ∃ t : Fin cfg0.N, (cfg0.win 4).flush t = true ∧ i ∈ ((cfg0.win 4).blk t).view.set := by
  have hi0 : (i 0).val < 800000 := (i 0).isLt
  have hi1 : (i 1).val < 64 := (i 1).isLt
  refine ⟨⟨(i 0).val / 4000, by show (i 0).val / 4000 < 200; omega⟩, flush0_4 _, ?_⟩
  rw [mem_blk]
  obtain ⟨-, -, -, -, -, -, -, e7, e8⟩ := idx_facts ⟨(i 0).val / 4000, by show (i 0).val / 4000 < 200; omega⟩
  intro a
  match a with
  | ⟨0, _⟩ =>
    show win0_4.index _ (0 : Fin 2) * 4000 ≤ (i 0).val ∧ (i 0).val < win0_4.index _ (0 : Fin 2) * 4000 + 4000
    rw [e7]; show (i 0).val / 4000 * 4000 ≤ (i 0).val ∧ (i 0).val < (i 0).val / 4000 * 4000 + 4000; omega
  | ⟨1, _⟩ =>
    show win0_4.index _ (1 : Fin 2) * 64 ≤ (i 1).val ∧ (i 1).val < win0_4.index _ (1 : Fin 2) * 64 + 64
    rw [e8]; omega

/-- After the last grid point the output array holds all the messages, computed from the arrays as the region
    found them. -/
theorem array_eq (c : Dev nD) : (dat0 V c).arrAt 4 cfg0.N = allMsg V c :=
  (dat0 V c).arrAt_eq_of_cover 4 (allMsg V c) (fun t _ => flushed_eq V c t) cover

end Cert.KernelIdeal.EdgeArray0

end
-- ==== Proof.NodeBody1.lean ====
/-
  What the first node-update kernel computes from one block of rows.

  The body loads a block of node features `x` and of aggregated messages `agg` (2000 × 64 each), the two dense
  layers' weights `wa` (64 × 256) and `wb` (256 × 256) with their biases `ba`, `bb` (256 each), and the
  normalisation's per-feature scale `g`, shift `sh`, mean `mu` and variance `var` (256 each). It forms

      s   = x + agg
      hid = max (s · wa + ba) 0
      o   = max (hid · wb + bb) 0
      out = ((o - mu) * rsqrt (var + ε)) * g + sh

  where each `·` is a matrix product accumulated from zero (its operands pass through a narrower float format on
  the way in, which changes nothing on the extended reals), every 256-entry vector is repeated over the 2000 rows,
  the reciprocal square root is taken entrywise on the 256-entry vector `var + ε` before it is repeated, and `ε` is
  one fixed single-precision word, carried as that word. Read at row `p` and feature `q` this is the new feature
  `q` of node `p` as the specification writes it, product for product and in the same grouping.
-/
import proofs.«411645_j14336600834819_1_alg».proof.Proof.Gen.KernelIdeal.Frame
import proofs.«411645_j14336600834819_1_alg».proof.Proof.NodeSpec
import proofs.«411645_j14336600834819_1_alg».proof.Proof.RowBias
import proofs.«411645_j14336600834819_1_alg».proof.Proof.LibDot
import Idealize.ShloMosaic.PureOps.Ideal.Laws
import Idealize.ShloMosaic.Lib.Pipeline.Value

open scoped BigOperators

noncomputable section

namespace Cert.KernelIdeal.NodeBody1

open Cert.KernelIdeal Cert.KernelIdeal.Gen Idealize.ShloMosaic Idealize.ShloMosaic.ValueIdx

/-- The first layer's product contracts the summed features' columns against the rows of `wa`. -/
theorem dotIn_rowsCols : Cert.Lib.Dot.IsRowsCols dot_S2000x64_S64x256_S2000x256_1_0_0_1_n_n :=
  ⟨rfl, rfl, rfl, rfl, rfl, rfl⟩

/-- The second layer's product contracts the hidden activations' columns against the rows of `wb`. -/
theorem dotHid_rowsCols : Cert.Lib.Dot.IsRowsCols dot_S2000x256_S256x256_S2000x256_1_0_0_1_n_n :=
  ⟨rfl, rfl, rfl, rfl, rfl, rfl⟩

/-- An entrywise reciprocal square root, read at an entry, is the reciprocal square root of that entry. -/
theorem rsqrt_apply {s : Shape} {φ : FTy} (v : FVec Ideal s φ) (i : s.Idx) : rsqrt v i = Ideal.rsqrt (v i) := rfl

/-- The stored value at row `p`, feature `q`: the new feature `q` of node `p`. -/
theorem pay_apply (x agg : Vec Ideal S2000x64 .f32) (wa : Vec Ideal S64x256 .f32) (ba : Vec Ideal S256 .f32)
    (wb : Vec Ideal S256x256 .f32) (bb g sh mu var : Vec Ideal S256 .f32) (p : Fin 2000) (q : Fin 256) :
    k1_pay1 (F := Ideal) (k1_pay2 (F := Ideal) x agg wa ba wb bb var mu g) sh (ix2 p q)
      = Cert.Spec.nodeUpdAt x agg wa ba wb bb g sh mu var p q := by
  unfold k1_pay1 k1_pay2 Cert.Spec.nodeUpdAt Cert.Spec.nodeHidAt
  simp only [mulf_apply, addf_apply, subf_apply, maximumf_apply, broadcast_apply, shapeCast_self,
    Cert.Spec.rowSpread_cast_apply, rsqrt_apply]
  rw [Cert.Lib.Dot.matmul0_rc _ dotHid_rowsCols]
  simp only [truncf_apply, maximumf_apply, addf_apply, broadcast_apply, Cert.Spec.rowSpread_cast_apply,
    Cert.Lib.Dot.matmul0_rc _ dotIn_rowsCols]
  simp only [Ideal.ofBits_def, Ideal.ofBits_zero_f32, Cert.Spec.bnEps]

/-- A rectangle of a rank-2 buffer that begins at row zero and column zero begins at the all-zero offset. -/
theorem offset2_zero : (![0, 0] : Fin 2 → Nat) = fun _ => 0 := funext fun a => by fin_cases a <;> rfl

/-- A segment of a rank-1 buffer that begins at entry zero begins at the all-zero offset. -/
theorem offset1_zero : (![0] : Fin 1 → Nat) = fun _ => 0 := funext fun a => by fin_cases a; rfl

/-- What the body leaves in the output block, from the ten input blocks: the new features of the block's nodes. -/
theorem out_eq (x agg : Vec Ideal S2000x64 .f32) (wa : Vec Ideal S64x256 .f32) (ba : Vec Ideal S256 .f32)
    (wb : Vec Ideal S256x256 .f32) (bb g sh mu var : Vec Ideal S256 .f32) :
    out1_10 (F := Ideal) x agg wa ba wb bb g sh mu var = Cert.Spec.nodeUpd x agg wa ba wb bb g sh mu var := by
  unfold out1_10
  rw [View.canon_unit_zero offset2_zero]
  simp only [View.ld_unit_zero (S := S2000x64) offset2_zero, View.ld_unit_zero (S := S64x256) offset2_zero,
    View.ld_unit_zero (S := S256x256) offset2_zero, View.ld_unit_zero (S := S256) offset1_zero]
  funext j
  obtain ⟨p, q, rfl⟩ : ∃ (p : Fin 2000) (q : Fin 256), j = ix2 p q := ⟨j 0, j 1, eq_ix2 j⟩
  exact pay_apply x agg wa ba wb bb g sh mu var p q

end Cert.KernelIdeal.NodeBody1

end
-- ==== Proof.NodeArray1.lean ====
/-
  The first node-update kernel's output array, from its input arrays.

  The kernel runs over 25 grid points. Point `t` reads rows `2000 t` to `2000 t + 1999` of the node features and of
  the aggregated messages, and the whole of the eight shared arrays (the two dense layers' weights and biases and the
  normalisation's scale, shift, mean and variance), and writes the same rows of the output. A node's new features
  depend only on the node's own row of the features and of the aggregate, so what point `t` writes is exactly rows
  `2000 t …` of the array of ALL nodes' new features; and row `r` of that array lies in the block of point
  `r / 2000`. Hence after the last point the output array holds every node's new features.
-/
import proofs.«411645_j14336600834819_1_alg».proof.Proof.Gen.KernelIdeal.Frame
import proofs.«411645_j14336600834819_1_alg».proof.Proof.NodeBody1
import Idealize.ShloMosaic.Lib.Pipeline.Value

set_option maxRecDepth 16384

open scoped BigOperators

noncomputable section

namespace Cert.KernelIdeal.NodeArray1

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The ten arrays the region reads, as it finds them: node features, aggregated messages, the first layer's weights
    and bias, the second layer's weights and bias, and the normalisation's scale, shift, mean and variance. -/
abbrev xArr (c : Dev nD) : Vec Ideal S50000x64 .f32 := V c (Pipeline.arrRef spec1 0)
abbrev aggArr (c : Dev nD) : Vec Ideal S50000x64 .f32 := V c (Pipeline.arrRef spec1 1)
abbrev waArr (c : Dev nD) : Vec Ideal S64x256 .f32 := V c (Pipeline.arrRef spec1 2)
abbrev baArr (c : Dev nD) : Vec Ideal S256 .f32 := V c (Pipeline.arrRef spec1 3)
abbrev wbArr (c : Dev nD) : Vec Ideal S256x256 .f32 := V c (Pipeline.arrRef spec1 4)
abbrev bbArr (c : Dev nD) : Vec Ideal S256 .f32 := V c (Pipeline.arrRef spec1 5)
abbrev gArr (c : Dev nD) : Vec Ideal S256 .f32 := V c (Pipeline.arrRef spec1 6)
abbrev shArr (c : Dev nD) : Vec Ideal S256 .f32 := V c (Pipeline.arrRef spec1 7)
abbrev muArr (c : Dev nD) : Vec Ideal S256 .f32 := V c (Pipeline.arrRef spec1 8)
abbrev varArr (c : Dev nD) : Vec Ideal S256 .f32 := V c (Pipeline.arrRef spec1 9)

/-- The three windows cut into blocks of rows (features, aggregate, output) sit, at grid point `t`, at block row `t`
    and block column 0. -/
theorem idx_rows : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_10.index t (0 : Fin 2) = t.val ∧ win1_10.index t (1 : Fin 2) = 0) :=
  (by decide +kernel : ∀ t : Fin grid1.N, _)

/-- The eight shared windows sit at the origin at every grid point; a vector's window has the one axis. -/
theorem idx_shared : ∀ t : Fin cfg1.N,
    (win1_2.index t (0 : Fin 2) = 0 ∧ win1_2.index t (1 : Fin 2) = 0)
    ∧ win1_3.index t (0 : Fin 1) = 0
    ∧ (win1_4.index t (0 : Fin 2) = 0 ∧ win1_4.index t (1 : Fin 2) = 0)
    ∧ win1_5.index t (0 : Fin 1) = 0
    ∧ win1_6.index t (0 : Fin 1) = 0
    ∧ win1_7.index t (0 : Fin 1) = 0
    ∧ win1_8.index t (0 : Fin 1) = 0
    ∧ win1_9.index t (0 : Fin 1) = 0 :=
  (by decide +kernel : ∀ t : Fin grid1.N, _)

/-- Row `p` of the feature block of point `t` is row `2000 t + p` of the feature array. -/
theorem x_row (c : Dev nD) (t : Fin cfg1.N) (p : Fin 2000) (j : Fin 64) (hp : t.val * 2000 + p.val < 50000) :
    iblk1 V c 0 t (ix2 p j) = xArr V c (ix2 ⟨t.val * 2000 + p.val, hp⟩ j) := by
  obtain ⟨⟨e0, e1⟩, -, -⟩ := idx_rows t
  unfold iblk1
  rw [View.read_apply]
  show xArr V c (((cfg1.win 0).blk t).view.emb (ix2 p j)) = xArr V c (ix2 ⟨t.val * 2000 + p.val, hp⟩ j)
  refine congrArg (xArr V c) (funext fun a => Fin.ext ?_)
  match a with
  | ⟨0, _⟩ => show win1_0.index t (0 : Fin 2) * 2000 + 1 * p.val = t.val * 2000 + p.val; omega
  | ⟨1, _⟩ => show win1_0.index t (1 : Fin 2) * 64 + 1 * j.val = j.val; omega

/-- Row `p` of the aggregate block of point `t` is row `2000 t + p` of the aggregate array. -/
theorem agg_row (c : Dev nD) (t : Fin cfg1.N) (p : Fin 2000) (j : Fin 64) (hp : t.val * 2000 + p.val < 50000) :
    iblk1 V c 1 t (ix2 p j) = aggArr V c (ix2 ⟨t.val * 2000 + p.val, hp⟩ j) := by
  obtain ⟨-, ⟨e0, e1⟩, -⟩ := idx_rows t
  unfold iblk1
  rw [View.read_apply]
  show aggArr V c (((cfg1.win 1).blk t).view.emb (ix2 p j)) = aggArr V c (ix2 ⟨t.val * 2000 + p.val, hp⟩ j)
  refine congrArg (aggArr V c) (funext fun a => Fin.ext ?_)
  match a with
  | ⟨0, _⟩ => show win1_1.index t (0 : Fin 2) * 2000 + 1 * p.val = t.val * 2000 + p.val; omega
  | ⟨1, _⟩ => show win1_1.index t (1 : Fin 2) * 64 + 1 * j.val = j.val; omega

/-- The first layer's weights are read whole at every point: the window's block is the matrix. -/
theorem wa_blk (c : Dev nD) (t : Fin cfg1.N) : iblk1 V c 2 t = waArr V c := by
  obtain ⟨⟨e0, e1⟩, -⟩ := idx_shared t
  unfold iblk1
  funext y
  rw [View.read_apply]
  show waArr V c (((cfg1.win 2).blk t).view.emb y) = waArr V c y
  refine congrArg (waArr V c) (funext fun a => Fin.ext ?_)
  match a with
  | ⟨0, _⟩ => show win1_2.index t (0 : Fin 2) * 64 + 1 * (y 0).val = (y 0).val; omega
  | ⟨1, _⟩ => show win1_2.index t (1 : Fin 2) * 256 + 1 * (y 1).val = (y 1).val; omega

/-- The first layer's bias is read whole at every point: the window's block is the vector. -/
theorem ba_blk (c : Dev nD) (t : Fin cfg1.N) : iblk1 V c 3 t = baArr V c := by
  obtain ⟨-, e0, -⟩ := idx_shared t
  unfold iblk1
  funext y
  rw [View.read_apply]
  show baArr V c (((cfg1.win 3).blk t).view.emb y) = baArr V c y
  refine congrArg (baArr V c) (funext fun a => Fin.ext ?_)
  match a with
  | ⟨0, _⟩ => show win1_3.index t (0 : Fin 1) * 256 + 1 * (y 0).val = (y 0).val; omega

/-- The second layer's weights are read whole at every point: the window's block is the matrix. -/
theorem wb_blk (c : Dev nD) (t : Fin cfg1.N) : iblk1 V c 4 t = wbArr V c := by
  obtain ⟨-, -, ⟨e0, e1⟩, -⟩ := idx_shared t
  unfold iblk1
  funext y
  rw [View.read_apply]
  show wbArr V c (((cfg1.win 4).blk t).view.emb y) = wbArr V c y
  refine congrArg (wbArr V c) (funext fun a => Fin.ext ?_)
  match a with
  | ⟨0, _⟩ => show win1_4.index t (0 : Fin 2) * 256 + 1 * (y 0).val = (y 0).val; omega
  | ⟨1, _⟩ => show win1_4.index t (1 : Fin 2) * 256 + 1 * (y 1).val = (y 1).val; omega

/-- The second layer's bias is read whole at every point: the window's block is the vector. -/
theorem bb_blk (c : Dev nD) (t : Fin cfg1.N) : iblk1 V c 5 t = bbArr V c := by
  obtain ⟨-, -, -, e0, -⟩ := idx_shared t
  unfold iblk1
  funext y
  rw [View.read_apply]
  show bbArr V c (((cfg1.win 5).blk t).view.emb y) = bbArr V c y
  refine congrArg (bbArr V c) (funext fun a => Fin.ext ?_)
  match a with
  | ⟨0, _⟩ => show win1_5.index t (0 : Fin 1) * 256 + 1 * (y 0).val = (y 0).val; omega

/-- The normalisation's scale is read whole at every point: the window's block is the vector. -/
theorem g_blk (c : Dev nD) (t : Fin cfg1.N) : iblk1 V c 6 t = gArr V c := by
  obtain ⟨-, -, -, -, e0, -⟩ := idx_shared t
  unfold iblk1
  funext y
  rw [View.read_apply]
  show gArr V c (((cfg1.win 6).blk t).view.emb y) = gArr V c y
  refine congrArg (gArr V c) (funext fun a => Fin.ext ?_)
  match a with
  | ⟨0, _⟩ => show win1_6.index t (0 : Fin 1) * 256 + 1 * (y 0).val = (y 0).val; omega

/-- The normalisation's shift is read whole at every point: the window's block is the vector. -/
theorem sh_blk (c : Dev nD) (t : Fin cfg1.N) : iblk1 V c 7 t = shArr V c := by
  obtain ⟨-, -, -, -, -, e0, -⟩ := idx_shared t
  unfold iblk1
  funext y
  rw [View.read_apply]
  show shArr V c (((cfg1.win 7).blk t).view.emb y) = shArr V c y
  refine congrArg (shArr V c) (funext fun a => Fin.ext ?_)
  match a with
  | ⟨0, _⟩ => show win1_7.index t (0 : Fin 1) * 256 + 1 * (y 0).val = (y 0).val; omega

/-- The normalisation's mean is read whole at every point: the window's block is the vector. -/
theorem mu_blk (c : Dev nD) (t : Fin cfg1.N) : iblk1 V c 8 t = muArr V c := by
  obtain ⟨-, -, -, -, -, -, e0, -⟩ := idx_shared t
  unfold iblk1
  funext y
  rw [View.read_apply]
  show muArr V c (((cfg1.win 8).blk t).view.emb y) = muArr V c y
  refine congrArg (muArr V c) (funext fun a => Fin.ext ?_)
  match a with
  | ⟨0, _⟩ => show win1_8.index t (0 : Fin 1) * 256 + 1 * (y 0).val = (y 0).val; omega

/-- The normalisation's variance is read whole at every point: the window's block is the vector. -/
theorem var_blk (c : Dev nD) (t : Fin cfg1.N) : iblk1 V c 9 t = varArr V c := by
  obtain ⟨-, -, -, -, -, -, -, e0⟩ := idx_shared t
  unfold iblk1
  funext y
  rw [View.read_apply]
  show varArr V c (((cfg1.win 9).blk t).view.emb y) = varArr V c y
  refine congrArg (varArr V c) (funext fun a => Fin.ext ?_)
  match a with
  | ⟨0, _⟩ => show win1_9.index t (0 : Fin 1) * 256 + 1 * (y 0).val = (y 0).val; omega

/-- The two blocks of rows that point `t` reads, at their literal types. -/
abbrev xBlk (c : Dev nD) (t : Fin cfg1.N) : Vec Ideal S2000x64 .f32 := iblk1 V c 0 t
abbrev aggBlk (c : Dev nD) (t : Fin cfg1.N) : Vec Ideal S2000x64 .f32 := iblk1 V c 1 t

/-- Every node's new features, from the arrays as the region finds them. -/
abbrev allUpd (c : Dev nD) : Vec Ideal S50000x256 .f32 :=
  Cert.Spec.nodeUpd (xArr V c) (aggArr V c) (waArr V c) (baArr V c) (wbArr V c) (bbArr V c) (gArr V c) (shArr V c)
    (muArr V c) (varArr V c)

/-- There are 25 grid points, so a row of a block is a row of the array. -/
theorem row_lt (t : Fin cfg1.N) (p : Fin 2000) : t.val * 2000 + p.val < 50000 := by
  have ht : t.val < 25 := t.isLt
  have hp : p.val < 2000 := p.isLt
  omega

/-- The new features of row `p` of point `t`'s blocks are those of row `2000 t + p` of the arrays: a node's update
    reads only the node's own row of the features and of the aggregate, and the eight other arrays are shared. -/
theorem blk_upd (c : Dev nD) (t : Fin cfg1.N) (p : Fin 2000) (q : Fin 256) :
    Cert.Spec.nodeUpd (xBlk V c t) (aggBlk V c t) (waArr V c) (baArr V c) (wbArr V c) (bbArr V c) (gArr V c)
        (shArr V c) (muArr V c) (varArr V c) (ix2 p q)
      = allUpd V c (ix2 ⟨t.val * 2000 + p.val, row_lt t p⟩ q) := by
  rw [Cert.Spec.nodeUpd_apply]
  show _ = Cert.Spec.nodeUpdAt (xArr V c) (aggArr V c) (waArr V c) (baArr V c) (wbArr V c) (bbArr V c) (gArr V c)
    (shArr V c) (muArr V c) (varArr V c) ⟨t.val * 2000 + p.val, row_lt t p⟩ q
  exact Cert.Spec.nodeUpdAt_congr (xArr V c) (aggArr V c) (xBlk V c t) (aggBlk V c t) (waArr V c) (baArr V c)
    (wbArr V c) (bbArr V c) (gArr V c) (shArr V c) (muArr V c) (varArr V c) ⟨t.val * 2000 + p.val, row_lt t p⟩ p q
    (fun j => x_row V c t p j (row_lt t p)) (fun j => agg_row V c t p j (row_lt t p))

/-- Entry `(p, q)` of the output block of point `t` is entry `(2000 t + p, q)` of the output array. -/
theorem out_emb (t : Fin cfg1.N) (p : Fin 2000) (q : Fin 256) :
    ((cfg1.win 10).blk t).view.emb (ix2 p q) = ix2 ⟨t.val * 2000 + p.val, row_lt t p⟩ q := by
  obtain ⟨-, -, ⟨e0, e1⟩⟩ := idx_rows t
  refine funext fun a => Fin.ext ?_
  match a with
  | ⟨0, _⟩ => show win1_10.index t (0 : Fin 2) * 2000 + 1 * p.val = t.val * 2000 + p.val; omega
  | ⟨1, _⟩ => show win1_10.index t (1 : Fin 2) * 256 + 1 * q.val = q.val; omega

/-- What point `t` writes back is its block of rows of the array of all nodes' new features. -/
theorem flushed_eq (c : Dev nD) (t : Fin cfg1.N) :
    (dat1 V c).flushed 10 t = ((cfg1.win 10).blk t).view.read (Elt Ideal) (allUpd V c) := by
  show (cfg1.win 10).cut (grid1.coords t) ((dat1 V c).after 10 t) = _
  rw [after1_10, wa_blk, ba_blk, wb_blk, bb_blk, g_blk, sh_blk, mu_blk, var_blk]
  show (cfg1.win 10).cut (grid1.coords t) (out1_10 (xBlk V c t) (aggBlk V c t) (waArr V c) (baArr V c) (wbArr V c)
    (bbArr V c) (gArr V c) (shArr V c) (muArr V c) (varArr V c)) = _
  rw [Cert.KernelIdeal.NodeBody1.out_eq]
  funext j
  show Cert.Spec.nodeUpd (xBlk V c t) (aggBlk V c t) (waArr V c) (baArr V c) (wbArr V c) (bbArr V c) (gArr V c)
      (shArr V c) (muArr V c) (varArr V c) j
    = allUpd V c (((cfg1.win 10).blk t).view.emb j)
  obtain ⟨p, q, rfl⟩ : ∃ (p : Fin 2000) (q : Fin 256), j = ix2 p q := ⟨j 0, j 1, eq_ix2 j⟩
  rw [out_emb]
  exact blk_upd V c t p q

/-- An entry of the output array lies in point `t`'s block exactly when each of its coordinates lies in the
    block's range on that axis. -/
theorem mem_blk (t : Fin cfg1.N) (i : S50000x256.Idx) :
    i ∈ ((cfg1.win 10).blk t).view.set ↔ ∀ a : Fin 2, win1_10.index t a * S2000x256.size a ≤ (i a).val
      ∧ (i a).val < win1_10.index t a * S2000x256.size a + S2000x256.size a := by
  show i ∈ ((View.whole main_v9).slice (win1_10.rect t)).set ↔ _
  rw [View.set_slice_whole, Rect.mem_set_unit]
  exact Iff.rfl

/-- Every entry of the output array lies in some point's block: row `r` in the block of point `r / 2000`. -/
theorem cover (i : S50000x256.Idx) :
    ∃ t : Fin cfg1.N, (cfg1.win 10).flush t = true ∧ i ∈ ((cfg1.win 10).blk t).view.set := by
  have hi0 : (i 0).val < 50000 := (i 0).isLt
  have hi1 : (i 1).val < 256 := (i 1).isLt
  refine ⟨⟨(i 0).val / 2000, by show (i 0).val / 2000 < 25; omega⟩, flush1_10 _, ?_⟩
  rw [mem_blk]
  obtain ⟨-, -, ⟨e0, e1⟩⟩ := idx_rows ⟨(i 0).val / 2000, by show (i 0).val / 2000 < 25; omega⟩
  intro a
  match a with
  | ⟨0, _⟩ =>
    show win1_10.index _ (0 : Fin 2) * 2000 ≤ (i 0).val ∧ (i 0).val < win1_10.index _ (0 : Fin 2) * 2000 + 2000
    rw [e0]; show (i 0).val / 2000 * 2000 ≤ (i 0).val ∧ (i 0).val < (i 0).val / 2000 * 2000 + 2000; omega
  | ⟨1, _⟩ =>
    show win1_10.index _ (1 : Fin 2) * 256 ≤ (i 1).val ∧ (i 1).val < win1_10.index _ (1 : Fin 2) * 256 + 256
    rw [e1]; omega

/-- After the last grid point the output array holds every node's new features, computed from the arrays as the
    region found them. -/
theorem array_eq (c : Dev nD) : (dat1 V c).arrAt 10 cfg1.N
    = Cert.Spec.nodeUpd (xArr V c) (aggArr V c) (waArr V c) (baArr V c) (wbArr V c) (bbArr V c) (gArr V c) (shArr V c)
        (muArr V c) (varArr V c) :=
  (dat1 V c).arrAt_eq_of_cover 10 (allUpd V c) (fun t _ => flushed_eq V c t) cover

end Cert.KernelIdeal.NodeArray1

end
-- ==== Proof.Walk1.lean ====
/-
  The first layer, walked from the launch to the first node-update kernel's exit.

  The program's first stretches cut out the source and destination index vectors and take the rows of the input
  features at the source indices; the first message kernel turns the taken rows, the edge attributes, the weights and
  the bias into the messages; the next stretch adds the messages up per destination node; the first node-update kernel
  turns the input features, the sums and its parameters into the first layer's node features. Each buffer the kernels
  read is either an argument, which holds its launch contents at every boundary, or the result of an earlier step,
  carried unchanged across the steps that do not write it. Put together, the first node-update kernel's output array
  is the first layer of the network applied to the launch contents of the arguments.
-/
import proofs.«411645_j14336600834819_1_alg».proof.Proof.KernelNet
import proofs.«411645_j14336600834819_1_alg».proof.Proof.Carry
import proofs.«411645_j14336600834819_1_alg».proof.Proof.Aggregates
import proofs.«411645_j14336600834819_1_alg».proof.Proof.IdxCarry
import proofs.«411645_j14336600834819_1_alg».proof.Proof.TakeValues
import proofs.«411645_j14336600834819_1_alg».proof.Proof.EdgeArray0
import proofs.«411645_j14336600834819_1_alg».proof.Proof.NodeArray1

set_option maxRecDepth 16384

noncomputable section

namespace Cert.KernelIdeal.Walk1

open Cert.KernelIdeal Cert.KernelIdeal.Gen Cert.KernelIdeal.Take Cert.KernelIdeal.Net Idealize.ShloMosaic Idealize.ShloMosaic.TcCoe
open Idealize.SL.Sem

variable (m : (ℓ : Loc nD τ sig) → Buf (Elt Ideal) ℓ) (ρ : Dev nD → PrngReg)

/-- The rows taken for the first message kernel: the input features at the source indices. -/
theorem taken1 (c : Dev nD) : W2 m ρ c (Proc.devRef .tc main_v4) = take64 (F := Ideal) (m ((c : Thread nD τ).loc main_arg0)) (srcRow (m ((c : Thread nD τ).loc main_arg2))) := by
  refine (TakeValues.take64_val m ρ c).trans ?_
  rw [Carry.at_W1 m ρ c main_arg0 (by decide), IdxCarry.src_at1 m ρ c]

/-- The first message kernel's output: the messages of the taken rows. -/
theorem msg1 (c : Dev nD) :
    W3 m ρ c (Proc.devRef .tc main_v5)
      = Cert.Spec.edgeMsg (m ((c : Thread nD τ).loc main_arg1)) (take64 (F := Ideal) (m ((c : Thread nD τ).loc main_arg0)) (srcRow (m ((c : Thread nD τ).loc main_arg2)))) (m ((c : Thread nD τ).loc main_arg4)) (m ((c : Thread nD τ).loc main_arg5)) := by
  refine (W3_arr m ρ c 4).trans ?_
  rw [EdgeArray0.array_eq (V2 m ρ) c]
  unfold EdgeArray0.allMsg
  have e0 : EdgeArray0.eaArr (V2 m ρ) c = (m ((c : Thread nD τ).loc main_arg1)) := Carry.at_W2 m ρ c main_arg1 (by decide)
  have e1 : EdgeArray0.xsArr (V2 m ρ) c = take64 (F := Ideal) (m ((c : Thread nD τ).loc main_arg0)) (srcRow (m ((c : Thread nD τ).loc main_arg2))) := taken1 m ρ c
  have e2 : EdgeArray0.weArr (V2 m ρ) c = (m ((c : Thread nD τ).loc main_arg4)) := Carry.at_W2 m ρ c main_arg4 (by decide)
  have e3 : EdgeArray0.beArr (V2 m ρ) c = (m ((c : Thread nD τ).loc main_arg5)) := Carry.at_W2 m ρ c main_arg5 (by decide)
  rw [e0, e1, e2, e3]

/-- The messages added up per destination node. -/
theorem agg1 (c : Dev nD) :
    W4 m ρ c (Proc.devRef .tc main_v8)
      = sumTo64 (dstRow (m ((c : Thread nD τ).loc main_arg2))) (Cert.Spec.edgeMsg (m ((c : Thread nD τ).loc main_arg1)) (take64 (F := Ideal) (m ((c : Thread nD τ).loc main_arg0)) (srcRow (m ((c : Thread nD τ).loc main_arg2)))) (m ((c : Thread nD τ).loc main_arg4)) (m ((c : Thread nD τ).loc main_arg5))) := by
  refine (Aggregates.agg1_val m ρ c).trans ?_
  rw [IdxCarry.dst_at3 m ρ c, msg1 m ρ c]
  rfl

/-- The first node-update kernel's output: the first layer's node features. -/
theorem h1_val (c : Dev nD) : W5 m ρ c (Proc.devRef .tc main_v9) = h1 m c := by
  refine (W5_arr m ρ c 10).trans ?_
  rw [NodeArray1.array_eq (V4 m ρ) c]
  have e0 : NodeArray1.xArr (V4 m ρ) c = (m ((c : Thread nD τ).loc main_arg0)) := Carry.at_W4 m ρ c main_arg0 (by decide)
  have e1 : NodeArray1.aggArr (V4 m ρ) c
      = sumTo64 (dstRow (m ((c : Thread nD τ).loc main_arg2))) (Cert.Spec.edgeMsg (m ((c : Thread nD τ).loc main_arg1)) (take64 (F := Ideal) (m ((c : Thread nD τ).loc main_arg0)) (srcRow (m ((c : Thread nD τ).loc main_arg2)))) (m ((c : Thread nD τ).loc main_arg4)) (m ((c : Thread nD τ).loc main_arg5))) := agg1 m ρ c
  have e2 : NodeArray1.waArr (V4 m ρ) c = (m ((c : Thread nD τ).loc main_arg6)) := Carry.at_W4 m ρ c main_arg6 (by decide)
  have e3 : NodeArray1.baArr (V4 m ρ) c = (m ((c : Thread nD τ).loc main_arg7)) := Carry.at_W4 m ρ c main_arg7 (by decide)
  have e4 : NodeArray1.wbArr (V4 m ρ) c = (m ((c : Thread nD τ).loc main_arg8)) := Carry.at_W4 m ρ c main_arg8 (by decide)
  have e5 : NodeArray1.bbArr (V4 m ρ) c = (m ((c : Thread nD τ).loc main_arg9)) := Carry.at_W4 m ρ c main_arg9 (by decide)
  have e6 : NodeArray1.gArr (V4 m ρ) c = (m ((c : Thread nD τ).loc main_arg10)) := Carry.at_W4 m ρ c main_arg10 (by decide)
  have e7 : NodeArray1.shArr (V4 m ρ) c = (m ((c : Thread nD τ).loc main_arg11)) := Carry.at_W4 m ρ c main_arg11 (by decide)
  have e8 : NodeArray1.muArr (V4 m ρ) c = (m ((c : Thread nD τ).loc main_arg12)) := Carry.at_W4 m ρ c main_arg12 (by decide)
  have e9 : NodeArray1.varArr (V4 m ρ) c = (m ((c : Thread nD τ).loc main_arg13)) := Carry.at_W4 m ρ c main_arg13 (by decide)
  rw [e0, e1, e2, e3, e4, e5, e6, e7, e8, e9]
  rfl

end Cert.KernelIdeal.Walk1

end
-- ==== Proof.EdgeBody2.lean ====
/-
  What the second message kernel computes from one block of rows.

  The body loads a block of edge attributes `ea` (4000 × 16), the weights `we` (16 × 256), the block of gathered
  source rows `xs` (4000 × 256) and the bias `be` (256), and stores

      max ((xs + ea · we) + be) 0

  where `ea · we` is the matrix product accumulated from zero (its operands pass through a narrower float format on
  the way in, which changes nothing on the extended reals) and `be` is repeated over the rows. Read at row `p` and
  feature `q` this is the message of row `p` at feature `q` as the specification writes it.
-/
import proofs.«411645_j14336600834819_1_alg».proof.Proof.Gen.KernelIdeal.Frame
import proofs.«411645_j14336600834819_1_alg».proof.Proof.EdgeSpec
import proofs.«411645_j14336600834819_1_alg».proof.Proof.RowBias
import proofs.«411645_j14336600834819_1_alg».proof.Proof.LibDot
import Idealize.ShloMosaic.PureOps.Ideal.Laws
import Idealize.ShloMosaic.Lib.Pipeline.Value

open scoped BigOperators

noncomputable section

namespace Cert.KernelIdeal.EdgeBody2

open Cert.KernelIdeal Cert.KernelIdeal.Gen Idealize.ShloMosaic Idealize.ShloMosaic.ValueIdx

/-- The product's dimension record contracts the left operand's columns against the right operand's rows. -/
theorem dot_rowsCols : Cert.Lib.Dot.IsRowsCols dot_S4000x16_S16x256_S4000x256_1_0_0_1_n_n :=
  ⟨rfl, rfl, rfl, rfl, rfl, rfl⟩

/-- The stored value at row `p`, feature `q`: the message of that row at that feature. -/
theorem pay_apply (ea : Vec Ideal S4000x16 .f32) (we : Vec Ideal S16x256 .f32) (xs : Vec Ideal S4000x256 .f32)
    (be : Vec Ideal S256 .f32) (p : Fin 4000) (q : Fin 256) :
    k2_pay1 (F := Ideal) ea we xs be (ix2 p q) = Cert.Spec.edgeMsgAt ea xs we be p q := by
  unfold k2_pay1 Cert.Spec.edgeMsgAt
  simp only [maximumf_apply, addf_apply, broadcast_apply, shapeCast_self]
  rw [Cert.Lib.Dot.matmul0_rc _ dot_rowsCols, Cert.Spec.rowSpread_cast_apply]
  simp only [truncf_apply]
  rw [Ideal.ofBits_def, Ideal.ofBits_zero_f32]

/-- A rectangle of a rank-2 buffer that starts at the first row and first column starts at the origin. -/
theorem origin2 : (![0, 0] : Fin 2 → Nat) = fun _ => 0 := funext fun a => by fin_cases a <;> rfl

/-- A segment of a rank-1 buffer that starts at its first entry starts at the origin. -/
theorem origin1 : (![0] : Fin 1 → Nat) = fun _ => 0 := funext fun a => by fin_cases a; rfl

/-- What the body leaves in the output block, from the four input blocks: the messages of the block's rows. -/
theorem out_eq (ea : Vec Ideal S4000x16 .f32) (xs : Vec Ideal S4000x256 .f32) (we : Vec Ideal S16x256 .f32)
    (be : Vec Ideal S256 .f32) : out2_4 (F := Ideal) ea xs we be = Cert.Spec.edgeMsg ea xs we be := by
  unfold out2_4
  rw [View.canon_unit_zero origin2]
  simp only [View.ld_unit_zero (S := S4000x16) origin2, View.ld_unit_zero (S := S16x256) origin2,
    View.ld_unit_zero (S := S4000x256) origin2, View.ld_unit_zero (S := S256) origin1]
  funext j
  obtain ⟨p, q, rfl⟩ : ∃ (p : Fin 4000) (q : Fin 256), j = ix2 p q := ⟨j 0, j 1, eq_ix2 j⟩
  exact pay_apply ea we xs be p q

end Cert.KernelIdeal.EdgeBody2

end
-- ==== Proof.EdgeArray2.lean ====
/-
  The second message kernel's output array, from its input arrays.

  The kernel runs over 200 grid points. Point `t` reads rows `4000 t` to `4000 t + 3999` of the edge attributes and of
  the gathered source rows, the whole weight matrix and the whole bias, and writes the same rows of the output. Since
  a message depends only on its own row of the attributes and of the gathered rows, what point `t` writes is exactly
  rows `4000 t …` of the array of ALL messages; and every row lies in the block of point `row / 4000`. So after the
  last point the output array holds all the messages.
-/
import proofs.«411645_j14336600834819_1_alg».proof.Proof.Gen.KernelIdeal.Frame
import proofs.«411645_j14336600834819_1_alg».proof.Proof.EdgeBody2
import Idealize.ShloMosaic.Lib.Pipeline.Value

set_option maxRecDepth 16384

open scoped BigOperators

noncomputable section

namespace Cert.KernelIdeal.EdgeArray2

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The four arrays the region reads, as it finds them: edge attributes, gathered source rows, weights, bias. -/
abbrev eaArr (c : Dev nD) : Vec Ideal S800000x16 .f32 := V c (Pipeline.arrRef spec2 0)
abbrev xsArr (c : Dev nD) : Vec Ideal S800000x256 .f32 := V c (Pipeline.arrRef spec2 1)
abbrev weArr (c : Dev nD) : Vec Ideal S16x256 .f32 := V c (Pipeline.arrRef spec2 2)
abbrev beArr (c : Dev nD) : Vec Ideal S256 .f32 := V c (Pipeline.arrRef spec2 3)

/-- Where each window's block sits at grid point `t`: the row-blocked windows (attributes, gathered rows, output) at
    block row `t`, block column 0; the weights and the bias at the origin, whatever the point. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0 :=
  (by decide +kernel : ∀ t : Fin grid2.N, _)

/-- Row `p` of the attribute block of point `t` is row `4000 t + p` of the attribute array. -/
theorem ea_row (c : Dev nD) (t : Fin cfg2.N) (p : Fin 4000) (k : Fin 16) (hp : t.val * 4000 + p.val < 800000) :
    iblk2 V c 0 t (ix2 p k) = eaArr V c (ix2 ⟨t.val * 4000 + p.val, hp⟩ k) := by
  obtain ⟨e0, e1, -⟩ := idx_facts t
  unfold iblk2
  rw [View.read_apply]
  show eaArr V c (((cfg2.win 0).blk t).view.emb (ix2 p k)) = eaArr V c (ix2 ⟨t.val * 4000 + p.val, hp⟩ k)
  refine congrArg (eaArr V c) (funext fun a => Fin.ext ?_)
  match a with
  | ⟨0, _⟩ => show win2_0.index t (0 : Fin 2) * 4000 + 1 * p.val = t.val * 4000 + p.val; omega
  | ⟨1, _⟩ => show win2_0.index t (1 : Fin 2) * 16 + 1 * k.val = k.val; omega

/-- Row `p` of the gathered-rows block of point `t` is row `4000 t + p` of the gathered-rows array. -/
theorem xs_row (c : Dev nD) (t : Fin cfg2.N) (p : Fin 4000) (q : Fin 256) (hp : t.val * 4000 + p.val < 800000) :
    iblk2 V c 1 t (ix2 p q) = xsArr V c (ix2 ⟨t.val * 4000 + p.val, hp⟩ q) := by
  obtain ⟨-, -, e2, e3, -⟩ := idx_facts t
  unfold iblk2
  rw [View.read_apply]
  show xsArr V c (((cfg2.win 1).blk t).view.emb (ix2 p q)) = xsArr V c (ix2 ⟨t.val * 4000 + p.val, hp⟩ q)
  refine congrArg (xsArr V c) (funext fun a => Fin.ext ?_)
  match a with
  | ⟨0, _⟩ => show win2_1.index t (0 : Fin 2) * 4000 + 1 * p.val = t.val * 4000 + p.val; omega
  | ⟨1, _⟩ => show win2_1.index t (1 : Fin 2) * 256 + 1 * q.val = q.val; omega

/-- The weights window covers the whole weight matrix at every point: its block is the matrix. -/
theorem we_blk (c : Dev nD) (t : Fin cfg2.N) : iblk2 V c 2 t = weArr V c := by
  obtain ⟨-, -, -, -, e4, e5, -⟩ := idx_facts t
  unfold iblk2
  funext y
  rw [View.read_apply]
  show weArr V c (((cfg2.win 2).blk t).view.emb y) = weArr V c y
  refine congrArg (weArr V c) (funext fun a => Fin.ext ?_)
  match a with
  | ⟨0, _⟩ => show win2_2.index t (0 : Fin 2) * 16 + 1 * (y 0).val = (y 0).val; omega
  | ⟨1, _⟩ => show win2_2.index t (1 : Fin 2) * 256 + 1 * (y 1).val = (y 1).val; omega

/-- The bias window covers the whole bias vector at every point: its block is the vector. -/
theorem be_blk (c : Dev nD) (t : Fin cfg2.N) : iblk2 V c 3 t = beArr V c := by
  obtain ⟨-, -, -, -, -, -, e6, -⟩ := idx_facts t
  unfold iblk2
  funext y
  rw [View.read_apply]
  show beArr V c (((cfg2.win 3).blk t).view.emb y) = beArr V c y
  refine congrArg (beArr V c) (funext fun a => Fin.ext ?_)
  match a with
  | ⟨0, _⟩ => show win2_3.index t (0 : Fin 1) * 256 + 1 * (y 0).val = (y 0).val; omega

/-- The two row-blocked input blocks of point `t`, at their literal types. -/
abbrev eaBlk (c : Dev nD) (t : Fin cfg2.N) : Vec Ideal S4000x16 .f32 := iblk2 V c 0 t
abbrev xsBlk (c : Dev nD) (t : Fin cfg2.N) : Vec Ideal S4000x256 .f32 := iblk2 V c 1 t

/-- All the messages, from the arrays as the region finds them. -/
abbrev allMsg (c : Dev nD) : Vec Ideal S800000x256 .f32 :=
  Cert.Spec.edgeMsg (eaArr V c) (xsArr V c) (weArr V c) (beArr V c)

/-- There are 200 grid points, so a row of a block is a row of the array. -/
theorem row_lt (t : Fin cfg2.N) (p : Fin 4000) : t.val * 4000 + p.val < 800000 := by
  have ht : t.val < 200 := t.isLt
  have hp : p.val < 4000 := p.isLt
  omega

/-- The message of row `p` of point `t`'s blocks is the message of row `4000 t + p` of the arrays: a message
    depends only on its own row of the attributes and of the gathered rows, and the weights and bias are shared. -/
theorem blk_msg (c : Dev nD) (t : Fin cfg2.N) (p : Fin 4000) (q : Fin 256) :
    Cert.Spec.edgeMsg (eaBlk V c t) (xsBlk V c t) (weArr V c) (beArr V c) (ix2 p q)
      = allMsg V c (ix2 ⟨t.val * 4000 + p.val, row_lt t p⟩ q) := by
  rw [Cert.Spec.edgeMsg_apply]
  show _ = Cert.Spec.edgeMsgAt (eaArr V c) (xsArr V c) (weArr V c) (beArr V c) ⟨t.val * 4000 + p.val, row_lt t p⟩ q
  exact Cert.Spec.edgeMsgAt_congr (eaArr V c) (xsArr V c) (eaBlk V c t) (xsBlk V c t) (weArr V c) (beArr V c)
    ⟨t.val * 4000 + p.val, row_lt t p⟩ p q (fun k => ea_row V c t p k (row_lt t p)) (xs_row V c t p q (row_lt t p))

/-- Entry `(p, q)` of the output block of point `t` is entry `(4000 t + p, q)` of the output array. -/
theorem out_emb (t : Fin cfg2.N) (p : Fin 4000) (q : Fin 256) :
    ((cfg2.win 4).blk t).view.emb (ix2 p q) = ix2 ⟨t.val * 4000 + p.val, row_lt t p⟩ q := by
  obtain ⟨-, -, -, -, -, -, -, e7, e8⟩ := idx_facts t
  refine funext fun a => Fin.ext ?_
  match a with
  | ⟨0, _⟩ => show win2_4.index t (0 : Fin 2) * 4000 + 1 * p.val = t.val * 4000 + p.val; omega
  | ⟨1, _⟩ => show win2_4.index t (1 : Fin 2) * 256 + 1 * q.val = q.val; omega

/-- What point `t` writes back is its block of rows of the array of all messages. -/
theorem flushed_eq (c : Dev nD) (t : Fin cfg2.N) :
    (dat2 V c).flushed 4 t = ((cfg2.win 4).blk t).view.read (Elt Ideal) (allMsg V c) := by
  show (cfg2.win 4).cut (grid2.coords t) ((dat2 V c).after 4 t) = _
  rw [after2_4, we_blk, be_blk]
  show (cfg2.win 4).cut (grid2.coords t) (out2_4 (eaBlk V c t) (xsBlk V c t) (weArr V c) (beArr V c)) = _
  rw [Cert.KernelIdeal.EdgeBody2.out_eq]
  funext j
  show Cert.Spec.edgeMsg (eaBlk V c t) (xsBlk V c t) (weArr V c) (beArr V c) j
    = allMsg V c (((cfg2.win 4).blk t).view.emb j)
  obtain ⟨p, q, rfl⟩ : ∃ (p : Fin 4000) (q : Fin 256), j = ix2 p q := ⟨j 0, j 1, eq_ix2 j⟩
  rw [out_emb]
  exact blk_msg V c t p q

/-- An entry of the output array lies in point `t`'s block exactly when each of its coordinates lies in the
    block's range on that axis. -/
theorem mem_blk (t : Fin cfg2.N) (i : S800000x256.Idx) :
    i ∈ ((cfg2.win 4).blk t).view.set ↔ ∀ a : Fin 2, win2_4.index t a * S4000x256.size a ≤ (i a).val
      ∧ (i a).val < win2_4.index t a * S4000x256.size a + S4000x256.size a := by
  show i ∈ ((View.whole main_v11).slice (win2_4.rect t)).set ↔ _
  rw [View.set_slice_whole, Rect.mem_set_unit]
  exact Iff.rfl

/-- Every entry of the output array lies in some point's block: row `r` in the block of point `r / 4000`. -/
theorem cover (i : S800000x256.Idx) :
    ∃ t : Fin cfg2.N, (cfg2.win 4).flush t = true ∧ i ∈ ((cfg2.win 4).blk t).view.set := by
  have hi0 : (i 0).val < 800000 := (i 0).isLt
  have hi1 : (i 1).val < 256 := (i 1).isLt
  refine ⟨⟨(i 0).val / 4000, by show (i 0).val / 4000 < 200; omega⟩, flush2_4 _, ?_⟩
  rw [mem_blk]
  obtain ⟨-, -, -, -, -, -, -, e7, e8⟩ := idx_facts ⟨(i 0).val / 4000, by show (i 0).val / 4000 < 200; omega⟩
  intro a
  match a with
  | ⟨0, _⟩ =>
    show win2_4.index _ (0 : Fin 2) * 4000 ≤ (i 0).val ∧ (i 0).val < win2_4.index _ (0 : Fin 2) * 4000 + 4000
    rw [e7]; show (i 0).val / 4000 * 4000 ≤ (i 0).val ∧ (i 0).val < (i 0).val / 4000 * 4000 + 4000; omega
  | ⟨1, _⟩ =>
    show win2_4.index _ (1 : Fin 2) * 256 ≤ (i 1).val ∧ (i 1).val < win2_4.index _ (1 : Fin 2) * 256 + 256
    rw [e8]; omega

/-- After the last grid point the output array holds all the messages, computed from the arrays as the region
    found them. -/
theorem array_eq (c : Dev nD) : (dat2 V c).arrAt 4 cfg2.N = allMsg V c :=
  (dat2 V c).arrAt_eq_of_cover 4 (allMsg V c) (fun t _ => flushed_eq V c t) cover

end Cert.KernelIdeal.EdgeArray2

end
-- ==== Proof.NodeBody3.lean ====
/-
  What the second node-update kernel computes from one block of rows.

  The body loads a block of node features `x` and of aggregated messages `agg` (2000 × 256 each), the two dense
  layers' weights `wa` (256 × 128) and `wb` (128 × 128) with their biases `ba`, `bb` (128 each), and the
  normalisation's per-feature scale `g`, shift `sh`, mean `mu` and variance `var` (128 each). It forms

      s   = x + agg
      hid = max (s · wa + ba) 0
      o   = max (hid · wb + bb) 0
      out = ((o - mu) * rsqrt (var + ε)) * g + sh

  where each `·` is a matrix product accumulated from zero (its operands pass through a narrower float format on
  the way in, which changes nothing on the extended reals), every 128-entry vector is repeated over the 2000 rows,
  the reciprocal square root is taken entrywise on the 128-entry vector `var + ε` before it is repeated, and `ε` is
  one fixed single-precision word, carried as that word. Read at row `p` and feature `q` this is the new feature
  `q` of node `p` as the specification writes it, product for product and in the same grouping.
-/
import proofs.«411645_j14336600834819_1_alg».proof.Proof.Gen.KernelIdeal.Frame
import proofs.«411645_j14336600834819_1_alg».proof.Proof.NodeSpec
import proofs.«411645_j14336600834819_1_alg».proof.Proof.RowBias
import proofs.«411645_j14336600834819_1_alg».proof.Proof.LibDot
import Idealize.ShloMosaic.PureOps.Ideal.Laws
import Idealize.ShloMosaic.Lib.Pipeline.Value

open scoped BigOperators

noncomputable section

namespace Cert.KernelIdeal.NodeBody3

open Cert.KernelIdeal Cert.KernelIdeal.Gen Idealize.ShloMosaic Idealize.ShloMosaic.ValueIdx

/-- The first layer's product contracts the summed features' columns against the rows of `wa`. -/
theorem dotIn_rowsCols : Cert.Lib.Dot.IsRowsCols dot_S2000x256_S256x128_S2000x128_1_0_0_1_n_n :=
  ⟨rfl, rfl, rfl, rfl, rfl, rfl⟩

/-- The second layer's product contracts the hidden activations' columns against the rows of `wb`. -/
theorem dotHid_rowsCols : Cert.Lib.Dot.IsRowsCols dot_S2000x128_S128x128_S2000x128_1_0_0_1_n_n :=
  ⟨rfl, rfl, rfl, rfl, rfl, rfl⟩

/-- An entrywise reciprocal square root, read at an entry, is the reciprocal square root of that entry. -/
theorem rsqrt_apply {s : Shape} {φ : FTy} (v : FVec Ideal s φ) (i : s.Idx) : rsqrt v i = Ideal.rsqrt (v i) := rfl

/-- The stored value at row `p`, feature `q`: the new feature `q` of node `p`. -/
theorem pay_apply (x agg : Vec Ideal S2000x256 .f32) (wa : Vec Ideal S256x128 .f32) (ba : Vec Ideal S128 .f32)
    (wb : Vec Ideal S128x128 .f32) (bb g sh mu var : Vec Ideal S128 .f32) (p : Fin 2000) (q : Fin 128) :
    k3_pay1 (F := Ideal) (k3_pay2 (F := Ideal) x agg wa ba wb bb var mu g) sh (ix2 p q)
      = Cert.Spec.nodeUpdAt x agg wa ba wb bb g sh mu var p q := by
  unfold k3_pay1 k3_pay2 Cert.Spec.nodeUpdAt Cert.Spec.nodeHidAt
  simp only [mulf_apply, addf_apply, subf_apply, maximumf_apply, broadcast_apply, shapeCast_self,
    Cert.Spec.rowSpread_cast_apply, rsqrt_apply]
  rw [Cert.Lib.Dot.matmul0_rc _ dotHid_rowsCols]
  simp only [truncf_apply, maximumf_apply, addf_apply, broadcast_apply, Cert.Spec.rowSpread_cast_apply,
    Cert.Lib.Dot.matmul0_rc _ dotIn_rowsCols]
  simp only [Ideal.ofBits_def, Ideal.ofBits_zero_f32, Cert.Spec.bnEps]

/-- A rectangle of a rank-2 buffer that begins at row zero and column zero begins at the all-zero offset. -/
theorem offset2_zero : (![0, 0] : Fin 2 → Nat) = fun _ => 0 := funext fun a => by fin_cases a <;> rfl

/-- A segment of a rank-1 buffer that begins at entry zero begins at the all-zero offset. -/
theorem offset1_zero : (![0] : Fin 1 → Nat) = fun _ => 0 := funext fun a => by fin_cases a; rfl

/-- What the body leaves in the output block, from the ten input blocks: the new features of the block's nodes. -/
theorem out_eq (x agg : Vec Ideal S2000x256 .f32) (wa : Vec Ideal S256x128 .f32) (ba : Vec Ideal S128 .f32)
    (wb : Vec Ideal S128x128 .f32) (bb g sh mu var : Vec Ideal S128 .f32) :
    out3_10 (F := Ideal) x agg wa ba wb bb g sh mu var = Cert.Spec.nodeUpd x agg wa ba wb bb g sh mu var := by
  unfold out3_10
  rw [View.canon_unit_zero offset2_zero]
  simp only [View.ld_unit_zero (S := S2000x256) offset2_zero, View.ld_unit_zero (S := S256x128) offset2_zero,
    View.ld_unit_zero (S := S128x128) offset2_zero, View.ld_unit_zero (S := S128) offset1_zero]
  funext j
  obtain ⟨p, q, rfl⟩ : ∃ (p : Fin 2000) (q : Fin 128), j = ix2 p q := ⟨j 0, j 1, eq_ix2 j⟩
  exact pay_apply x agg wa ba wb bb g sh mu var p q

end Cert.KernelIdeal.NodeBody3

end
-- ==== Proof.NodeArray3.lean ====
/-
  The second node-update kernel's output array, from its input arrays.

  The kernel runs over 25 grid points. Point `t` reads rows `2000 t` to `2000 t + 1999` of the node features and of
  the aggregated messages, and the whole of the eight shared arrays (the two dense layers' weights and biases and the
  normalisation's scale, shift, mean and variance), and writes the same rows of the output. A node's new features
  depend only on the node's own row of the features and of the aggregate, so what point `t` writes is exactly rows
  `2000 t …` of the array of ALL nodes' new features; and row `r` of that array lies in the block of point
  `r / 2000`. Hence after the last point the output array holds every node's new features.
-/
import proofs.«411645_j14336600834819_1_alg».proof.Proof.Gen.KernelIdeal.Frame
import proofs.«411645_j14336600834819_1_alg».proof.Proof.NodeBody3
import Idealize.ShloMosaic.Lib.Pipeline.Value

set_option maxRecDepth 16384

open scoped BigOperators

noncomputable section

namespace Cert.KernelIdeal.NodeArray3

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The ten arrays the region reads, as it finds them: node features, aggregated messages, the first layer's weights
    and bias, the second layer's weights and bias, and the normalisation's scale, shift, mean and variance. -/
abbrev xArr (c : Dev nD) : Vec Ideal S50000x256 .f32 := V c (Pipeline.arrRef spec3 0)
abbrev aggArr (c : Dev nD) : Vec Ideal S50000x256 .f32 := V c (Pipeline.arrRef spec3 1)
abbrev waArr (c : Dev nD) : Vec Ideal S256x128 .f32 := V c (Pipeline.arrRef spec3 2)
abbrev baArr (c : Dev nD) : Vec Ideal S128 .f32 := V c (Pipeline.arrRef spec3 3)
abbrev wbArr (c : Dev nD) : Vec Ideal S128x128 .f32 := V c (Pipeline.arrRef spec3 4)
abbrev bbArr (c : Dev nD) : Vec Ideal S128 .f32 := V c (Pipeline.arrRef spec3 5)
abbrev gArr (c : Dev nD) : Vec Ideal S128 .f32 := V c (Pipeline.arrRef spec3 6)
abbrev shArr (c : Dev nD) : Vec Ideal S128 .f32 := V c (Pipeline.arrRef spec3 7)
abbrev muArr (c : Dev nD) : Vec Ideal S128 .f32 := V c (Pipeline.arrRef spec3 8)
abbrev varArr (c : Dev nD) : Vec Ideal S128 .f32 := V c (Pipeline.arrRef spec3 9)

/-- The three windows cut into blocks of rows (features, aggregate, output) sit, at grid point `t`, at block row `t`
    and block column 0. -/
theorem idx_rows : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_10.index t (0 : Fin 2) = t.val ∧ win3_10.index t (1 : Fin 2) = 0) :=
  (by decide +kernel : ∀ t : Fin grid3.N, _)

/-- The eight shared windows sit at the origin at every grid point; a vector's window has the one axis. -/
theorem idx_shared : ∀ t : Fin cfg3.N,
    (win3_2.index t (0 : Fin 2) = 0 ∧ win3_2.index t (1 : Fin 2) = 0)
    ∧ win3_3.index t (0 : Fin 1) = 0
    ∧ (win3_4.index t (0 : Fin 2) = 0 ∧ win3_4.index t (1 : Fin 2) = 0)
    ∧ win3_5.index t (0 : Fin 1) = 0
    ∧ win3_6.index t (0 : Fin 1) = 0
    ∧ win3_7.index t (0 : Fin 1) = 0
    ∧ win3_8.index t (0 : Fin 1) = 0
    ∧ win3_9.index t (0 : Fin 1) = 0 :=
  (by decide +kernel : ∀ t : Fin grid3.N, _)

/-- Row `p` of the feature block of point `t` is row `2000 t + p` of the feature array. -/
theorem x_row (c : Dev nD) (t : Fin cfg3.N) (p : Fin 2000) (j : Fin 256) (hp : t.val * 2000 + p.val < 50000) :
    iblk3 V c 0 t (ix2 p j) = xArr V c (ix2 ⟨t.val * 2000 + p.val, hp⟩ j) := by
  obtain ⟨⟨e0, e1⟩, -, -⟩ := idx_rows t
  unfold iblk3
  rw [View.read_apply]
  show xArr V c (((cfg3.win 0).blk t).view.emb (ix2 p j)) = xArr V c (ix2 ⟨t.val * 2000 + p.val, hp⟩ j)
  refine congrArg (xArr V c) (funext fun a => Fin.ext ?_)
  match a with
  | ⟨0, _⟩ => show win3_0.index t (0 : Fin 2) * 2000 + 1 * p.val = t.val * 2000 + p.val; omega
  | ⟨1, _⟩ => show win3_0.index t (1 : Fin 2) * 256 + 1 * j.val = j.val; omega

/-- Row `p` of the aggregate block of point `t` is row `2000 t + p` of the aggregate array. -/
theorem agg_row (c : Dev nD) (t : Fin cfg3.N) (p : Fin 2000) (j : Fin 256) (hp : t.val * 2000 + p.val < 50000) :
    iblk3 V c 1 t (ix2 p j) = aggArr V c (ix2 ⟨t.val * 2000 + p.val, hp⟩ j) := by
  obtain ⟨-, ⟨e0, e1⟩, -⟩ := idx_rows t
  unfold iblk3
  rw [View.read_apply]
  show aggArr V c (((cfg3.win 1).blk t).view.emb (ix2 p j)) = aggArr V c (ix2 ⟨t.val * 2000 + p.val, hp⟩ j)
  refine congrArg (aggArr V c) (funext fun a => Fin.ext ?_)
  match a with
  | ⟨0, _⟩ => show win3_1.index t (0 : Fin 2) * 2000 + 1 * p.val = t.val * 2000 + p.val; omega
  | ⟨1, _⟩ => show win3_1.index t (1 : Fin 2) * 256 + 1 * j.val = j.val; omega

/-- The first layer's weights are read whole at every point: the window's block is the matrix. -/
theorem wa_blk (c : Dev nD) (t : Fin cfg3.N) : iblk3 V c 2 t = waArr V c := by
  obtain ⟨⟨e0, e1⟩, -⟩ := idx_shared t
  unfold iblk3
  funext y
  rw [View.read_apply]
  show waArr V c (((cfg3.win 2).blk t).view.emb y) = waArr V c y
  refine congrArg (waArr V c) (funext fun a => Fin.ext ?_)
  match a with
  | ⟨0, _⟩ => show win3_2.index t (0 : Fin 2) * 256 + 1 * (y 0).val = (y 0).val; omega
  | ⟨1, _⟩ => show win3_2.index t (1 : Fin 2) * 128 + 1 * (y 1).val = (y 1).val; omega

/-- The first layer's bias is read whole at every point: the window's block is the vector. -/
theorem ba_blk (c : Dev nD) (t : Fin cfg3.N) : iblk3 V c 3 t = baArr V c := by
  obtain ⟨-, e0, -⟩ := idx_shared t
  unfold iblk3
  funext y
  rw [View.read_apply]
  show baArr V c (((cfg3.win 3).blk t).view.emb y) = baArr V c y
  refine congrArg (baArr V c) (funext fun a => Fin.ext ?_)
  match a with
  | ⟨0, _⟩ => show win3_3.index t (0 : Fin 1) * 128 + 1 * (y 0).val = (y 0).val; omega

/-- The second layer's weights are read whole at every point: the window's block is the matrix. -/
theorem wb_blk (c : Dev nD) (t : Fin cfg3.N) : iblk3 V c 4 t = wbArr V c := by
  obtain ⟨-, -, ⟨e0, e1⟩, -⟩ := idx_shared t
  unfold iblk3
  funext y
  rw [View.read_apply]
  show wbArr V c (((cfg3.win 4).blk t).view.emb y) = wbArr V c y
  refine congrArg (wbArr V c) (funext fun a => Fin.ext ?_)
  match a with
  | ⟨0, _⟩ => show win3_4.index t (0 : Fin 2) * 128 + 1 * (y 0).val = (y 0).val; omega
  | ⟨1, _⟩ => show win3_4.index t (1 : Fin 2) * 128 + 1 * (y 1).val = (y 1).val; omega

/-- The second layer's bias is read whole at every point: the window's block is the vector. -/
theorem bb_blk (c : Dev nD) (t : Fin cfg3.N) : iblk3 V c 5 t = bbArr V c := by
  obtain ⟨-, -, -, e0, -⟩ := idx_shared t
  unfold iblk3
  funext y
  rw [View.read_apply]
  show bbArr V c (((cfg3.win 5).blk t).view.emb y) = bbArr V c y
  refine congrArg (bbArr V c) (funext fun a => Fin.ext ?_)
  match a with
  | ⟨0, _⟩ => show win3_5.index t (0 : Fin 1) * 128 + 1 * (y 0).val = (y 0).val; omega

/-- The normalisation's scale is read whole at every point: the window's block is the vector. -/
theorem g_blk (c : Dev nD) (t : Fin cfg3.N) : iblk3 V c 6 t = gArr V c := by
  obtain ⟨-, -, -, -, e0, -⟩ := idx_shared t
  unfold iblk3
  funext y
  rw [View.read_apply]
  show gArr V c (((cfg3.win 6).blk t).view.emb y) = gArr V c y
  refine congrArg (gArr V c) (funext fun a => Fin.ext ?_)
  match a with
  | ⟨0, _⟩ => show win3_6.index t (0 : Fin 1) * 128 + 1 * (y 0).val = (y 0).val; omega

/-- The normalisation's shift is read whole at every point: the window's block is the vector. -/
theorem sh_blk (c : Dev nD) (t : Fin cfg3.N) : iblk3 V c 7 t = shArr V c := by
  obtain ⟨-, -, -, -, -, e0, -⟩ := idx_shared t
  unfold iblk3
  funext y
  rw [View.read_apply]
  show shArr V c (((cfg3.win 7).blk t).view.emb y) = shArr V c y
  refine congrArg (shArr V c) (funext fun a => Fin.ext ?_)
  match a with
  | ⟨0, _⟩ => show win3_7.index t (0 : Fin 1) * 128 + 1 * (y 0).val = (y 0).val; omega

/-- The normalisation's mean is read whole at every point: the window's block is the vector. -/
theorem mu_blk (c : Dev nD) (t : Fin cfg3.N) : iblk3 V c 8 t = muArr V c := by
  obtain ⟨-, -, -, -, -, -, e0, -⟩ := idx_shared t
  unfold iblk3
  funext y
  rw [View.read_apply]
  show muArr V c (((cfg3.win 8).blk t).view.emb y) = muArr V c y
  refine congrArg (muArr V c) (funext fun a => Fin.ext ?_)
  match a with
  | ⟨0, _⟩ => show win3_8.index t (0 : Fin 1) * 128 + 1 * (y 0).val = (y 0).val; omega

/-- The normalisation's variance is read whole at every point: the window's block is the vector. -/
theorem var_blk (c : Dev nD) (t : Fin cfg3.N) : iblk3 V c 9 t = varArr V c := by
  obtain ⟨-, -, -, -, -, -, -, e0⟩ := idx_shared t
  unfold iblk3
  funext y
  rw [View.read_apply]
  show varArr V c (((cfg3.win 9).blk t).view.emb y) = varArr V c y
  refine congrArg (varArr V c) (funext fun a => Fin.ext ?_)
  match a with
  | ⟨0, _⟩ => show win3_9.index t (0 : Fin 1) * 128 + 1 * (y 0).val = (y 0).val; omega

/-- The two blocks of rows that point `t` reads, at their literal types. -/
abbrev xBlk (c : Dev nD) (t : Fin cfg3.N) : Vec Ideal S2000x256 .f32 := iblk3 V c 0 t
abbrev aggBlk (c : Dev nD) (t : Fin cfg3.N) : Vec Ideal S2000x256 .f32 := iblk3 V c 1 t

/-- Every node's new features, from the arrays as the region finds them. -/
abbrev allUpd (c : Dev nD) : Vec Ideal S50000x128 .f32 :=
  Cert.Spec.nodeUpd (xArr V c) (aggArr V c) (waArr V c) (baArr V c) (wbArr V c) (bbArr V c) (gArr V c) (shArr V c)
    (muArr V c) (varArr V c)

/-- There are 25 grid points, so a row of a block is a row of the array. -/
theorem row_lt (t : Fin cfg3.N) (p : Fin 2000) : t.val * 2000 + p.val < 50000 := by
  have ht : t.val < 25 := t.isLt
  have hp : p.val < 2000 := p.isLt
  omega

/-- The new features of row `p` of point `t`'s blocks are those of row `2000 t + p` of the arrays: a node's update
    reads only the node's own row of the features and of the aggregate, and the eight other arrays are shared. -/
theorem blk_upd (c : Dev nD) (t : Fin cfg3.N) (p : Fin 2000) (q : Fin 128) :
    Cert.Spec.nodeUpd (xBlk V c t) (aggBlk V c t) (waArr V c) (baArr V c) (wbArr V c) (bbArr V c) (gArr V c)
        (shArr V c) (muArr V c) (varArr V c) (ix2 p q)
      = allUpd V c (ix2 ⟨t.val * 2000 + p.val, row_lt t p⟩ q) := by
  rw [Cert.Spec.nodeUpd_apply]
  show _ = Cert.Spec.nodeUpdAt (xArr V c) (aggArr V c) (waArr V c) (baArr V c) (wbArr V c) (bbArr V c) (gArr V c)
    (shArr V c) (muArr V c) (varArr V c) ⟨t.val * 2000 + p.val, row_lt t p⟩ q
  exact Cert.Spec.nodeUpdAt_congr (xArr V c) (aggArr V c) (xBlk V c t) (aggBlk V c t) (waArr V c) (baArr V c)
    (wbArr V c) (bbArr V c) (gArr V c) (shArr V c) (muArr V c) (varArr V c) ⟨t.val * 2000 + p.val, row_lt t p⟩ p q
    (fun j => x_row V c t p j (row_lt t p)) (fun j => agg_row V c t p j (row_lt t p))

/-- Entry `(p, q)` of the output block of point `t` is entry `(2000 t + p, q)` of the output array. -/
theorem out_emb (t : Fin cfg3.N) (p : Fin 2000) (q : Fin 128) :
    ((cfg3.win 10).blk t).view.emb (ix2 p q) = ix2 ⟨t.val * 2000 + p.val, row_lt t p⟩ q := by
  obtain ⟨-, -, ⟨e0, e1⟩⟩ := idx_rows t
  refine funext fun a => Fin.ext ?_
  match a with
  | ⟨0, _⟩ => show win3_10.index t (0 : Fin 2) * 2000 + 1 * p.val = t.val * 2000 + p.val; omega
  | ⟨1, _⟩ => show win3_10.index t (1 : Fin 2) * 128 + 1 * q.val = q.val; omega

/-- What point `t` writes back is its block of rows of the array of all nodes' new features. -/
theorem flushed_eq (c : Dev nD) (t : Fin cfg3.N) :
    (dat3 V c).flushed 10 t = ((cfg3.win 10).blk t).view.read (Elt Ideal) (allUpd V c) := by
  show (cfg3.win 10).cut (grid3.coords t) ((dat3 V c).after 10 t) = _
  rw [after3_10, wa_blk, ba_blk, wb_blk, bb_blk, g_blk, sh_blk, mu_blk, var_blk]
  show (cfg3.win 10).cut (grid3.coords t) (out3_10 (xBlk V c t) (aggBlk V c t) (waArr V c) (baArr V c) (wbArr V c)
    (bbArr V c) (gArr V c) (shArr V c) (muArr V c) (varArr V c)) = _
  rw [Cert.KernelIdeal.NodeBody3.out_eq]
  funext j
  show Cert.Spec.nodeUpd (xBlk V c t) (aggBlk V c t) (waArr V c) (baArr V c) (wbArr V c) (bbArr V c) (gArr V c)
      (shArr V c) (muArr V c) (varArr V c) j
    = allUpd V c (((cfg3.win 10).blk t).view.emb j)
  obtain ⟨p, q, rfl⟩ : ∃ (p : Fin 2000) (q : Fin 128), j = ix2 p q := ⟨j 0, j 1, eq_ix2 j⟩
  rw [out_emb]
  exact blk_upd V c t p q

/-- An entry of the output array lies in point `t`'s block exactly when each of its coordinates lies in the
    block's range on that axis. -/
theorem mem_blk (t : Fin cfg3.N) (i : S50000x128.Idx) :
    i ∈ ((cfg3.win 10).blk t).view.set ↔ ∀ a : Fin 2, win3_10.index t a * S2000x128.size a ≤ (i a).val
      ∧ (i a).val < win3_10.index t a * S2000x128.size a + S2000x128.size a := by
  show i ∈ ((View.whole main_v15).slice (win3_10.rect t)).set ↔ _
  rw [View.set_slice_whole, Rect.mem_set_unit]
  exact Iff.rfl

/-- Every entry of the output array lies in some point's block: row `r` in the block of point `r / 2000`. -/
theorem cover (i : S50000x128.Idx) :
    ∃ t : Fin cfg3.N, (cfg3.win 10).flush t = true ∧ i ∈ ((cfg3.win 10).blk t).view.set := by
  have hi0 : (i 0).val < 50000 := (i 0).isLt
  have hi1 : (i 1).val < 128 := (i 1).isLt
  refine ⟨⟨(i 0).val / 2000, by show (i 0).val / 2000 < 25; omega⟩, flush3_10 _, ?_⟩
  rw [mem_blk]
  obtain ⟨-, -, ⟨e0, e1⟩⟩ := idx_rows ⟨(i 0).val / 2000, by show (i 0).val / 2000 < 25; omega⟩
  intro a
  match a with
  | ⟨0, _⟩ =>
    show win3_10.index _ (0 : Fin 2) * 2000 ≤ (i 0).val ∧ (i 0).val < win3_10.index _ (0 : Fin 2) * 2000 + 2000
    rw [e0]; show (i 0).val / 2000 * 2000 ≤ (i 0).val ∧ (i 0).val < (i 0).val / 2000 * 2000 + 2000; omega
  | ⟨1, _⟩ =>
    show win3_10.index _ (1 : Fin 2) * 128 ≤ (i 1).val ∧ (i 1).val < win3_10.index _ (1 : Fin 2) * 128 + 128
    rw [e1]; omega

/-- After the last grid point the output array holds every node's new features, computed from the arrays as the
    region found them. -/
theorem array_eq (c : Dev nD) : (dat3 V c).arrAt 10 cfg3.N
    = Cert.Spec.nodeUpd (xArr V c) (aggArr V c) (waArr V c) (baArr V c) (wbArr V c) (bbArr V c) (gArr V c) (shArr V c)
        (muArr V c) (varArr V c) :=
  (dat3 V c).arrAt_eq_of_cover 10 (allUpd V c) (fun t _ => flushed_eq V c t) cover

end Cert.KernelIdeal.NodeArray3

end
-- ==== Proof.Walk2.lean ====
/-
  The second layer, walked from the first node-update kernel's exit to the second's.

  The previous layer's node features sit in the buffer the previous node-update kernel wrote. A stretch of host
  operations takes their rows at the source indices; the message kernel turns the taken rows, the edge attributes and
  the layer's weights and bias into the messages; the next stretch adds the messages up per destination node; the
  node-update kernel turns the previous features, the sums and the layer's parameters into this layer's node features.
  The previous features are read twice, by the gather stretch and by the node-update kernel, and no step in between
  writes their buffer. Put together, the node-update kernel's output array is this layer of the network applied to the
  previous layer's node features.
-/
import proofs.«411645_j14336600834819_1_alg».proof.Proof.Walk1
import proofs.«411645_j14336600834819_1_alg».proof.Proof.EdgeArray2
import proofs.«411645_j14336600834819_1_alg».proof.Proof.NodeArray3

set_option maxRecDepth 16384

noncomputable section

namespace Cert.KernelIdeal.Walk2

open Cert.KernelIdeal Cert.KernelIdeal.Gen Cert.KernelIdeal.Take Cert.KernelIdeal.Net Idealize.ShloMosaic Idealize.ShloMosaic.TcCoe
open Idealize.SL.Sem

variable (m : (ℓ : Loc nD τ sig) → Buf (Elt Ideal) ℓ) (ρ : Dev nD → PrngReg)

/-- The previous layer's node features, still in their buffer at this layer's node-update kernel. -/
theorem x_at8 (c : Dev nD) : W8 m ρ c (Proc.devRef .tc main_v9) = h1 m c :=
  (Keeps.hostOps3_keeps m ρ c main_v9 (by decide)).trans ((Keeps.region2_keeps m ρ c main_v9 (by decide)).trans
    ((Keeps.hostOps2_keeps m ρ c main_v9 (by decide)).trans (Walk1.h1_val m ρ c)))

/-- The rows taken for this layer's message kernel: the previous features at the source indices. -/
theorem taken2 (c : Dev nD) : W6 m ρ c (Proc.devRef .tc main_v10) = take256 (F := Ideal) (h1 m c) (srcRow (m ((c : Thread nD τ).loc main_arg2))) := by
  refine (TakeValues.take256_val m ρ c).trans ?_
  rw [Walk1.h1_val m ρ c, IdxCarry.src_at5 m ρ c]

/-- The message kernel's output: the messages of the taken rows. -/
theorem msg2 (c : Dev nD) :
    W7 m ρ c (Proc.devRef .tc main_v11)
      = Cert.Spec.edgeMsg (m ((c : Thread nD τ).loc main_arg1)) (take256 (F := Ideal) (h1 m c) (srcRow (m ((c : Thread nD τ).loc main_arg2)))) (m ((c : Thread nD τ).loc main_arg14)) (m ((c : Thread nD τ).loc main_arg15)) := by
  refine (W7_arr m ρ c 4).trans ?_
  rw [EdgeArray2.array_eq (V6 m ρ) c]
  unfold EdgeArray2.allMsg
  have e0 : EdgeArray2.eaArr (V6 m ρ) c = (m ((c : Thread nD τ).loc main_arg1)) := Carry.at_W6 m ρ c main_arg1 (by decide)
  have e1 : EdgeArray2.xsArr (V6 m ρ) c = take256 (F := Ideal) (h1 m c) (srcRow (m ((c : Thread nD τ).loc main_arg2))) := taken2 m ρ c
  have e2 : EdgeArray2.weArr (V6 m ρ) c = (m ((c : Thread nD τ).loc main_arg14)) := Carry.at_W6 m ρ c main_arg14 (by decide)
  have e3 : EdgeArray2.beArr (V6 m ρ) c = (m ((c : Thread nD τ).loc main_arg15)) := Carry.at_W6 m ρ c main_arg15 (by decide)
  rw [e0, e1, e2, e3]

/-- The messages added up per destination node. -/
theorem agg2 (c : Dev nD) :
    W8 m ρ c (Proc.devRef .tc main_v14)
      = sumTo256 (dstRow (m ((c : Thread nD τ).loc main_arg2))) (Cert.Spec.edgeMsg (m ((c : Thread nD τ).loc main_arg1)) (take256 (F := Ideal) (h1 m c) (srcRow (m ((c : Thread nD τ).loc main_arg2)))) (m ((c : Thread nD τ).loc main_arg14)) (m ((c : Thread nD τ).loc main_arg15))) := by
  refine (Aggregates.agg2_val m ρ c).trans ?_
  rw [IdxCarry.dst_at7 m ρ c, msg2 m ρ c]
  rfl

/-- The node-update kernel's output: this layer's node features. -/
theorem h2_val (c : Dev nD) : W9 m ρ c (Proc.devRef .tc main_v15) = h2 m c := by
  refine (W9_arr m ρ c 10).trans ?_
  rw [NodeArray3.array_eq (V8 m ρ) c]
  have e0 : NodeArray3.xArr (V8 m ρ) c = h1 m c := x_at8 m ρ c
  have e1 : NodeArray3.aggArr (V8 m ρ) c
      = sumTo256 (dstRow (m ((c : Thread nD τ).loc main_arg2))) (Cert.Spec.edgeMsg (m ((c : Thread nD τ).loc main_arg1)) (take256 (F := Ideal) (h1 m c) (srcRow (m ((c : Thread nD τ).loc main_arg2)))) (m ((c : Thread nD τ).loc main_arg14)) (m ((c : Thread nD τ).loc main_arg15))) := agg2 m ρ c
  have e2 : NodeArray3.waArr (V8 m ρ) c = (m ((c : Thread nD τ).loc main_arg16)) := Carry.at_W8 m ρ c main_arg16 (by decide)
  have e3 : NodeArray3.baArr (V8 m ρ) c = (m ((c : Thread nD τ).loc main_arg17)) := Carry.at_W8 m ρ c main_arg17 (by decide)
  have e4 : NodeArray3.wbArr (V8 m ρ) c = (m ((c : Thread nD τ).loc main_arg18)) := Carry.at_W8 m ρ c main_arg18 (by decide)
  have e5 : NodeArray3.bbArr (V8 m ρ) c = (m ((c : Thread nD τ).loc main_arg19)) := Carry.at_W8 m ρ c main_arg19 (by decide)
  have e6 : NodeArray3.gArr (V8 m ρ) c = (m ((c : Thread nD τ).loc main_arg20)) := Carry.at_W8 m ρ c main_arg20 (by decide)
  have e7 : NodeArray3.shArr (V8 m ρ) c = (m ((c : Thread nD τ).loc main_arg21)) := Carry.at_W8 m ρ c main_arg21 (by decide)
  have e8 : NodeArray3.muArr (V8 m ρ) c = (m ((c : Thread nD τ).loc main_arg22)) := Carry.at_W8 m ρ c main_arg22 (by decide)
  have e9 : NodeArray3.varArr (V8 m ρ) c = (m ((c : Thread nD τ).loc main_arg23)) := Carry.at_W8 m ρ c main_arg23 (by decide)
  rw [e0, e1, e2, e3, e4, e5, e6, e7, e8, e9]
  rfl

end Cert.KernelIdeal.Walk2

end
-- ==== Proof.EdgeBody4.lean ====
/-
  What the third message kernel computes from one block of rows.

  The body loads a block of edge attributes `ea` (4000 × 16), the weights `we` (16 × 128), the block of gathered
  source rows `xs` (4000 × 128) and the bias `be` (128), and stores

      max ((xs + ea · we) + be) 0

  where `ea · we` is the matrix product accumulated from zero (its operands pass through a narrower float format on
  the way in, which changes nothing on the extended reals) and `be` is repeated over the rows. Read at row `p` and
  feature `q` this is the message of row `p` at feature `q` as the specification writes it.
-/
import proofs.«411645_j14336600834819_1_alg».proof.Proof.Gen.KernelIdeal.Frame
import proofs.«411645_j14336600834819_1_alg».proof.Proof.EdgeSpec
import proofs.«411645_j14336600834819_1_alg».proof.Proof.RowBias
import proofs.«411645_j14336600834819_1_alg».proof.Proof.LibDot
import Idealize.ShloMosaic.PureOps.Ideal.Laws
import Idealize.ShloMosaic.Lib.Pipeline.Value

open scoped BigOperators

noncomputable section

namespace Cert.KernelIdeal.EdgeBody4

open Cert.KernelIdeal Cert.KernelIdeal.Gen Idealize.ShloMosaic Idealize.ShloMosaic.ValueIdx

/-- The product's dimension record contracts the left operand's columns against the right operand's rows. -/
theorem dot_rowsCols : Cert.Lib.Dot.IsRowsCols dot_S4000x16_S16x128_S4000x128_1_0_0_1_n_n :=
  ⟨rfl, rfl, rfl, rfl, rfl, rfl⟩

/-- The stored value at row `p`, feature `q`: the message of that row at that feature. -/
theorem pay_apply (ea : Vec Ideal S4000x16 .f32) (we : Vec Ideal S16x128 .f32) (xs : Vec Ideal S4000x128 .f32)
    (be : Vec Ideal S128 .f32) (p : Fin 4000) (q : Fin 128) :
    k4_pay1 (F := Ideal) ea we xs be (ix2 p q) = Cert.Spec.edgeMsgAt ea xs we be p q := by
  unfold k4_pay1 Cert.Spec.edgeMsgAt
  simp only [maximumf_apply, addf_apply, broadcast_apply, shapeCast_self]
  rw [Cert.Lib.Dot.matmul0_rc _ dot_rowsCols, Cert.Spec.rowSpread_cast_apply]
  simp only [truncf_apply]
  rw [Ideal.ofBits_def, Ideal.ofBits_zero_f32]

/-- A rectangle of a rank-2 buffer that starts at the first row and first column starts at the origin. -/
theorem origin2 : (![0, 0] : Fin 2 → Nat) = fun _ => 0 := funext fun a => by fin_cases a <;> rfl

/-- A segment of a rank-1 buffer that starts at its first entry starts at the origin. -/
theorem origin1 : (![0] : Fin 1 → Nat) = fun _ => 0 := funext fun a => by fin_cases a; rfl

/-- What the body leaves in the output block, from the four input blocks: the messages of the block's rows. -/
theorem out_eq (ea : Vec Ideal S4000x16 .f32) (xs : Vec Ideal S4000x128 .f32) (we : Vec Ideal S16x128 .f32)
    (be : Vec Ideal S128 .f32) : out4_4 (F := Ideal) ea xs we be = Cert.Spec.edgeMsg ea xs we be := by
  unfold out4_4
  rw [View.canon_unit_zero origin2]
  simp only [View.ld_unit_zero (S := S4000x16) origin2, View.ld_unit_zero (S := S16x128) origin2,
    View.ld_unit_zero (S := S4000x128) origin2, View.ld_unit_zero (S := S128) origin1]
  funext j
  obtain ⟨p, q, rfl⟩ : ∃ (p : Fin 4000) (q : Fin 128), j = ix2 p q := ⟨j 0, j 1, eq_ix2 j⟩
  exact pay_apply ea we xs be p q

end Cert.KernelIdeal.EdgeBody4

end
-- ==== Proof.EdgeArray4.lean ====
/-
  The third message kernel's output array, from its input arrays.

  The kernel runs over 200 grid points. Point `t` reads rows `4000 t` to `4000 t + 3999` of the edge attributes and of
  the gathered source rows, the whole weight matrix and the whole bias, and writes the same rows of the output. Since
  a message depends only on its own row of the attributes and of the gathered rows, what point `t` writes is exactly
  rows `4000 t …` of the array of ALL messages; and every row lies in the block of point `row / 4000`. So after the
  last point the output array holds all the messages.
-/
import proofs.«411645_j14336600834819_1_alg».proof.Proof.Gen.KernelIdeal.Frame
import proofs.«411645_j14336600834819_1_alg».proof.Proof.EdgeBody4
import Idealize.ShloMosaic.Lib.Pipeline.Value

set_option maxRecDepth 16384

open scoped BigOperators

noncomputable section

namespace Cert.KernelIdeal.EdgeArray4

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The four arrays the region reads, as it finds them: edge attributes, gathered source rows, weights, bias. -/
abbrev eaArr (c : Dev nD) : Vec Ideal S800000x16 .f32 := V c (Pipeline.arrRef spec4 0)
abbrev xsArr (c : Dev nD) : Vec Ideal S800000x128 .f32 := V c (Pipeline.arrRef spec4 1)
abbrev weArr (c : Dev nD) : Vec Ideal S16x128 .f32 := V c (Pipeline.arrRef spec4 2)
abbrev beArr (c : Dev nD) : Vec Ideal S128 .f32 := V c (Pipeline.arrRef spec4 3)

/-- Where each window's block sits at grid point `t`: the row-blocked windows (attributes, gathered rows, output) at
    block row `t`, block column 0; the weights and the bias at the origin, whatever the point. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = t.val ∧ win4_4.index t (1 : Fin 2) = 0 :=
  (by decide +kernel : ∀ t : Fin grid4.N, _)

/-- Row `p` of the attribute block of point `t` is row `4000 t + p` of the attribute array. -/
theorem ea_row (c : Dev nD) (t : Fin cfg4.N) (p : Fin 4000) (k : Fin 16) (hp : t.val * 4000 + p.val < 800000) :
    iblk4 V c 0 t (ix2 p k) = eaArr V c (ix2 ⟨t.val * 4000 + p.val, hp⟩ k) := by
  obtain ⟨e0, e1, -⟩ := idx_facts t
  unfold iblk4
  rw [View.read_apply]
  show eaArr V c (((cfg4.win 0).blk t).view.emb (ix2 p k)) = eaArr V c (ix2 ⟨t.val * 4000 + p.val, hp⟩ k)
  refine congrArg (eaArr V c) (funext fun a => Fin.ext ?_)
  match a with
  | ⟨0, _⟩ => show win4_0.index t (0 : Fin 2) * 4000 + 1 * p.val = t.val * 4000 + p.val; omega
  | ⟨1, _⟩ => show win4_0.index t (1 : Fin 2) * 16 + 1 * k.val = k.val; omega

/-- Row `p` of the gathered-rows block of point `t` is row `4000 t + p` of the gathered-rows array. -/
theorem xs_row (c : Dev nD) (t : Fin cfg4.N) (p : Fin 4000) (q : Fin 128) (hp : t.val * 4000 + p.val < 800000) :
    iblk4 V c 1 t (ix2 p q) = xsArr V c (ix2 ⟨t.val * 4000 + p.val, hp⟩ q) := by
  obtain ⟨-, -, e2, e3, -⟩ := idx_facts t
  unfold iblk4
  rw [View.read_apply]
  show xsArr V c (((cfg4.win 1).blk t).view.emb (ix2 p q)) = xsArr V c (ix2 ⟨t.val * 4000 + p.val, hp⟩ q)
  refine congrArg (xsArr V c) (funext fun a => Fin.ext ?_)
  match a with
  | ⟨0, _⟩ => show win4_1.index t (0 : Fin 2) * 4000 + 1 * p.val = t.val * 4000 + p.val; omega
  | ⟨1, _⟩ => show win4_1.index t (1 : Fin 2) * 128 + 1 * q.val = q.val; omega

/-- The weights window covers the whole weight matrix at every point: its block is the matrix. -/
theorem we_blk (c : Dev nD) (t : Fin cfg4.N) : iblk4 V c 2 t = weArr V c := by
  obtain ⟨-, -, -, -, e4, e5, -⟩ := idx_facts t
  unfold iblk4
  funext y
  rw [View.read_apply]
  show weArr V c (((cfg4.win 2).blk t).view.emb y) = weArr V c y
  refine congrArg (weArr V c) (funext fun a => Fin.ext ?_)
  match a with
  | ⟨0, _⟩ => show win4_2.index t (0 : Fin 2) * 16 + 1 * (y 0).val = (y 0).val; omega
  | ⟨1, _⟩ => show win4_2.index t (1 : Fin 2) * 128 + 1 * (y 1).val = (y 1).val; omega

/-- The bias window covers the whole bias vector at every point: its block is the vector. -/
theorem be_blk (c : Dev nD) (t : Fin cfg4.N) : iblk4 V c 3 t = beArr V c := by
  obtain ⟨-, -, -, -, -, -, e6, -⟩ := idx_facts t
  unfold iblk4
  funext y
  rw [View.read_apply]
  show beArr V c (((cfg4.win 3).blk t).view.emb y) = beArr V c y
  refine congrArg (beArr V c) (funext fun a => Fin.ext ?_)
  match a with
  | ⟨0, _⟩ => show win4_3.index t (0 : Fin 1) * 128 + 1 * (y 0).val = (y 0).val; omega

/-- The two row-blocked input blocks of point `t`, at their literal types. -/
abbrev eaBlk (c : Dev nD) (t : Fin cfg4.N) : Vec Ideal S4000x16 .f32 := iblk4 V c 0 t
abbrev xsBlk (c : Dev nD) (t : Fin cfg4.N) : Vec Ideal S4000x128 .f32 := iblk4 V c 1 t

/-- All the messages, from the arrays as the region finds them. -/
abbrev allMsg (c : Dev nD) : Vec Ideal S800000x128 .f32 :=
  Cert.Spec.edgeMsg (eaArr V c) (xsArr V c) (weArr V c) (beArr V c)

/-- There are 200 grid points, so a row of a block is a row of the array. -/
theorem row_lt (t : Fin cfg4.N) (p : Fin 4000) : t.val * 4000 + p.val < 800000 := by
  have ht : t.val < 200 := t.isLt
  have hp : p.val < 4000 := p.isLt
  omega

/-- The message of row `p` of point `t`'s blocks is the message of row `4000 t + p` of the arrays: a message
    depends only on its own row of the attributes and of the gathered rows, and the weights and bias are shared. -/
theorem blk_msg (c : Dev nD) (t : Fin cfg4.N) (p : Fin 4000) (q : Fin 128) :
    Cert.Spec.edgeMsg (eaBlk V c t) (xsBlk V c t) (weArr V c) (beArr V c) (ix2 p q)
      = allMsg V c (ix2 ⟨t.val * 4000 + p.val, row_lt t p⟩ q) := by
  rw [Cert.Spec.edgeMsg_apply]
  show _ = Cert.Spec.edgeMsgAt (eaArr V c) (xsArr V c) (weArr V c) (beArr V c) ⟨t.val * 4000 + p.val, row_lt t p⟩ q
  exact Cert.Spec.edgeMsgAt_congr (eaArr V c) (xsArr V c) (eaBlk V c t) (xsBlk V c t) (weArr V c) (beArr V c)
    ⟨t.val * 4000 + p.val, row_lt t p⟩ p q (fun k => ea_row V c t p k (row_lt t p)) (xs_row V c t p q (row_lt t p))

/-- Entry `(p, q)` of the output block of point `t` is entry `(4000 t + p, q)` of the output array. -/
theorem out_emb (t : Fin cfg4.N) (p : Fin 4000) (q : Fin 128) :
    ((cfg4.win 4).blk t).view.emb (ix2 p q) = ix2 ⟨t.val * 4000 + p.val, row_lt t p⟩ q := by
  obtain ⟨-, -, -, -, -, -, -, e7, e8⟩ := idx_facts t
  refine funext fun a => Fin.ext ?_
  match a with
  | ⟨0, _⟩ => show win4_4.index t (0 : Fin 2) * 4000 + 1 * p.val = t.val * 4000 + p.val; omega
  | ⟨1, _⟩ => show win4_4.index t (1 : Fin 2) * 128 + 1 * q.val = q.val; omega

/-- What point `t` writes back is its block of rows of the array of all messages. -/
theorem flushed_eq (c : Dev nD) (t : Fin cfg4.N) :
    (dat4 V c).flushed 4 t = ((cfg4.win 4).blk t).view.read (Elt Ideal) (allMsg V c) := by
  show (cfg4.win 4).cut (grid4.coords t) ((dat4 V c).after 4 t) = _
  rw [after4_4, we_blk, be_blk]
  show (cfg4.win 4).cut (grid4.coords t) (out4_4 (eaBlk V c t) (xsBlk V c t) (weArr V c) (beArr V c)) = _
  rw [Cert.KernelIdeal.EdgeBody4.out_eq]
  funext j
  show Cert.Spec.edgeMsg (eaBlk V c t) (xsBlk V c t) (weArr V c) (beArr V c) j
    = allMsg V c (((cfg4.win 4).blk t).view.emb j)
  obtain ⟨p, q, rfl⟩ : ∃ (p : Fin 4000) (q : Fin 128), j = ix2 p q := ⟨j 0, j 1, eq_ix2 j⟩
  rw [out_emb]
  exact blk_msg V c t p q

/-- An entry of the output array lies in point `t`'s block exactly when each of its coordinates lies in the
    block's range on that axis. -/
theorem mem_blk (t : Fin cfg4.N) (i : S800000x128.Idx) :
    i ∈ ((cfg4.win 4).blk t).view.set ↔ ∀ a : Fin 2, win4_4.index t a * S4000x128.size a ≤ (i a).val
      ∧ (i a).val < win4_4.index t a * S4000x128.size a + S4000x128.size a := by
  show i ∈ ((View.whole main_v17).slice (win4_4.rect t)).set ↔ _
  rw [View.set_slice_whole, Rect.mem_set_unit]
  exact Iff.rfl

/-- Every entry of the output array lies in some point's block: row `r` in the block of point `r / 4000`. -/
theorem cover (i : S800000x128.Idx) :
    ∃ t : Fin cfg4.N, (cfg4.win 4).flush t = true ∧ i ∈ ((cfg4.win 4).blk t).view.set := by
  have hi0 : (i 0).val < 800000 := (i 0).isLt
  have hi1 : (i 1).val < 128 := (i 1).isLt
  refine ⟨⟨(i 0).val / 4000, by show (i 0).val / 4000 < 200; omega⟩, flush4_4 _, ?_⟩
  rw [mem_blk]
  obtain ⟨-, -, -, -, -, -, -, e7, e8⟩ := idx_facts ⟨(i 0).val / 4000, by show (i 0).val / 4000 < 200; omega⟩
  intro a
  match a with
  | ⟨0, _⟩ =>
    show win4_4.index _ (0 : Fin 2) * 4000 ≤ (i 0).val ∧ (i 0).val < win4_4.index _ (0 : Fin 2) * 4000 + 4000
    rw [e7]; show (i 0).val / 4000 * 4000 ≤ (i 0).val ∧ (i 0).val < (i 0).val / 4000 * 4000 + 4000; omega
  | ⟨1, _⟩ =>
    show win4_4.index _ (1 : Fin 2) * 128 ≤ (i 1).val ∧ (i 1).val < win4_4.index _ (1 : Fin 2) * 128 + 128
    rw [e8]; omega

/-- After the last grid point the output array holds all the messages, computed from the arrays as the region
    found them. -/
theorem array_eq (c : Dev nD) : (dat4 V c).arrAt 4 cfg4.N = allMsg V c :=
  (dat4 V c).arrAt_eq_of_cover 4 (allMsg V c) (fun t _ => flushed_eq V c t) cover

end Cert.KernelIdeal.EdgeArray4

end
-- ==== Proof.NodeBody5.lean ====
/-
  What the third node-update kernel computes from one block of rows.

  The body loads a block of node features `x` and of aggregated messages `agg` (2000 × 128 each), the two dense
  layers' weights `wa` (128 × 64) and `wb` (64 × 64) with their biases `ba`, `bb` (64 each), and the
  normalisation's per-feature scale `g`, shift `sh`, mean `mu` and variance `var` (64 each). It forms

      s   = x + agg
      hid = max (s · wa + ba) 0
      o   = max (hid · wb + bb) 0
      out = ((o - mu) * rsqrt (var + ε)) * g + sh

  where each `·` is a matrix product accumulated from zero (its operands pass through a narrower float format on
  the way in, which changes nothing on the extended reals), every 64-entry vector is repeated over the 2000 rows,
  the reciprocal square root is taken entrywise on the 64-entry vector `var + ε` before it is repeated, and `ε` is
  one fixed single-precision word, carried as that word. Read at row `p` and feature `q` this is the new feature
  `q` of node `p` as the specification writes it, product for product and in the same grouping.
-/
import proofs.«411645_j14336600834819_1_alg».proof.Proof.Gen.KernelIdeal.Frame
import proofs.«411645_j14336600834819_1_alg».proof.Proof.NodeSpec
import proofs.«411645_j14336600834819_1_alg».proof.Proof.RowBias
import proofs.«411645_j14336600834819_1_alg».proof.Proof.LibDot
import Idealize.ShloMosaic.PureOps.Ideal.Laws
import Idealize.ShloMosaic.Lib.Pipeline.Value

open scoped BigOperators

noncomputable section

namespace Cert.KernelIdeal.NodeBody5

open Cert.KernelIdeal Cert.KernelIdeal.Gen Idealize.ShloMosaic Idealize.ShloMosaic.ValueIdx

/-- The first layer's product contracts the summed features' columns against the rows of `wa`. -/
theorem dotIn_rowsCols : Cert.Lib.Dot.IsRowsCols dot_S2000x128_S128x64_S2000x64_1_0_0_1_n_n :=
  ⟨rfl, rfl, rfl, rfl, rfl, rfl⟩

/-- The second layer's product contracts the hidden activations' columns against the rows of `wb`. -/
theorem dotHid_rowsCols : Cert.Lib.Dot.IsRowsCols dot_S2000x64_S64x64_S2000x64_1_0_0_1_n_n :=
  ⟨rfl, rfl, rfl, rfl, rfl, rfl⟩

/-- An entrywise reciprocal square root, read at an entry, is the reciprocal square root of that entry. -/
theorem rsqrt_apply {s : Shape} {φ : FTy} (v : FVec Ideal s φ) (i : s.Idx) : rsqrt v i = Ideal.rsqrt (v i) := rfl

/-- The stored value at row `p`, feature `q`: the new feature `q` of node `p`. -/
theorem pay_apply (x agg : Vec Ideal S2000x128 .f32) (wa : Vec Ideal S128x64 .f32) (ba : Vec Ideal S64 .f32)
    (wb : Vec Ideal S64x64 .f32) (bb g sh mu var : Vec Ideal S64 .f32) (p : Fin 2000) (q : Fin 64) :
    k5_pay1 (F := Ideal) (k5_pay2 (F := Ideal) x agg wa ba wb bb var mu g) sh (ix2 p q)
      = Cert.Spec.nodeUpdAt x agg wa ba wb bb g sh mu var p q := by
  unfold k5_pay1 k5_pay2 Cert.Spec.nodeUpdAt Cert.Spec.nodeHidAt
  simp only [mulf_apply, addf_apply, subf_apply, maximumf_apply, broadcast_apply, shapeCast_self,
    Cert.Spec.rowSpread_cast_apply, rsqrt_apply]
  rw [Cert.Lib.Dot.matmul0_rc _ dotHid_rowsCols]
  simp only [truncf_apply, maximumf_apply, addf_apply, broadcast_apply, Cert.Spec.rowSpread_cast_apply,
    Cert.Lib.Dot.matmul0_rc _ dotIn_rowsCols]
  simp only [Ideal.ofBits_def, Ideal.ofBits_zero_f32, Cert.Spec.bnEps]

/-- A rectangle of a rank-2 buffer that begins at row zero and column zero begins at the all-zero offset. -/
theorem offset2_zero : (![0, 0] : Fin 2 → Nat) = fun _ => 0 := funext fun a => by fin_cases a <;> rfl

/-- A segment of a rank-1 buffer that begins at entry zero begins at the all-zero offset. -/
theorem offset1_zero : (![0] : Fin 1 → Nat) = fun _ => 0 := funext fun a => by fin_cases a; rfl

/-- What the body leaves in the output block, from the ten input blocks: the new features of the block's nodes. -/
theorem out_eq (x agg : Vec Ideal S2000x128 .f32) (wa : Vec Ideal S128x64 .f32) (ba : Vec Ideal S64 .f32)
    (wb : Vec Ideal S64x64 .f32) (bb g sh mu var : Vec Ideal S64 .f32) :
    out5_10 (F := Ideal) x agg wa ba wb bb g sh mu var = Cert.Spec.nodeUpd x agg wa ba wb bb g sh mu var := by
  unfold out5_10
  rw [View.canon_unit_zero offset2_zero]
  simp only [View.ld_unit_zero (S := S2000x128) offset2_zero, View.ld_unit_zero (S := S128x64) offset2_zero,
    View.ld_unit_zero (S := S64x64) offset2_zero, View.ld_unit_zero (S := S64) offset1_zero]
  funext j
  obtain ⟨p, q, rfl⟩ : ∃ (p : Fin 2000) (q : Fin 64), j = ix2 p q := ⟨j 0, j 1, eq_ix2 j⟩
  exact pay_apply x agg wa ba wb bb g sh mu var p q

end Cert.KernelIdeal.NodeBody5

end
-- ==== Proof.NodeArray5.lean ====
/-
  The third node-update kernel's output array, from its input arrays.

  The kernel runs over 25 grid points. Point `t` reads rows `2000 t` to `2000 t + 1999` of the node features and of
  the aggregated messages, and the whole of the eight shared arrays (the two dense layers' weights and biases and the
  normalisation's scale, shift, mean and variance), and writes the same rows of the output. A node's new features
  depend only on the node's own row of the features and of the aggregate, so what point `t` writes is exactly rows
  `2000 t …` of the array of ALL nodes' new features; and row `r` of that array lies in the block of point
  `r / 2000`. Hence after the last point the output array holds every node's new features.
-/
import proofs.«411645_j14336600834819_1_alg».proof.Proof.Gen.KernelIdeal.Frame
import proofs.«411645_j14336600834819_1_alg».proof.Proof.NodeBody5
import Idealize.ShloMosaic.Lib.Pipeline.Value

set_option maxRecDepth 16384

open scoped BigOperators

noncomputable section

namespace Cert.KernelIdeal.NodeArray5

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The ten arrays the region reads, as it finds them: node features, aggregated messages, the first layer's weights
    and bias, the second layer's weights and bias, and the normalisation's scale, shift, mean and variance. -/
abbrev xArr (c : Dev nD) : Vec Ideal S50000x128 .f32 := V c (Pipeline.arrRef spec5 0)
abbrev aggArr (c : Dev nD) : Vec Ideal S50000x128 .f32 := V c (Pipeline.arrRef spec5 1)
abbrev waArr (c : Dev nD) : Vec Ideal S128x64 .f32 := V c (Pipeline.arrRef spec5 2)
abbrev baArr (c : Dev nD) : Vec Ideal S64 .f32 := V c (Pipeline.arrRef spec5 3)
abbrev wbArr (c : Dev nD) : Vec Ideal S64x64 .f32 := V c (Pipeline.arrRef spec5 4)
abbrev bbArr (c : Dev nD) : Vec Ideal S64 .f32 := V c (Pipeline.arrRef spec5 5)
abbrev gArr (c : Dev nD) : Vec Ideal S64 .f32 := V c (Pipeline.arrRef spec5 6)
abbrev shArr (c : Dev nD) : Vec Ideal S64 .f32 := V c (Pipeline.arrRef spec5 7)
abbrev muArr (c : Dev nD) : Vec Ideal S64 .f32 := V c (Pipeline.arrRef spec5 8)
abbrev varArr (c : Dev nD) : Vec Ideal S64 .f32 := V c (Pipeline.arrRef spec5 9)

/-- The three windows cut into blocks of rows (features, aggregate, output) sit, at grid point `t`, at block row `t`
    and block column 0. -/
theorem idx_rows : ∀ t : Fin cfg5.N,
    (win5_0.index t (0 : Fin 2) = t.val ∧ win5_0.index t (1 : Fin 2) = 0)
    ∧ (win5_1.index t (0 : Fin 2) = t.val ∧ win5_1.index t (1 : Fin 2) = 0)
    ∧ (win5_10.index t (0 : Fin 2) = t.val ∧ win5_10.index t (1 : Fin 2) = 0) :=
  (by decide +kernel : ∀ t : Fin grid5.N, _)

/-- The eight shared windows sit at the origin at every grid point; a vector's window has the one axis. -/
theorem idx_shared : ∀ t : Fin cfg5.N,
    (win5_2.index t (0 : Fin 2) = 0 ∧ win5_2.index t (1 : Fin 2) = 0)
    ∧ win5_3.index t (0 : Fin 1) = 0
    ∧ (win5_4.index t (0 : Fin 2) = 0 ∧ win5_4.index t (1 : Fin 2) = 0)
    ∧ win5_5.index t (0 : Fin 1) = 0
    ∧ win5_6.index t (0 : Fin 1) = 0
    ∧ win5_7.index t (0 : Fin 1) = 0
    ∧ win5_8.index t (0 : Fin 1) = 0
    ∧ win5_9.index t (0 : Fin 1) = 0 :=
  (by decide +kernel : ∀ t : Fin grid5.N, _)

/-- Row `p` of the feature block of point `t` is row `2000 t + p` of the feature array. -/
theorem x_row (c : Dev nD) (t : Fin cfg5.N) (p : Fin 2000) (j : Fin 128) (hp : t.val * 2000 + p.val < 50000) :
    iblk5 V c 0 t (ix2 p j) = xArr V c (ix2 ⟨t.val * 2000 + p.val, hp⟩ j) := by
  obtain ⟨⟨e0, e1⟩, -, -⟩ := idx_rows t
  unfold iblk5
  rw [View.read_apply]
  show xArr V c (((cfg5.win 0).blk t).view.emb (ix2 p j)) = xArr V c (ix2 ⟨t.val * 2000 + p.val, hp⟩ j)
  refine congrArg (xArr V c) (funext fun a => Fin.ext ?_)
  match a with
  | ⟨0, _⟩ => show win5_0.index t (0 : Fin 2) * 2000 + 1 * p.val = t.val * 2000 + p.val; omega
  | ⟨1, _⟩ => show win5_0.index t (1 : Fin 2) * 128 + 1 * j.val = j.val; omega

/-- Row `p` of the aggregate block of point `t` is row `2000 t + p` of the aggregate array. -/
theorem agg_row (c : Dev nD) (t : Fin cfg5.N) (p : Fin 2000) (j : Fin 128) (hp : t.val * 2000 + p.val < 50000) :
    iblk5 V c 1 t (ix2 p j) = aggArr V c (ix2 ⟨t.val * 2000 + p.val, hp⟩ j) := by
  obtain ⟨-, ⟨e0, e1⟩, -⟩ := idx_rows t
  unfold iblk5
  rw [View.read_apply]
  show aggArr V c (((cfg5.win 1).blk t).view.emb (ix2 p j)) = aggArr V c (ix2 ⟨t.val * 2000 + p.val, hp⟩ j)
  refine congrArg (aggArr V c) (funext fun a => Fin.ext ?_)
  match a with
  | ⟨0, _⟩ => show win5_1.index t (0 : Fin 2) * 2000 + 1 * p.val = t.val * 2000 + p.val; omega
  | ⟨1, _⟩ => show win5_1.index t (1 : Fin 2) * 128 + 1 * j.val = j.val; omega

/-- The first layer's weights are read whole at every point: the window's block is the matrix. -/
theorem wa_blk (c : Dev nD) (t : Fin cfg5.N) : iblk5 V c 2 t = waArr V c := by
  obtain ⟨⟨e0, e1⟩, -⟩ := idx_shared t
  unfold iblk5
  funext y
  rw [View.read_apply]
  show waArr V c (((cfg5.win 2).blk t).view.emb y) = waArr V c y
  refine congrArg (waArr V c) (funext fun a => Fin.ext ?_)
  match a with
  | ⟨0, _⟩ => show win5_2.index t (0 : Fin 2) * 128 + 1 * (y 0).val = (y 0).val; omega
  | ⟨1, _⟩ => show win5_2.index t (1 : Fin 2) * 64 + 1 * (y 1).val = (y 1).val; omega

/-- The first layer's bias is read whole at every point: the window's block is the vector. -/
theorem ba_blk (c : Dev nD) (t : Fin cfg5.N) : iblk5 V c 3 t = baArr V c := by
  obtain ⟨-, e0, -⟩ := idx_shared t
  unfold iblk5
  funext y
  rw [View.read_apply]
  show baArr V c (((cfg5.win 3).blk t).view.emb y) = baArr V c y
  refine congrArg (baArr V c) (funext fun a => Fin.ext ?_)
  match a with
  | ⟨0, _⟩ => show win5_3.index t (0 : Fin 1) * 64 + 1 * (y 0).val = (y 0).val; omega

/-- The second layer's weights are read whole at every point: the window's block is the matrix. -/
theorem wb_blk (c : Dev nD) (t : Fin cfg5.N) : iblk5 V c 4 t = wbArr V c := by
  obtain ⟨-, -, ⟨e0, e1⟩, -⟩ := idx_shared t
  unfold iblk5
  funext y
  rw [View.read_apply]
  show wbArr V c (((cfg5.win 4).blk t).view.emb y) = wbArr V c y
  refine congrArg (wbArr V c) (funext fun a => Fin.ext ?_)
  match a with
  | ⟨0, _⟩ => show win5_4.index t (0 : Fin 2) * 64 + 1 * (y 0).val = (y 0).val; omega
  | ⟨1, _⟩ => show win5_4.index t (1 : Fin 2) * 64 + 1 * (y 1).val = (y 1).val; omega

/-- The second layer's bias is read whole at every point: the window's block is the vector. -/
theorem bb_blk (c : Dev nD) (t : Fin cfg5.N) : iblk5 V c 5 t = bbArr V c := by
  obtain ⟨-, -, -, e0, -⟩ := idx_shared t
  unfold iblk5
  funext y
  rw [View.read_apply]
  show bbArr V c (((cfg5.win 5).blk t).view.emb y) = bbArr V c y
  refine congrArg (bbArr V c) (funext fun a => Fin.ext ?_)
  match a with
  | ⟨0, _⟩ => show win5_5.index t (0 : Fin 1) * 64 + 1 * (y 0).val = (y 0).val; omega

/-- The normalisation's scale is read whole at every point: the window's block is the vector. -/
theorem g_blk (c : Dev nD) (t : Fin cfg5.N) : iblk5 V c 6 t = gArr V c := by
  obtain ⟨-, -, -, -, e0, -⟩ := idx_shared t
  unfold iblk5
  funext y
  rw [View.read_apply]
  show gArr V c (((cfg5.win 6).blk t).view.emb y) = gArr V c y
  refine congrArg (gArr V c) (funext fun a => Fin.ext ?_)
  match a with
  | ⟨0, _⟩ => show win5_6.index t (0 : Fin 1) * 64 + 1 * (y 0).val = (y 0).val; omega

/-- The normalisation's shift is read whole at every point: the window's block is the vector. -/
theorem sh_blk (c : Dev nD) (t : Fin cfg5.N) : iblk5 V c 7 t = shArr V c := by
  obtain ⟨-, -, -, -, -, e0, -⟩ := idx_shared t
  unfold iblk5
  funext y
  rw [View.read_apply]
  show shArr V c (((cfg5.win 7).blk t).view.emb y) = shArr V c y
  refine congrArg (shArr V c) (funext fun a => Fin.ext ?_)
  match a with
  | ⟨0, _⟩ => show win5_7.index t (0 : Fin 1) * 64 + 1 * (y 0).val = (y 0).val; omega

/-- The normalisation's mean is read whole at every point: the window's block is the vector. -/
theorem mu_blk (c : Dev nD) (t : Fin cfg5.N) : iblk5 V c 8 t = muArr V c := by
  obtain ⟨-, -, -, -, -, -, e0, -⟩ := idx_shared t
  unfold iblk5
  funext y
  rw [View.read_apply]
  show muArr V c (((cfg5.win 8).blk t).view.emb y) = muArr V c y
  refine congrArg (muArr V c) (funext fun a => Fin.ext ?_)
  match a with
  | ⟨0, _⟩ => show win5_8.index t (0 : Fin 1) * 64 + 1 * (y 0).val = (y 0).val; omega

/-- The normalisation's variance is read whole at every point: the window's block is the vector. -/
theorem var_blk (c : Dev nD) (t : Fin cfg5.N) : iblk5 V c 9 t = varArr V c := by
  obtain ⟨-, -, -, -, -, -, -, e0⟩ := idx_shared t
  unfold iblk5
  funext y
  rw [View.read_apply]
  show varArr V c (((cfg5.win 9).blk t).view.emb y) = varArr V c y
  refine congrArg (varArr V c) (funext fun a => Fin.ext ?_)
  match a with
  | ⟨0, _⟩ => show win5_9.index t (0 : Fin 1) * 64 + 1 * (y 0).val = (y 0).val; omega

/-- The two blocks of rows that point `t` reads, at their literal types. -/
abbrev xBlk (c : Dev nD) (t : Fin cfg5.N) : Vec Ideal S2000x128 .f32 := iblk5 V c 0 t
abbrev aggBlk (c : Dev nD) (t : Fin cfg5.N) : Vec Ideal S2000x128 .f32 := iblk5 V c 1 t

/-- Every node's new features, from the arrays as the region finds them. -/
abbrev allUpd (c : Dev nD) : Vec Ideal S50000x64 .f32 :=
  Cert.Spec.nodeUpd (xArr V c) (aggArr V c) (waArr V c) (baArr V c) (wbArr V c) (bbArr V c) (gArr V c) (shArr V c)
    (muArr V c) (varArr V c)

/-- There are 25 grid points, so a row of a block is a row of the array. -/
theorem row_lt (t : Fin cfg5.N) (p : Fin 2000) : t.val * 2000 + p.val < 50000 := by
  have ht : t.val < 25 := t.isLt
  have hp : p.val < 2000 := p.isLt
  omega

/-- The new features of row `p` of point `t`'s blocks are those of row `2000 t + p` of the arrays: a node's update
    reads only the node's own row of the features and of the aggregate, and the eight other arrays are shared. -/
theorem blk_upd (c : Dev nD) (t : Fin cfg5.N) (p : Fin 2000) (q : Fin 64) :
    Cert.Spec.nodeUpd (xBlk V c t) (aggBlk V c t) (waArr V c) (baArr V c) (wbArr V c) (bbArr V c) (gArr V c)
        (shArr V c) (muArr V c) (varArr V c) (ix2 p q)
      = allUpd V c (ix2 ⟨t.val * 2000 + p.val, row_lt t p⟩ q) := by
  rw [Cert.Spec.nodeUpd_apply]
  show _ = Cert.Spec.nodeUpdAt (xArr V c) (aggArr V c) (waArr V c) (baArr V c) (wbArr V c) (bbArr V c) (gArr V c)
    (shArr V c) (muArr V c) (varArr V c) ⟨t.val * 2000 + p.val, row_lt t p⟩ q
  exact Cert.Spec.nodeUpdAt_congr (xArr V c) (aggArr V c) (xBlk V c t) (aggBlk V c t) (waArr V c) (baArr V c)
    (wbArr V c) (bbArr V c) (gArr V c) (shArr V c) (muArr V c) (varArr V c) ⟨t.val * 2000 + p.val, row_lt t p⟩ p q
    (fun j => x_row V c t p j (row_lt t p)) (fun j => agg_row V c t p j (row_lt t p))

/-- Entry `(p, q)` of the output block of point `t` is entry `(2000 t + p, q)` of the output array. -/
theorem out_emb (t : Fin cfg5.N) (p : Fin 2000) (q : Fin 64) :
    ((cfg5.win 10).blk t).view.emb (ix2 p q) = ix2 ⟨t.val * 2000 + p.val, row_lt t p⟩ q := by
  obtain ⟨-, -, ⟨e0, e1⟩⟩ := idx_rows t
  refine funext fun a => Fin.ext ?_
  match a with
  | ⟨0, _⟩ => show win5_10.index t (0 : Fin 2) * 2000 + 1 * p.val = t.val * 2000 + p.val; omega
  | ⟨1, _⟩ => show win5_10.index t (1 : Fin 2) * 64 + 1 * q.val = q.val; omega

/-- What point `t` writes back is its block of rows of the array of all nodes' new features. -/
theorem flushed_eq (c : Dev nD) (t : Fin cfg5.N) :
    (dat5 V c).flushed 10 t = ((cfg5.win 10).blk t).view.read (Elt Ideal) (allUpd V c) := by
  show (cfg5.win 10).cut (grid5.coords t) ((dat5 V c).after 10 t) = _
  rw [after5_10, wa_blk, ba_blk, wb_blk, bb_blk, g_blk, sh_blk, mu_blk, var_blk]
  show (cfg5.win 10).cut (grid5.coords t) (out5_10 (xBlk V c t) (aggBlk V c t) (waArr V c) (baArr V c) (wbArr V c)
    (bbArr V c) (gArr V c) (shArr V c) (muArr V c) (varArr V c)) = _
  rw [Cert.KernelIdeal.NodeBody5.out_eq]
  funext j
  show Cert.Spec.nodeUpd (xBlk V c t) (aggBlk V c t) (waArr V c) (baArr V c) (wbArr V c) (bbArr V c) (gArr V c)
      (shArr V c) (muArr V c) (varArr V c) j
    = allUpd V c (((cfg5.win 10).blk t).view.emb j)
  obtain ⟨p, q, rfl⟩ : ∃ (p : Fin 2000) (q : Fin 64), j = ix2 p q := ⟨j 0, j 1, eq_ix2 j⟩
  rw [out_emb]
  exact blk_upd V c t p q

/-- An entry of the output array lies in point `t`'s block exactly when each of its coordinates lies in the
    block's range on that axis. -/
theorem mem_blk (t : Fin cfg5.N) (i : S50000x64.Idx) :
    i ∈ ((cfg5.win 10).blk t).view.set ↔ ∀ a : Fin 2, win5_10.index t a * S2000x64.size a ≤ (i a).val
      ∧ (i a).val < win5_10.index t a * S2000x64.size a + S2000x64.size a := by
  show i ∈ ((View.whole main_v21).slice (win5_10.rect t)).set ↔ _
  rw [View.set_slice_whole, Rect.mem_set_unit]
  exact Iff.rfl

/-- Every entry of the output array lies in some point's block: row `r` in the block of point `r / 2000`. -/
theorem cover (i : S50000x64.Idx) :
    ∃ t : Fin cfg5.N, (cfg5.win 10).flush t = true ∧ i ∈ ((cfg5.win 10).blk t).view.set := by
  have hi0 : (i 0).val < 50000 := (i 0).isLt
  have hi1 : (i 1).val < 64 := (i 1).isLt
  refine ⟨⟨(i 0).val / 2000, by show (i 0).val / 2000 < 25; omega⟩, flush5_10 _, ?_⟩
  rw [mem_blk]
  obtain ⟨-, -, ⟨e0, e1⟩⟩ := idx_rows ⟨(i 0).val / 2000, by show (i 0).val / 2000 < 25; omega⟩
  intro a
  match a with
  | ⟨0, _⟩ =>
    show win5_10.index _ (0 : Fin 2) * 2000 ≤ (i 0).val ∧ (i 0).val < win5_10.index _ (0 : Fin 2) * 2000 + 2000
    rw [e0]; show (i 0).val / 2000 * 2000 ≤ (i 0).val ∧ (i 0).val < (i 0).val / 2000 * 2000 + 2000; omega
  | ⟨1, _⟩ =>
    show win5_10.index _ (1 : Fin 2) * 64 ≤ (i 1).val ∧ (i 1).val < win5_10.index _ (1 : Fin 2) * 64 + 64
    rw [e1]; omega

/-- After the last grid point the output array holds every node's new features, computed from the arrays as the
    region found them. -/
theorem array_eq (c : Dev nD) : (dat5 V c).arrAt 10 cfg5.N
    = Cert.Spec.nodeUpd (xArr V c) (aggArr V c) (waArr V c) (baArr V c) (wbArr V c) (bbArr V c) (gArr V c) (shArr V c)
        (muArr V c) (varArr V c) :=
  (dat5 V c).arrAt_eq_of_cover 10 (allUpd V c) (fun t _ => flushed_eq V c t) cover

end Cert.KernelIdeal.NodeArray5

end
-- ==== Proof.Walk3.lean ====
/-
  The third layer, walked from the second node-update kernel's exit to the third's.

  The previous layer's node features sit in the buffer the previous node-update kernel wrote. A stretch of host
  operations takes their rows at the source indices; the message kernel turns the taken rows, the edge attributes and
  the layer's weights and bias into the messages; the next stretch adds the messages up per destination node; the
  node-update kernel turns the previous features, the sums and the layer's parameters into this layer's node features.
  The previous features are read twice, by the gather stretch and by the node-update kernel, and no step in between
  writes their buffer. Put together, the node-update kernel's output array is this layer of the network applied to the
  previous layer's node features.
-/
import proofs.«411645_j14336600834819_1_alg».proof.Proof.Walk2
import proofs.«411645_j14336600834819_1_alg».proof.Proof.EdgeArray4
import proofs.«411645_j14336600834819_1_alg».proof.Proof.NodeArray5

set_option maxRecDepth 16384

noncomputable section

namespace Cert.KernelIdeal.Walk3

open Cert.KernelIdeal Cert.KernelIdeal.Gen Cert.KernelIdeal.Take Cert.KernelIdeal.Net Idealize.ShloMosaic Idealize.ShloMosaic.TcCoe
open Idealize.SL.Sem

variable (m : (ℓ : Loc nD τ sig) → Buf (Elt Ideal) ℓ) (ρ : Dev nD → PrngReg)

/-- The previous layer's node features, still in their buffer at this layer's node-update kernel. -/
theorem x_at12 (c : Dev nD) : W12 m ρ c (Proc.devRef .tc main_v15) = h2 m c :=
  (Keeps.hostOps5_keeps m ρ c main_v15 (by decide)).trans ((Keeps.region4_keeps m ρ c main_v15 (by decide)).trans
    ((Keeps.hostOps4_keeps m ρ c main_v15 (by decide)).trans (Walk2.h2_val m ρ c)))

/-- The rows taken for this layer's message kernel: the previous features at the source indices. -/
theorem taken3 (c : Dev nD) : W10 m ρ c (Proc.devRef .tc main_v16) = take128 (F := Ideal) (h2 m c) (srcRow (m ((c : Thread nD τ).loc main_arg2))) := by
  refine (TakeValues.take128_val m ρ c).trans ?_
  rw [Walk2.h2_val m ρ c, IdxCarry.src_at9 m ρ c]

/-- The message kernel's output: the messages of the taken rows. -/
theorem msg3 (c : Dev nD) :
    W11 m ρ c (Proc.devRef .tc main_v17)
      = Cert.Spec.edgeMsg (m ((c : Thread nD τ).loc main_arg1)) (take128 (F := Ideal) (h2 m c) (srcRow (m ((c : Thread nD τ).loc main_arg2)))) (m ((c : Thread nD τ).loc main_arg24)) (m ((c : Thread nD τ).loc main_arg25)) := by
  refine (W11_arr m ρ c 4).trans ?_
  rw [EdgeArray4.array_eq (V10 m ρ) c]
  unfold EdgeArray4.allMsg
  have e0 : EdgeArray4.eaArr (V10 m ρ) c = (m ((c : Thread nD τ).loc main_arg1)) := Carry.at_W10 m ρ c main_arg1 (by decide)
  have e1 : EdgeArray4.xsArr (V10 m ρ) c = take128 (F := Ideal) (h2 m c) (srcRow (m ((c : Thread nD τ).loc main_arg2))) := taken3 m ρ c
  have e2 : EdgeArray4.weArr (V10 m ρ) c = (m ((c : Thread nD τ).loc main_arg24)) := Carry.at_W10 m ρ c main_arg24 (by decide)
  have e3 : EdgeArray4.beArr (V10 m ρ) c = (m ((c : Thread nD τ).loc main_arg25)) := Carry.at_W10 m ρ c main_arg25 (by decide)
  rw [e0, e1, e2, e3]

/-- The messages added up per destination node. -/
theorem agg3 (c : Dev nD) :
    W12 m ρ c (Proc.devRef .tc main_v20)
      = sumTo128 (dstRow (m ((c : Thread nD τ).loc main_arg2))) (Cert.Spec.edgeMsg (m ((c : Thread nD τ).loc main_arg1)) (take128 (F := Ideal) (h2 m c) (srcRow (m ((c : Thread nD τ).loc main_arg2)))) (m ((c : Thread nD τ).loc main_arg24)) (m ((c : Thread nD τ).loc main_arg25))) := by
  refine (Aggregates.agg3_val m ρ c).trans ?_
  rw [IdxCarry.dst_at11 m ρ c, msg3 m ρ c]
  rfl

/-- The node-update kernel's output: this layer's node features. -/
theorem h3_val (c : Dev nD) : W13 m ρ c (Proc.devRef .tc main_v21) = h3 m c := by
  refine (W13_arr m ρ c 10).trans ?_
  rw [NodeArray5.array_eq (V12 m ρ) c]
  have e0 : NodeArray5.xArr (V12 m ρ) c = h2 m c := x_at12 m ρ c
  have e1 : NodeArray5.aggArr (V12 m ρ) c
      = sumTo128 (dstRow (m ((c : Thread nD τ).loc main_arg2))) (Cert.Spec.edgeMsg (m ((c : Thread nD τ).loc main_arg1)) (take128 (F := Ideal) (h2 m c) (srcRow (m ((c : Thread nD τ).loc main_arg2)))) (m ((c : Thread nD τ).loc main_arg24)) (m ((c : Thread nD τ).loc main_arg25))) := agg3 m ρ c
  have e2 : NodeArray5.waArr (V12 m ρ) c = (m ((c : Thread nD τ).loc main_arg26)) := Carry.at_W12 m ρ c main_arg26 (by decide)
  have e3 : NodeArray5.baArr (V12 m ρ) c = (m ((c : Thread nD τ).loc main_arg27)) := Carry.at_W12 m ρ c main_arg27 (by decide)
  have e4 : NodeArray5.wbArr (V12 m ρ) c = (m ((c : Thread nD τ).loc main_arg28)) := Carry.at_W12 m ρ c main_arg28 (by decide)
  have e5 : NodeArray5.bbArr (V12 m ρ) c = (m ((c : Thread nD τ).loc main_arg29)) := Carry.at_W12 m ρ c main_arg29 (by decide)
  have e6 : NodeArray5.gArr (V12 m ρ) c = (m ((c : Thread nD τ).loc main_arg30)) := Carry.at_W12 m ρ c main_arg30 (by decide)
  have e7 : NodeArray5.shArr (V12 m ρ) c = (m ((c : Thread nD τ).loc main_arg31)) := Carry.at_W12 m ρ c main_arg31 (by decide)
  have e8 : NodeArray5.muArr (V12 m ρ) c = (m ((c : Thread nD τ).loc main_arg32)) := Carry.at_W12 m ρ c main_arg32 (by decide)
  have e9 : NodeArray5.varArr (V12 m ρ) c = (m ((c : Thread nD τ).loc main_arg33)) := Carry.at_W12 m ρ c main_arg33 (by decide)
  rw [e0, e1, e2, e3, e4, e5, e6, e7, e8, e9]
  rfl

end Cert.KernelIdeal.Walk3

end
-- ==== Proof.ReadoutBody6.lean ====
/-
  What the readout kernel computes from its whole arrays.

  The body loads the pooled features `pooled` (128 × 64), the first layer's weights `w1` (64 × 16) and bias
  `b1` (16), the second layer's weights `w2` (16 × 1) and bias `b2` (1), and stores

      (max ((pooled · w1) + b1) 0) · w2 + b2

  where each `·` is a matrix product accumulated from zero (its operands pass through a narrower float format on
  the way in, which changes nothing on the extended reals) and each bias is repeated over the 128 rows. The result
  of the second product is not clipped. Read at graph `p` and output column `q` (there is one column) this is
  the readout of graph `p` as the specification writes it: the inner expression at `(p, k)` is the hidden unit
  `k` of graph `p`, and the outer product sums those hidden units against column `q` of `w2`.
-/
import proofs.«411645_j14336600834819_1_alg».proof.Proof.Gen.KernelIdeal.Frame
import proofs.«411645_j14336600834819_1_alg».proof.Proof.ReadoutSpec
import proofs.«411645_j14336600834819_1_alg».proof.Proof.RowBias
import proofs.«411645_j14336600834819_1_alg».proof.Proof.LibDot
import Idealize.ShloMosaic.PureOps.Ideal.Laws
import Idealize.ShloMosaic.Lib.Pipeline.Value

open scoped BigOperators

noncomputable section

namespace Cert.KernelIdeal.ReadoutBody6

open Cert.KernelIdeal Cert.KernelIdeal.Gen Idealize.ShloMosaic Idealize.ShloMosaic.ValueIdx

/-- The first product's record contracts the pooled features' columns against the first weights' rows. -/
theorem dotHid_rowsCols : Cert.Lib.Dot.IsRowsCols dot_S128x64_S64x16_S128x16_1_0_0_1_n_n :=
  ⟨rfl, rfl, rfl, rfl, rfl, rfl⟩

/-- The second product's record contracts the hidden layer's columns against the second weights' rows. -/
theorem dotOut_rowsCols : Cert.Lib.Dot.IsRowsCols dot_S128x16_S16x1_S128x1_1_0_0_1_n_n :=
  ⟨rfl, rfl, rfl, rfl, rfl, rfl⟩

/-- The clipped first layer, as the body builds it, at graph `p` and hidden unit `k`: the pooled row of `p`
    against column `k` of `w1`, plus the bias of `k`, clipped below at zero. -/
theorem hid_apply (pooled : Vec Ideal S128x64 .f32) (w1 : Vec Ideal S64x16 .f32) (b1 : Vec Ideal S16 .f32)
    (p : Fin 128) (k : Fin 16) :
    maximumf
        (addf
          (matmul dot_S128x64_S64x16_S128x16_1_0_0_1_n_n none
            (truncf .bf16 (shapeCast S128x64 pooled shapeCasts_S128x64_S128x64) bitsLt_bf16_f32)
            (truncf .bf16 w1 bitsLt_bf16_f32) (constant S128x16 .f32 0x00000000#32))
          (broadcastTo S128x16 (shapeCast S1x16 b1 shapeCasts_S16_S1x16) broadcasts_S1x16_S128x16))
        (broadcast S128x16 (FloatOps.ofBits (F := Ideal) .f32 0x00000000#32)) (ix2 p k)
      = Cert.Spec.readoutHidAt pooled w1 b1 p k := by
  unfold Cert.Spec.readoutHidAt
  simp only [maximumf_apply, addf_apply, broadcast_apply, shapeCast_self]
  rw [Cert.Lib.Dot.matmul0_rc _ dotHid_rowsCols, Cert.Spec.rowSpread_cast_apply]
  simp only [truncf_apply]
  rw [Ideal.ofBits_def, Ideal.ofBits_zero_f32]

/-- The stored value at graph `p`, column `q`: the readout of that graph at that column. The second product
    sums, over the hidden units, the clipped first layer against column `q` of `w2`; the bias of `q` is added
    and nothing is clipped afterwards. -/
theorem pay_apply (pooled : Vec Ideal S128x64 .f32) (w1 : Vec Ideal S64x16 .f32) (b1 : Vec Ideal S16 .f32)
    (w2 : Vec Ideal S16x1 .f32) (b2 : Vec Ideal S1 .f32) (p : Fin 128) (q : Fin 1) :
    k6_pay1 (F := Ideal) pooled w1 b1 w2 b2 (ix2 p q) = Cert.Spec.readoutAt pooled w1 b1 w2 b2 p q := by
  unfold k6_pay1 Cert.Spec.readoutAt
  simp only [addf_apply]
  rw [Cert.Lib.Dot.matmul0_rc _ dotOut_rowsCols, Cert.Spec.rowSpread_cast_apply]
  congr 1
  refine Finset.sum_congr rfl fun k _ => ?_
  simp only [truncf_apply]
  rw [hid_apply]

/-- A rectangle of a rank-2 array that starts at the first row and first column starts at the origin. -/
theorem start2 : (![0, 0] : Fin 2 → Nat) = fun _ => 0 := funext fun a => by fin_cases a <;> rfl

/-- A segment of a rank-1 array that starts at its first entry starts at the origin. -/
theorem start1 : (![0] : Fin 1 → Nat) = fun _ => 0 := funext fun a => by fin_cases a; rfl

/-- What the body leaves in the output array, from the five input arrays: the readout of every graph. Each
    access covers its whole array from the origin, so the loads are the arrays themselves and the one store is the
    whole output. -/
theorem out_eq (pooled : Vec Ideal S128x64 .f32) (w1 : Vec Ideal S64x16 .f32) (b1 : Vec Ideal S16 .f32)
    (w2 : Vec Ideal S16x1 .f32) (b2 : Vec Ideal S1 .f32) :
    out6_5 (F := Ideal) pooled w1 b1 w2 b2 = Cert.Spec.readout pooled w1 b1 w2 b2 := by
  unfold out6_5
  rw [View.canon_unit_zero start2]
  simp only [View.ld_unit_zero (S := S128x64) start2, View.ld_unit_zero (S := S64x16) start2,
    View.ld_unit_zero (S := S16) start1, View.ld_unit_zero (S := S16x1) start2,
    View.ld_unit_zero (S := S1) start1]
  funext j
  obtain ⟨p, q, rfl⟩ : ∃ (p : Fin 128) (q : Fin 1), j = ix2 p q := ⟨j 0, j 1, eq_ix2 j⟩
  exact pay_apply pooled w1 b1 w2 b2 p q

end Cert.KernelIdeal.ReadoutBody6

end
-- ==== Proof.ReadoutArray6.lean ====
/-
  The readout kernel's output array, from its input arrays.

  The kernel's grid has a single point, and at that point every window spans its whole array from the origin: the
  pooled features (128 × 64), the two weight matrices (64 × 16 and 16 × 1), the two biases (16 and 1) and the output
  (128 × 1). So each input block the body reads IS the corresponding array, the body therefore leaves in the output
  block the readout of those arrays, and what the point writes back is the whole of that readout: the output block
  sits over the output array entry for entry. Every entry of the output array lies in that one block, so after
  the last (only) point the output array holds the readout of the arrays the region found.
-/
import proofs.«411645_j14336600834819_1_alg».proof.Proof.Gen.KernelIdeal.Frame
import proofs.«411645_j14336600834819_1_alg».proof.Proof.ReadoutBody6
import Idealize.ShloMosaic.Lib.Pipeline.Value

set_option maxRecDepth 16384

open scoped BigOperators

noncomputable section

namespace Cert.KernelIdeal.ReadoutArray6

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The five arrays the region reads, as it finds them: pooled features, first weights and bias, second weights
    and bias. -/
abbrev pooledArr (c : Dev nD) : Vec Ideal S128x64 .f32 := V c (Pipeline.arrRef spec6 0)
abbrev w1Arr (c : Dev nD) : Vec Ideal S64x16 .f32 := V c (Pipeline.arrRef spec6 1)
abbrev b1Arr (c : Dev nD) : Vec Ideal S16 .f32 := V c (Pipeline.arrRef spec6 2)
abbrev w2Arr (c : Dev nD) : Vec Ideal S16x1 .f32 := V c (Pipeline.arrRef spec6 3)
abbrev b2Arr (c : Dev nD) : Vec Ideal S1 .f32 := V c (Pipeline.arrRef spec6 4)

/-- Where each window's block sits at the grid's point: all six at the origin, on every axis. -/
theorem idx_facts : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = 0 ∧ win6_3.index t (1 : Fin 2) = 0
    ∧ win6_4.index t (0 : Fin 1) = 0
    ∧ win6_5.index t (0 : Fin 2) = 0 ∧ win6_5.index t (1 : Fin 2) = 0 :=
  (by decide +kernel : ∀ t : Fin grid6.N, _)

/-- The pooled-features window spans its array: the block is the array. -/
theorem pooled_blk (c : Dev nD) (t : Fin cfg6.N) : iblk6 V c 0 t = pooledArr V c := by
  obtain ⟨e0, e1, -⟩ := idx_facts t
  unfold iblk6
  funext y
  rw [View.read_apply]
  show pooledArr V c (((cfg6.win 0).blk t).view.emb y) = pooledArr V c y
  refine congrArg (pooledArr V c) (funext fun a => Fin.ext ?_)
  match a with
  | ⟨0, _⟩ => show win6_0.index t (0 : Fin 2) * 128 + 1 * (y 0).val = (y 0).val; omega
  | ⟨1, _⟩ => show win6_0.index t (1 : Fin 2) * 64 + 1 * (y 1).val = (y 1).val; omega

/-- The first weights' window spans its matrix: the block is the matrix. -/
theorem w1_blk (c : Dev nD) (t : Fin cfg6.N) : iblk6 V c 1 t = w1Arr V c := by
  obtain ⟨-, -, e2, e3, -⟩ := idx_facts t
  unfold iblk6
  funext y
  rw [View.read_apply]
  show w1Arr V c (((cfg6.win 1).blk t).view.emb y) = w1Arr V c y
  refine congrArg (w1Arr V c) (funext fun a => Fin.ext ?_)
  match a with
  | ⟨0, _⟩ => show win6_1.index t (0 : Fin 2) * 64 + 1 * (y 0).val = (y 0).val; omega
  | ⟨1, _⟩ => show win6_1.index t (1 : Fin 2) * 16 + 1 * (y 1).val = (y 1).val; omega

/-- The first bias's window spans its vector: the block is the vector. -/
theorem b1_blk (c : Dev nD) (t : Fin cfg6.N) : iblk6 V c 2 t = b1Arr V c := by
  obtain ⟨-, -, -, -, e4, -⟩ := idx_facts t
  unfold iblk6
  funext y
  rw [View.read_apply]
  show b1Arr V c (((cfg6.win 2).blk t).view.emb y) = b1Arr V c y
  refine congrArg (b1Arr V c) (funext fun a => Fin.ext ?_)
  match a with
  | ⟨0, _⟩ => show win6_2.index t (0 : Fin 1) * 16 + 1 * (y 0).val = (y 0).val; omega

/-- The second weights' window spans its one-column matrix: the block is the matrix. -/
theorem w2_blk (c : Dev nD) (t : Fin cfg6.N) : iblk6 V c 3 t = w2Arr V c := by
  obtain ⟨-, -, -, -, -, e5, e6, -⟩ := idx_facts t
  unfold iblk6
  funext y
  rw [View.read_apply]
  show w2Arr V c (((cfg6.win 3).blk t).view.emb y) = w2Arr V c y
  refine congrArg (w2Arr V c) (funext fun a => Fin.ext ?_)
  match a with
  | ⟨0, _⟩ => show win6_3.index t (0 : Fin 2) * 16 + 1 * (y 0).val = (y 0).val; omega
  | ⟨1, _⟩ => show win6_3.index t (1 : Fin 2) * 1 + 1 * (y 1).val = (y 1).val; omega

/-- The second bias's window spans its one-entry vector: the block is the vector. -/
theorem b2_blk (c : Dev nD) (t : Fin cfg6.N) : iblk6 V c 4 t = b2Arr V c := by
  obtain ⟨-, -, -, -, -, -, -, e7, -⟩ := idx_facts t
  unfold iblk6
  funext y
  rw [View.read_apply]
  show b2Arr V c (((cfg6.win 4).blk t).view.emb y) = b2Arr V c y
  refine congrArg (b2Arr V c) (funext fun a => Fin.ext ?_)
  match a with
  | ⟨0, _⟩ => show win6_4.index t (0 : Fin 1) * 1 + 1 * (y 0).val = (y 0).val; omega

/-- The readout of every graph, from the arrays as the region finds them. -/
abbrev readoutArr (c : Dev nD) : Vec Ideal S128x1 .f32 :=
  Cert.Spec.readout (pooledArr V c) (w1Arr V c) (b1Arr V c) (w2Arr V c) (b2Arr V c)

/-- Entry `(p, q)` of the output block is entry `(p, q)` of the output array: the block sits at the origin. -/
theorem out_emb (t : Fin cfg6.N) (p : Fin 128) (q : Fin 1) :
    ((cfg6.win 5).blk t).view.emb (ix2 p q) = ix2 p q := by
  obtain ⟨-, -, -, -, -, -, -, -, e8, e9⟩ := idx_facts t
  refine funext fun a => Fin.ext ?_
  match a with
  | ⟨0, _⟩ => show win6_5.index t (0 : Fin 2) * 128 + 1 * p.val = p.val; omega
  | ⟨1, _⟩ => show win6_5.index t (1 : Fin 2) * 1 + 1 * q.val = q.val; omega

/-- What the point writes back is its block of the readout array, which is all of it. -/
theorem flushed_eq (c : Dev nD) (t : Fin cfg6.N) :
    (dat6 V c).flushed 5 t = ((cfg6.win 5).blk t).view.read (Elt Ideal) (readoutArr V c) := by
  show (cfg6.win 5).cut (grid6.coords t) ((dat6 V c).after 5 t) = _
  rw [after6_5, pooled_blk, w1_blk, b1_blk, w2_blk, b2_blk]
  show (cfg6.win 5).cut (grid6.coords t)
    (out6_5 (pooledArr V c) (w1Arr V c) (b1Arr V c) (w2Arr V c) (b2Arr V c)) = _
  rw [Cert.KernelIdeal.ReadoutBody6.out_eq]
  funext j
  show readoutArr V c j = readoutArr V c (((cfg6.win 5).blk t).view.emb j)
  obtain ⟨p, q, rfl⟩ : ∃ (p : Fin 128) (q : Fin 1), j = ix2 p q := ⟨j 0, j 1, eq_ix2 j⟩
  rw [out_emb]

/-- An entry of the output array lies in the point's block exactly when each of its coordinates lies in the
    block's range on that axis. -/
theorem mem_blk (t : Fin cfg6.N) (i : S128x1.Idx) :
    i ∈ ((cfg6.win 5).blk t).view.set ↔ ∀ a : Fin 2, win6_5.index t a * S128x1.size a ≤ (i a).val
      ∧ (i a).val < win6_5.index t a * S128x1.size a + S128x1.size a := by
  show i ∈ ((View.whole main_v25).slice (win6_5.rect t)).set ↔ _
  rw [View.set_slice_whole, Rect.mem_set_unit]
  exact Iff.rfl

/-- Every entry of the output array lies in the one point's block, which is written back. -/
theorem cover (i : S128x1.Idx) :
    ∃ t : Fin cfg6.N, (cfg6.win 5).flush t = true ∧ i ∈ ((cfg6.win 5).blk t).view.set := by
  have hi0 : (i 0).val < 128 := (i 0).isLt
  have hi1 : (i 1).val < 1 := (i 1).isLt
  refine ⟨⟨0, Nat.one_pos⟩, flush6_5 _, ?_⟩
  rw [mem_blk]
  obtain ⟨-, -, -, -, -, -, -, -, e8, e9⟩ := idx_facts ⟨0, Nat.one_pos⟩
  intro a
  match a with
  | ⟨0, _⟩ =>
    show win6_5.index _ (0 : Fin 2) * 128 ≤ (i 0).val ∧ (i 0).val < win6_5.index _ (0 : Fin 2) * 128 + 128
    rw [e8]; omega
  | ⟨1, _⟩ =>
    show win6_5.index _ (1 : Fin 2) * 1 ≤ (i 1).val ∧ (i 1).val < win6_5.index _ (1 : Fin 2) * 1 + 1
    rw [e9]; omega

/-- After the last grid point the output array holds the readout of every graph, computed from the arrays as the
    region found them. -/
theorem array_eq (c : Dev nD) : (dat6 V c).arrAt 5 cfg6.N
    = Cert.Spec.readout (pooledArr V c) (w1Arr V c) (b1Arr V c) (w2Arr V c) (b2Arr V c) :=
  (dat6 V c).arrAt_eq_of_cover 5 (readoutArr V c) (fun t _ => flushed_eq V c t) cover

end Cert.KernelIdeal.ReadoutArray6

end
-- ==== Proof.WalkOut.lean ====
/-
  From the third layer's node features to the program's result.

  The last stretch of host operations adds the third layer's node features up per graph; the readout kernel turns the
  pooled features and the readout's weights and biases into the result. The result buffer after the last kernel
  therefore holds the whole network applied to the launch contents of the arguments.
-/
import proofs.«411645_j14336600834819_1_alg».proof.Proof.Walk3
import proofs.«411645_j14336600834819_1_alg».proof.Proof.ReadoutArray6

set_option maxRecDepth 16384

noncomputable section

namespace Cert.KernelIdeal.WalkOut

open Cert.KernelIdeal Cert.KernelIdeal.Gen Cert.KernelIdeal.Take Cert.KernelIdeal.Net Idealize.ShloMosaic Idealize.ShloMosaic.TcCoe
open Idealize.SL.Sem

variable (m : (ℓ : Loc nD τ sig) → Buf (Elt Ideal) ℓ) (ρ : Dev nD → PrngReg)

/-- The third layer's node features added up per graph. -/
theorem pooled (c : Dev nD) : W14 m ρ c (Proc.devRef .tc main_v24) = pool (m ((c : Thread nD τ).loc main_arg3)) (h3 m c) := by
  refine (Aggregates.pool_val m ρ c).trans ?_
  rw [Carry.at_W13 m ρ c main_arg3 (by decide), Walk3.h3_val m ρ c]
  rfl

/-- The readout kernel's output: the network of the launch contents of the arguments. -/
theorem out_val (c : Dev nD) : W15 m ρ c (Proc.devRef .tc main_v25) = net m c := by
  refine (W15_arr m ρ c 5).trans ?_
  rw [ReadoutArray6.array_eq (V14 m ρ) c]
  have e0 : ReadoutArray6.pooledArr (V14 m ρ) c = pool (m ((c : Thread nD τ).loc main_arg3)) (h3 m c) := pooled m ρ c
  have e1 : ReadoutArray6.w1Arr (V14 m ρ) c = (m ((c : Thread nD τ).loc main_arg34)) := Carry.at_W14 m ρ c main_arg34 (by decide)
  have e2 : ReadoutArray6.b1Arr (V14 m ρ) c = (m ((c : Thread nD τ).loc main_arg35)) := Carry.at_W14 m ρ c main_arg35 (by decide)
  have e3 : ReadoutArray6.w2Arr (V14 m ρ) c = (m ((c : Thread nD τ).loc main_arg36)) := Carry.at_W14 m ρ c main_arg36 (by decide)
  have e4 : ReadoutArray6.b2Arr (V14 m ρ) c = (m ((c : Thread nD τ).loc main_arg37)) := Carry.at_W14 m ρ c main_arg37 (by decide)
  rw [e0, e1, e2, e3, e4]
  rfl

end Cert.KernelIdeal.WalkOut

end
-- ==== Proof.RefTerms.lean ====
/-
  The reference's result, layer by layer.

  The reference computes its result as one long expression of its arguments. This file names the pieces that
  expression is made of, each as a function of the arrays it reads, spelt with the reference's own host operations:
  the messages of a layer, the node update of a layer, a whole layer (gather the source rows, form the messages, add
  them up per destination node starting from zeros, update the nodes), the pooling of node features per graph, and
  the readout. The result is then the readout of the pooled third layer, the third layer taking the second layer's
  output, the second the first's, the first the input features (`result_eq`): the long expression and this
  composition are the same tree of operations, so the equation holds by unfolding the names.

  A source index is used after the usual normalisation of a negative index: `i + 50000` where `i < 0`, else `i`.
-/
import proofs.«411645_j14336600834819_1_alg».proof.Proof.Gen.ReferenceIdeal.Run

set_option maxRecDepth 16384

noncomputable section

namespace Cert.ReferenceIdeal.RefValue

open Cert.ReferenceIdeal Cert.ReferenceIdeal.Gen Cert.ReferenceIdeal.Value Idealize.ShloMosaic Idealize.ShloMosaic.TcCoe Idealize.SL.Sem

variable {F : FTy → Type} [FloatOps F]

/-- A vector of row indices with each negative index moved up by the number of rows. -/
def wrapIdx (s : IVec S800000 32) : IVec S800000 32 :=
  select (cmpi .slt s (broadcastInDim S800000 ![] bcast_S_S800000 (constantI S_ 32 0#32)))
    (addi s (broadcastInDim S800000 ![] bcast_S_S800000 (constantI S_ 32 50000#32))) s

/-- Row `r` of the two-row edge index array, as a vector. -/
def edgeRow (r : Fin 2) (ei : IVec S2x800000 32) : IVec S800000 32 :=
  match r with
  | ⟨0, _⟩ => shapeCast _ (extractStridedSlice S1x800000 ![0, 0] ei slices_S2x800000_S1x800000_0_0) shapeCasts_S1x800000_S800000
  | ⟨1, _⟩ => shapeCast _ (extractStridedSlice S1x800000 ![1, 0] ei slices_S2x800000_S1x800000_1_0) shapeCasts_S1x800000_S800000

/-- Layer 1's messages as the reference writes them: the gathered rows plus the attributes' projection, plus the bias
    spread over the rows, clipped below at a zero array. -/
def refEdge1 (ea : FVec F S800000x16 .f32) (xs : FVec F S800000x64 .f32) (we : FVec F S16x64 .f32)
    (be : FVec F S64 .f32) : FVec F S800000x64 .f32 :=
  maximumf (addf (addf xs (Host.dotGeneral dot_S800000x16_S16x64_S800000x64_1_0_0_1_n_n none ea we)) (broadcastInDim S800000x64 ![0, 1] bcast_S1x64_S800000x64_0_1 (broadcastInDim S1x64 ![1] bcast_S64_S1x64_1 be))) (broadcastInDim S800000x64 ![] bcast_S_S800000x64 (constant S_ .f32 0x00000000#32))

/-- Layer 2's messages as the reference writes them: the gathered rows plus the attributes' projection, plus the bias
    spread over the rows, clipped below at a zero array. -/
def refEdge2 (ea : FVec F S800000x16 .f32) (xs : FVec F S800000x256 .f32) (we : FVec F S16x256 .f32)
    (be : FVec F S256 .f32) : FVec F S800000x256 .f32 :=
  maximumf (addf (addf xs (Host.dotGeneral dot_S800000x16_S16x256_S800000x256_1_0_0_1_n_n none ea we)) (broadcastInDim S800000x256 ![0, 1] bcast_S1x256_S800000x256_0_1 (broadcastInDim S1x256 ![1] bcast_S256_S1x256_1 be))) (broadcastInDim S800000x256 ![] bcast_S_S800000x256 (constant S_ .f32 0x00000000#32))

/-- Layer 3's messages as the reference writes them: the gathered rows plus the attributes' projection, plus the bias
    spread over the rows, clipped below at a zero array. -/
def refEdge3 (ea : FVec F S800000x16 .f32) (xs : FVec F S800000x128 .f32) (we : FVec F S16x128 .f32)
    (be : FVec F S128 .f32) : FVec F S800000x128 .f32 :=
  maximumf (addf (addf xs (Host.dotGeneral dot_S800000x16_S16x128_S800000x128_1_0_0_1_n_n none ea we)) (broadcastInDim S800000x128 ![0, 1] bcast_S1x128_S800000x128_0_1 (broadcastInDim S1x128 ![1] bcast_S128_S1x128_1 be))) (broadcastInDim S800000x128 ![] bcast_S_S800000x128 (constant S_ .f32 0x00000000#32))

/-- Layer 1's node update as the reference writes it: two dense layers, each clipped below at a zero array, then
    the normalisation with the reciprocal square root taken on the variance vector before it is spread over the rows. -/
def refNode1 (x agg : FVec F S50000x64 .f32) (wa : FVec F S64x256 .f32) (ba : FVec F S256 .f32)
    (wb : FVec F S256x256 .f32) (bb g sh mu var : FVec F S256 .f32) : FVec F S50000x256 .f32 :=
  addf (mulf (mulf (subf (maximumf (addf (Host.dotGeneral dot_S50000x256_S256x256_S50000x256_1_0_0_1_n_n none (maximumf (addf (Host.dotGeneral dot_S50000x64_S64x256_S50000x256_1_0_0_1_n_n none (addf x agg) wa) (broadcastInDim S50000x256 ![0, 1] bcast_S1x256_S50000x256_0_1 (broadcastInDim S1x256 ![1] bcast_S256_S1x256_1 ba))) (broadcastInDim S50000x256 ![] bcast_S_S50000x256 (constant S_ .f32 0x00000000#32))) wb) (broadcastInDim S50000x256 ![0, 1] bcast_S1x256_S50000x256_0_1 (broadcastInDim S1x256 ![1] bcast_S256_S1x256_1 bb))) (broadcastInDim S50000x256 ![] bcast_S_S50000x256 (constant S_ .f32 0x00000000#32))) (broadcastInDim S50000x256 ![0, 1] bcast_S1x256_S50000x256_0_1 (broadcastInDim S1x256 ![1] bcast_S256_S1x256_1 mu))) (broadcastInDim S50000x256 ![0, 1] bcast_S1x256_S50000x256_0_1 (broadcastInDim S1x256 ![1] bcast_S256_S1x256_1 (Host.rsqrt (addf var (broadcastInDim S256 ![] bcast_S_S256 (constant S_ .f32 0x3727C5AC#32))))))) (broadcastInDim S50000x256 ![0, 1] bcast_S1x256_S50000x256_0_1 (broadcastInDim S1x256 ![1] bcast_S256_S1x256_1 g))) (broadcastInDim S50000x256 ![0, 1] bcast_S1x256_S50000x256_0_1 (broadcastInDim S1x256 ![1] bcast_S256_S1x256_1 sh))

/-- Layer 2's node update as the reference writes it: two dense layers, each clipped below at a zero array, then
    the normalisation with the reciprocal square root taken on the variance vector before it is spread over the rows. -/
def refNode2 (x agg : FVec F S50000x256 .f32) (wa : FVec F S256x128 .f32) (ba : FVec F S128 .f32)
    (wb : FVec F S128x128 .f32) (bb g sh mu var : FVec F S128 .f32) : FVec F S50000x128 .f32 :=
  addf (mulf (mulf (subf (maximumf (addf (Host.dotGeneral dot_S50000x128_S128x128_S50000x128_1_0_0_1_n_n none (maximumf (addf (Host.dotGeneral dot_S50000x256_S256x128_S50000x128_1_0_0_1_n_n none (addf x agg) wa) (broadcastInDim S50000x128 ![0, 1] bcast_S1x128_S50000x128_0_1 (broadcastInDim S1x128 ![1] bcast_S128_S1x128_1 ba))) (broadcastInDim S50000x128 ![] bcast_S_S50000x128 (constant S_ .f32 0x00000000#32))) wb) (broadcastInDim S50000x128 ![0, 1] bcast_S1x128_S50000x128_0_1 (broadcastInDim S1x128 ![1] bcast_S128_S1x128_1 bb))) (broadcastInDim S50000x128 ![] bcast_S_S50000x128 (constant S_ .f32 0x00000000#32))) (broadcastInDim S50000x128 ![0, 1] bcast_S1x128_S50000x128_0_1 (broadcastInDim S1x128 ![1] bcast_S128_S1x128_1 mu))) (broadcastInDim S50000x128 ![0, 1] bcast_S1x128_S50000x128_0_1 (broadcastInDim S1x128 ![1] bcast_S128_S1x128_1 (Host.rsqrt (addf var (broadcastInDim S128 ![] bcast_S_S128 (constant S_ .f32 0x3727C5AC#32))))))) (broadcastInDim S50000x128 ![0, 1] bcast_S1x128_S50000x128_0_1 (broadcastInDim S1x128 ![1] bcast_S128_S1x128_1 g))) (broadcastInDim S50000x128 ![0, 1] bcast_S1x128_S50000x128_0_1 (broadcastInDim S1x128 ![1] bcast_S128_S1x128_1 sh))

/-- Layer 3's node update as the reference writes it: two dense layers, each clipped below at a zero array, then
    the normalisation with the reciprocal square root taken on the variance vector before it is spread over the rows. -/
def refNode3 (x agg : FVec F S50000x128 .f32) (wa : FVec F S128x64 .f32) (ba : FVec F S64 .f32)
    (wb : FVec F S64x64 .f32) (bb g sh mu var : FVec F S64 .f32) : FVec F S50000x64 .f32 :=
  addf (mulf (mulf (subf (maximumf (addf (Host.dotGeneral dot_S50000x64_S64x64_S50000x64_1_0_0_1_n_n none (maximumf (addf (Host.dotGeneral dot_S50000x128_S128x64_S50000x64_1_0_0_1_n_n none (addf x agg) wa) (broadcastInDim S50000x64 ![0, 1] bcast_S1x64_S50000x64_0_1 (broadcastInDim S1x64 ![1] bcast_S64_S1x64_1 ba))) (broadcastInDim S50000x64 ![] bcast_S_S50000x64 (constant S_ .f32 0x00000000#32))) wb) (broadcastInDim S50000x64 ![0, 1] bcast_S1x64_S50000x64_0_1 (broadcastInDim S1x64 ![1] bcast_S64_S1x64_1 bb))) (broadcastInDim S50000x64 ![] bcast_S_S50000x64 (constant S_ .f32 0x00000000#32))) (broadcastInDim S50000x64 ![0, 1] bcast_S1x64_S50000x64_0_1 (broadcastInDim S1x64 ![1] bcast_S64_S1x64_1 mu))) (broadcastInDim S50000x64 ![0, 1] bcast_S1x64_S50000x64_0_1 (broadcastInDim S1x64 ![1] bcast_S64_S1x64_1 (Host.rsqrt (addf var (broadcastInDim S64 ![] bcast_S_S64 (constant S_ .f32 0x3727C5AC#32))))))) (broadcastInDim S50000x64 ![0, 1] bcast_S1x64_S50000x64_0_1 (broadcastInDim S1x64 ![1] bcast_S64_S1x64_1 g))) (broadcastInDim S50000x64 ![0, 1] bcast_S1x64_S50000x64_0_1 (broadcastInDim S1x64 ![1] bcast_S64_S1x64_1 sh))

/-- Layer 1 whole: gather each edge's source row, form the messages, add them up per destination node from a
    zero array, and update every node. -/
def refLayer1 (x : FVec F S50000x64 .f32) (ea : FVec F S800000x16 .f32) (src dst : IVec S800000 32)
    (we : FVec F S16x64 .f32) (be : FVec F S64 .f32) (wa : FVec F S64x256 .f32) (ba : FVec F S256 .f32)
    (wb : FVec F S256x256 .f32) (bb g sh mu var : FVec F S256 .f32) : FVec F S50000x256 .f32 :=
  refNode1 x
    (Host.scatterAdd scatter_S50000x64_S800000x1_S800000x64_1_0_0_1 (broadcastInDim S50000x64 ![] bcast_S_S50000x64 (constant S_ .f32 0x00000000#32))
      (broadcastInDim S800000x1 ![0] bcast_S800000_S800000x1_0 dst)
      (refEdge1 ea (Host.gather gather_S50000x64_S800000x1_S800000x64_1_0_n_n_0_1_164 x (broadcastInDim S800000x1 ![0] bcast_S800000_S800000x1_0 (wrapIdx src))) we be))
    wa ba wb bb g sh mu var

/-- Layer 2 whole: gather each edge's source row, form the messages, add them up per destination node from a
    zero array, and update every node. -/
def refLayer2 (x : FVec F S50000x256 .f32) (ea : FVec F S800000x16 .f32) (src dst : IVec S800000 32)
    (we : FVec F S16x256 .f32) (be : FVec F S256 .f32) (wa : FVec F S256x128 .f32) (ba : FVec F S128 .f32)
    (wb : FVec F S128x128 .f32) (bb g sh mu var : FVec F S128 .f32) : FVec F S50000x128 .f32 :=
  refNode2 x
    (Host.scatterAdd scatter_S50000x256_S800000x1_S800000x256_1_0_0_1 (broadcastInDim S50000x256 ![] bcast_S_S50000x256 (constant S_ .f32 0x00000000#32))
      (broadcastInDim S800000x1 ![0] bcast_S800000_S800000x1_0 dst)
      (refEdge2 ea (Host.gather gather_S50000x256_S800000x1_S800000x256_1_0_n_n_0_1_1256 x (broadcastInDim S800000x1 ![0] bcast_S800000_S800000x1_0 (wrapIdx src))) we be))
    wa ba wb bb g sh mu var

/-- Layer 3 whole: gather each edge's source row, form the messages, add them up per destination node from a
    zero array, and update every node. -/
def refLayer3 (x : FVec F S50000x128 .f32) (ea : FVec F S800000x16 .f32) (src dst : IVec S800000 32)
    (we : FVec F S16x128 .f32) (be : FVec F S128 .f32) (wa : FVec F S128x64 .f32) (ba : FVec F S64 .f32)
    (wb : FVec F S64x64 .f32) (bb g sh mu var : FVec F S64 .f32) : FVec F S50000x64 .f32 :=
  refNode3 x
    (Host.scatterAdd scatter_S50000x128_S800000x1_S800000x128_1_0_0_1 (broadcastInDim S50000x128 ![] bcast_S_S50000x128 (constant S_ .f32 0x00000000#32))
      (broadcastInDim S800000x1 ![0] bcast_S800000_S800000x1_0 dst)
      (refEdge3 ea (Host.gather gather_S50000x128_S800000x1_S800000x128_1_0_n_n_0_1_1128 x (broadcastInDim S800000x1 ![0] bcast_S800000_S800000x1_0 (wrapIdx src))) we be))
    wa ba wb bb g sh mu var

/-- The node features added up per graph, from a zero array. -/
def refPool (h : FVec F S50000x64 .f32) (batch : IVec S50000 32) : FVec F S128x64 .f32 :=
  Host.scatterAdd scatter_S128x64_S50000x1_S50000x64_1_0_0_1 (broadcastInDim S128x64 ![] bcast_S_S128x64 (constant S_ .f32 0x00000000#32))
    (broadcastInDim S50000x1 ![0] bcast_S50000_S50000x1_0 batch) h

/-- The readout as the reference writes it: a dense layer clipped below at a zero array, then a second dense layer. -/
def refReadout (pooled : FVec F S128x64 .f32) (w1 : FVec F S64x16 .f32) (b1 : FVec F S16 .f32) (w2 : FVec F S16x1 .f32)
    (b2 : FVec F S1 .f32) : FVec F S128x1 .f32 :=
  addf (Host.dotGeneral dot_S128x16_S16x1_S128x1_1_0_0_1_n_n none (maximumf (addf (Host.dotGeneral dot_S128x64_S64x16_S128x16_1_0_0_1_n_n none pooled w1) (broadcastInDim S128x16 ![0, 1] bcast_S1x16_S128x16_0_1 (broadcastInDim S1x16 ![1] bcast_S16_S1x16_1 b1))) (broadcastInDim S128x16 ![] bcast_S_S128x16 (constant S_ .f32 0x00000000#32))) w2) (broadcastInDim S128x1 ![0, 1] bcast_S1x1_S128x1_0_1 (broadcastInDim S1x1 ![1] bcast_S1_S1x1_1 b2))

variable (m : (ℓ : Loc nD τ sig) → Buf (Elt F) ℓ) (c : Dev nD)

/-- A buffer's launch contents on core `c`. -/
abbrev argAt (r : Ref sig .tc) : Buf (Elt F) ((c.tc : Thread nD τ).loc r) := m ((c.tc : Thread nD τ).loc r)

/-- The whole network on the launch contents of the arguments. -/
def refNet : FVec F S128x1 .f32 :=
  refReadout
    (refPool
      (refLayer3
        (refLayer2
          (refLayer1 (argAt m c main_arg0) (argAt m c main_arg1) (edgeRow 0 (argAt m c main_arg2)) (edgeRow 1 (argAt m c main_arg2)) (argAt m c main_arg4) (argAt m c main_arg5)
            (argAt m c main_arg6) (argAt m c main_arg7) (argAt m c main_arg8) (argAt m c main_arg9) (argAt m c main_arg10) (argAt m c main_arg11) (argAt m c main_arg12) (argAt m c main_arg13))
          (argAt m c main_arg1) (edgeRow 0 (argAt m c main_arg2)) (edgeRow 1 (argAt m c main_arg2)) (argAt m c main_arg14) (argAt m c main_arg15)
          (argAt m c main_arg16) (argAt m c main_arg17) (argAt m c main_arg18) (argAt m c main_arg19) (argAt m c main_arg20) (argAt m c main_arg21) (argAt m c main_arg22) (argAt m c main_arg23))
        (argAt m c main_arg1) (edgeRow 0 (argAt m c main_arg2)) (edgeRow 1 (argAt m c main_arg2)) (argAt m c main_arg24) (argAt m c main_arg25)
        (argAt m c main_arg26) (argAt m c main_arg27) (argAt m c main_arg28) (argAt m c main_arg29) (argAt m c main_arg30) (argAt m c main_arg31) (argAt m c main_arg32) (argAt m c main_arg33))
      (argAt m c main_arg3))
    (argAt m c main_arg34) (argAt m c main_arg35) (argAt m c main_arg36) (argAt m c main_arg37)

/-- The reference's result is the network of its arguments: the same tree of operations, name by name. -/
theorem result_eq : res_out0 m c = refNet m c := rfl

end Cert.ReferenceIdeal.RefValue

end
-- ==== Proof.RefEdge.lean ====
/-
  The reference's messages are the specification's messages.

  For each of the three layers the reference writes the messages of all 800000 edges with host operations: the
  gathered source rows `xs` plus the product of the edge attributes `ea` (800000 × 16) with the layer's weights
  `we` (16 × f), then plus the layer's bias `be` spread over the rows, the whole clipped below at an array of
  zeros. The three layers differ only in the width f (64, 256, 128). Read at edge `p` and feature `q` the product
  is the sum over the sixteen attributes, the spread bias is the bias's entry `q`, and the array of zeros is zero,
  so the expression is, term for term and in the same grouping,

      max (xs p q + (∑ k, ea p k * we k q) + be q) 0.
-/
import proofs.«411645_j14336600834819_1_alg».proof.Proof.RefTerms
import proofs.«411645_j14336600834819_1_alg».proof.Proof.EdgeSpec
import proofs.«411645_j14336600834819_1_alg».proof.Proof.RowBias
import proofs.«411645_j14336600834819_1_alg».proof.Proof.LibDot
import Idealize.ShloMosaic.PureOps.Ideal.Laws
import Idealize.ShloMosaic.Lib.ValueIdx
import Idealize.ShloMosaic.Lib.StableHlo.Predicate

open scoped BigOperators

noncomputable section

namespace Cert.ReferenceIdeal.RefValue

open Cert.ReferenceIdeal Idealize.ShloMosaic Idealize.ShloMosaic.ValueIdx

namespace Edge

/-- Layer 1's product contracts the attributes' columns against the weights' rows. -/
theorem dot1_rowsCols : Cert.Lib.Dot.IsRowsCols dot_S800000x16_S16x64_S800000x64_1_0_0_1_n_n :=
  ⟨rfl, rfl, rfl, rfl, rfl, rfl⟩

/-- Layer 2's product contracts the attributes' columns against the weights' rows. -/
theorem dot2_rowsCols : Cert.Lib.Dot.IsRowsCols dot_S800000x16_S16x256_S800000x256_1_0_0_1_n_n :=
  ⟨rfl, rfl, rfl, rfl, rfl, rfl⟩

/-- Layer 3's product contracts the attributes' columns against the weights' rows. -/
theorem dot3_rowsCols : Cert.Lib.Dot.IsRowsCols dot_S800000x16_S16x128_S800000x128_1_0_0_1_n_n :=
  ⟨rfl, rfl, rfl, rfl, rfl, rfl⟩

/-- A scalar zero spread over any shape is zero at every entry. -/
theorem zeros_apply {t : Shape} (h : (⟨0, ![]⟩ : Shape).BroadcastsInDim t ![]) (j : t.Idx) :
    broadcastInDim t ![] h (constant (F := Ideal) ⟨0, ![]⟩ .f32 0x00000000#32) j = 0 := by
  rw [StableHlo.Predicate.bcast_scalar h Nat.one_pos, constant_apply, Ideal.ofBits_zero_f32]

end Edge

/-- Layer 1 (rows of 64 features): the reference's messages are, entry by entry, the specification's. -/
theorem refEdge1_eq (ea : FVec Ideal S800000x16 .f32) (xs : FVec Ideal S800000x64 .f32) (we : FVec Ideal S16x64 .f32)
    (be : FVec Ideal S64 .f32) : refEdge1 (F := Ideal) ea xs we be = Cert.Spec.edgeMsg ea xs we be := by
  funext j
  obtain ⟨p, q, rfl⟩ : ∃ (p : Fin 800000) (q : Fin 64), j = ix2 p q := ⟨j 0, j 1, eq_ix2 j⟩
  rw [Cert.Spec.edgeMsg_apply]
  unfold refEdge1 Cert.Spec.edgeMsgAt
  simp only [maximumf_apply, addf_apply]
  rw [Cert.Lib.Dot.hostDot_rc _ Edge.dot1_rowsCols, Cert.Spec.rowSpread_bcast_apply, Edge.zeros_apply]

/-- Layer 2 (rows of 256 features): the same reading of the same expression at the wider rows. -/
theorem refEdge2_eq (ea : FVec Ideal S800000x16 .f32) (xs : FVec Ideal S800000x256 .f32) (we : FVec Ideal S16x256 .f32)
    (be : FVec Ideal S256 .f32) : refEdge2 (F := Ideal) ea xs we be = Cert.Spec.edgeMsg ea xs we be := by
  funext j
  obtain ⟨p, q, rfl⟩ : ∃ (p : Fin 800000) (q : Fin 256), j = ix2 p q := ⟨j 0, j 1, eq_ix2 j⟩
  rw [Cert.Spec.edgeMsg_apply]
  unfold refEdge2 Cert.Spec.edgeMsgAt
  simp only [maximumf_apply, addf_apply]
  rw [Cert.Lib.Dot.hostDot_rc _ Edge.dot2_rowsCols, Cert.Spec.rowSpread_bcast_apply, Edge.zeros_apply]

/-- Layer 3 (rows of 128 features): again the product is a sum of sixteen terms, the bias one entry, the clip at zero. -/
theorem refEdge3_eq (ea : FVec Ideal S800000x16 .f32) (xs : FVec Ideal S800000x128 .f32) (we : FVec Ideal S16x128 .f32)
    (be : FVec Ideal S128 .f32) : refEdge3 (F := Ideal) ea xs we be = Cert.Spec.edgeMsg ea xs we be := by
  funext j
  obtain ⟨p, q, rfl⟩ : ∃ (p : Fin 800000) (q : Fin 128), j = ix2 p q := ⟨j 0, j 1, eq_ix2 j⟩
  rw [Cert.Spec.edgeMsg_apply]
  unfold refEdge3 Cert.Spec.edgeMsgAt
  simp only [maximumf_apply, addf_apply]
  rw [Cert.Lib.Dot.hostDot_rc _ Edge.dot3_rowsCols, Cert.Spec.rowSpread_bcast_apply, Edge.zeros_apply]

end Cert.ReferenceIdeal.RefValue

end
-- ==== Proof.RefNode.lean ====
/-
  The reference's node update is the specification's node update, layer by layer.

  For each of the three layers the reference writes the update of all 50000 nodes as one array expression:

      s   = x + agg
      hid = max (s · wa + ba) 0
      o   = max (hid · wb + bb) 0
      out = ((o - mu) * rsqrt (var + ε)) * g + sh

  Each `·` is a rows-by-columns matrix product with no accumulator; a bias or a normalisation vector is first made
  a single row and that row is then repeated over the nodes; the zero under a clip and the constant `ε` are single
  numbers repeated over a whole array; the reciprocal square root is taken entrywise on the vector `var + ε` before
  that vector is repeated over the nodes. Read at node `p` and feature `q`, a product is the sum over the contracted
  coordinate of the products of the operands' entries, a repeated vector is its entry `q`, and a repeated number is
  that number. What results is, term for term and in the same grouping, the specification's new feature `q` of node
  `p`; `ε` stays the single-precision word it is written as on both sides. The three layers differ only in their
  widths (64 → 256 → 256, 256 → 128 → 128, 128 → 64 → 64).
-/
import proofs.«411645_j14336600834819_1_alg».proof.Proof.RefTerms
import proofs.«411645_j14336600834819_1_alg».proof.Proof.NodeSpec
import proofs.«411645_j14336600834819_1_alg».proof.Proof.RowBias
import proofs.«411645_j14336600834819_1_alg».proof.Proof.LibDot
import Idealize.ShloMosaic.PureOps.Ideal.Laws
import Idealize.ShloMosaic.Lib.ValueIdx
import Idealize.ShloMosaic.Lib.StableHlo.Predicate

open scoped BigOperators

noncomputable section

namespace Cert.ReferenceIdeal.RefValue

open Cert.ReferenceIdeal Cert.ReferenceIdeal.Gen Idealize.ShloMosaic Idealize.ShloMosaic.ValueIdx

namespace Node

/-- A single number repeated over an array of any shape reads, at every entry, the extended real its word encodes. -/
theorem numberSpread_apply {t : Shape} (h : S_.BroadcastsInDim t ![]) (w : BitVec 32) (j : t.Idx) :
    broadcastInDim t ![] h (constant (F := Ideal) S_ .f32 w) j = Ideal.ofBits .f32 w := by
  rw [StableHlo.Predicate.bcast_scalar h (by decide), constant_apply]

/-- The host's entrywise reciprocal square root, read at an entry, is the reciprocal square root of that entry. -/
theorem hostRsqrt_apply {s : Shape} {φ : FTy} (v : FVec Ideal s φ) (i : s.Idx) :
    Host.rsqrt v i = Ideal.rsqrt (v i) := rfl

/-! ### Layer 1: 64 → 256 → 256 -/

/-- First product: the summed features' columns against the rows of `wa`. -/
theorem dotIn1 : Cert.Lib.Dot.IsRowsCols dot_S50000x64_S64x256_S50000x256_1_0_0_1_n_n :=
  ⟨rfl, rfl, rfl, rfl, rfl, rfl⟩

/-- Second product: the hidden activations' columns against the rows of `wb`. -/
theorem dotHid1 : Cert.Lib.Dot.IsRowsCols dot_S50000x256_S256x256_S50000x256_1_0_0_1_n_n :=
  ⟨rfl, rfl, rfl, rfl, rfl, rfl⟩

/-- A 256-entry vector made a row and repeated over the nodes holds its entry `q` at `(p, q)`. -/
theorem rowVec1 (v : FVec Ideal S256 .f32) (p : Fin 50000) (q : Fin 256) :
    broadcastInDim S50000x256 (![0, 1] : Fin 2 → Fin 2) bcast_S1x256_S50000x256_0_1
      (broadcastInDim S1x256 (![1] : Fin 1 → Fin 2) bcast_S256_S1x256_1 v) (ix2 p q) = v (ix1 q) :=
  Cert.Spec.rowSpread_bcast_apply v _ _ p q

/-- The array a clip compares with holds zero everywhere. -/
theorem zeros1 (j : S50000x256.Idx) :
    broadcastInDim S50000x256 (![] : Fin 0 → Fin 2) bcast_S_S50000x256 (constant (F := Ideal) S_ .f32 0x00000000#32) j
      = 0 := by
  rw [numberSpread_apply, Ideal.ofBits_zero_f32]

/-- The vector added to the variances holds the constant `ε` everywhere. -/
theorem epsVec1 (j : S256.Idx) :
    broadcastInDim S256 (![] : Fin 0 → Fin 1) bcast_S_S256 (constant (F := Ideal) S_ .f32 0x3727C5AC#32) j
      = Cert.Spec.bnEps := by
  rw [numberSpread_apply, Cert.Spec.bnEps]

/-! ### Layer 2: 256 → 128 → 128 -/

/-- First product: the summed features' columns against the rows of `wa`. -/
theorem dotIn2 : Cert.Lib.Dot.IsRowsCols dot_S50000x256_S256x128_S50000x128_1_0_0_1_n_n :=
  ⟨rfl, rfl, rfl, rfl, rfl, rfl⟩

/-- Second product: the hidden activations' columns against the rows of `wb`. -/
theorem dotHid2 : Cert.Lib.Dot.IsRowsCols dot_S50000x128_S128x128_S50000x128_1_0_0_1_n_n :=
  ⟨rfl, rfl, rfl, rfl, rfl, rfl⟩

/-- A 128-entry vector made a row and repeated over the nodes holds its entry `q` at `(p, q)`. -/
theorem rowVec2 (v : FVec Ideal S128 .f32) (p : Fin 50000) (q : Fin 128) :
    broadcastInDim S50000x128 (![0, 1] : Fin 2 → Fin 2) bcast_S1x128_S50000x128_0_1
      (broadcastInDim S1x128 (![1] : Fin 1 → Fin 2) bcast_S128_S1x128_1 v) (ix2 p q) = v (ix1 q) :=
  Cert.Spec.rowSpread_bcast_apply v _ _ p q

/-- The array a clip compares with holds zero everywhere. -/
theorem zeros2 (j : S50000x128.Idx) :
    broadcastInDim S50000x128 (![] : Fin 0 → Fin 2) bcast_S_S50000x128 (constant (F := Ideal) S_ .f32 0x00000000#32) j
      = 0 := by
  rw [numberSpread_apply, Ideal.ofBits_zero_f32]

/-- The vector added to the variances holds the constant `ε` everywhere. -/
theorem epsVec2 (j : S128.Idx) :
    broadcastInDim S128 (![] : Fin 0 → Fin 1) bcast_S_S128 (constant (F := Ideal) S_ .f32 0x3727C5AC#32) j
      = Cert.Spec.bnEps := by
  rw [numberSpread_apply, Cert.Spec.bnEps]

/-! ### Layer 3: 128 → 64 → 64 -/

/-- First product: the summed features' columns against the rows of `wa`. -/
theorem dotIn3 : Cert.Lib.Dot.IsRowsCols dot_S50000x128_S128x64_S50000x64_1_0_0_1_n_n :=
  ⟨rfl, rfl, rfl, rfl, rfl, rfl⟩

/-- Second product: the hidden activations' columns against the rows of `wb`. -/
theorem dotHid3 : Cert.Lib.Dot.IsRowsCols dot_S50000x64_S64x64_S50000x64_1_0_0_1_n_n :=
  ⟨rfl, rfl, rfl, rfl, rfl, rfl⟩

/-- A 64-entry vector made a row and repeated over the nodes holds its entry `q` at `(p, q)`. -/
theorem rowVec3 (v : FVec Ideal S64 .f32) (p : Fin 50000) (q : Fin 64) :
    broadcastInDim S50000x64 (![0, 1] : Fin 2 → Fin 2) bcast_S1x64_S50000x64_0_1
      (broadcastInDim S1x64 (![1] : Fin 1 → Fin 2) bcast_S64_S1x64_1 v) (ix2 p q) = v (ix1 q) :=
  Cert.Spec.rowSpread_bcast_apply v _ _ p q

/-- The array a clip compares with holds zero everywhere. -/
theorem zeros3 (j : S50000x64.Idx) :
    broadcastInDim S50000x64 (![] : Fin 0 → Fin 2) bcast_S_S50000x64 (constant (F := Ideal) S_ .f32 0x00000000#32) j
      = 0 := by
  rw [numberSpread_apply, Ideal.ofBits_zero_f32]

/-- The vector added to the variances holds the constant `ε` everywhere. -/
theorem epsVec3 (j : S64.Idx) :
    broadcastInDim S64 (![] : Fin 0 → Fin 1) bcast_S_S64 (constant (F := Ideal) S_ .f32 0x3727C5AC#32) j
      = Cert.Spec.bnEps := by
  rw [numberSpread_apply, Cert.Spec.bnEps]

end Node

/-- Layer 1: the reference's update of all nodes is the specification's, entry by entry. -/
theorem refNode1_eq (x agg : FVec Ideal S50000x64 .f32) (wa : FVec Ideal S64x256 .f32) (ba : FVec Ideal S256 .f32)
    (wb : FVec Ideal S256x256 .f32) (bb g sh mu var : FVec Ideal S256 .f32) :
    refNode1 (F := Ideal) x agg wa ba wb bb g sh mu var = Cert.Spec.nodeUpd x agg wa ba wb bb g sh mu var := by
  funext j
  obtain ⟨p, q, rfl⟩ : ∃ (p : Fin 50000) (q : Fin 256), j = ix2 p q := ⟨j 0, j 1, eq_ix2 j⟩
  rw [Cert.Spec.nodeUpd_apply]
  unfold refNode1 Cert.Spec.nodeUpdAt Cert.Spec.nodeHidAt
  simp only [addf_apply, subf_apply, mulf_apply, maximumf_apply, Node.rowVec1, Node.zeros1, Node.epsVec1,
    Node.hostRsqrt_apply]
  rw [Cert.Lib.Dot.hostDot_rc _ Node.dotHid1]
  simp only [maximumf_apply, addf_apply, Node.rowVec1, Node.zeros1, Cert.Lib.Dot.hostDot_rc _ Node.dotIn1]

/-- Layer 2: the reference's update of all nodes is the specification's, entry by entry. -/
theorem refNode2_eq (x agg : FVec Ideal S50000x256 .f32) (wa : FVec Ideal S256x128 .f32) (ba : FVec Ideal S128 .f32)
    (wb : FVec Ideal S128x128 .f32) (bb g sh mu var : FVec Ideal S128 .f32) :
    refNode2 (F := Ideal) x agg wa ba wb bb g sh mu var = Cert.Spec.nodeUpd x agg wa ba wb bb g sh mu var := by
  funext j
  obtain ⟨p, q, rfl⟩ : ∃ (p : Fin 50000) (q : Fin 128), j = ix2 p q := ⟨j 0, j 1, eq_ix2 j⟩
  rw [Cert.Spec.nodeUpd_apply]
  unfold refNode2 Cert.Spec.nodeUpdAt Cert.Spec.nodeHidAt
  simp only [addf_apply, subf_apply, mulf_apply, maximumf_apply, Node.rowVec2, Node.zeros2, Node.epsVec2,
    Node.hostRsqrt_apply]
  rw [Cert.Lib.Dot.hostDot_rc _ Node.dotHid2]
  simp only [maximumf_apply, addf_apply, Node.rowVec2, Node.zeros2, Cert.Lib.Dot.hostDot_rc _ Node.dotIn2]

/-- Layer 3: the reference's update of all nodes is the specification's, entry by entry. -/
theorem refNode3_eq (x agg : FVec Ideal S50000x128 .f32) (wa : FVec Ideal S128x64 .f32) (ba : FVec Ideal S64 .f32)
    (wb : FVec Ideal S64x64 .f32) (bb g sh mu var : FVec Ideal S64 .f32) :
    refNode3 (F := Ideal) x agg wa ba wb bb g sh mu var = Cert.Spec.nodeUpd x agg wa ba wb bb g sh mu var := by
  funext j
  obtain ⟨p, q, rfl⟩ : ∃ (p : Fin 50000) (q : Fin 64), j = ix2 p q := ⟨j 0, j 1, eq_ix2 j⟩
  rw [Cert.Spec.nodeUpd_apply]
  unfold refNode3 Cert.Spec.nodeUpdAt Cert.Spec.nodeHidAt
  simp only [addf_apply, subf_apply, mulf_apply, maximumf_apply, Node.rowVec3, Node.zeros3, Node.epsVec3,
    Node.hostRsqrt_apply]
  rw [Cert.Lib.Dot.hostDot_rc _ Node.dotHid3]
  simp only [maximumf_apply, addf_apply, Node.rowVec3, Node.zeros3, Cert.Lib.Dot.hostDot_rc _ Node.dotIn3]

end Cert.ReferenceIdeal.RefValue

end
-- ==== Proof.RefReadout.lean ====
/-
  The reference's readout is the specification's readout.

  The reference writes the readout with host operations: the pooled features (128 × 64) times the first weights
  (64 × 16), plus the first bias spread over the rows, clipped below at an array of zeros; that hidden layer times
  the second weights (16 × 1), plus the second bias spread over the rows; nothing is clipped at the end. Read at
  graph `p` and output column `q`, each product is a sum over its contracted coordinate, each spread bias is the
  bias's entry for the column, and the array of zeros is zero: the expression is then, term for term,

      (∑ k, max ((∑ j, pooled p j * w1 j k) + b1 k) 0 * w2 k q) + b2 q.
-/
import proofs.«411645_j14336600834819_1_alg».proof.Proof.RefTerms
import proofs.«411645_j14336600834819_1_alg».proof.Proof.ReadoutSpec
import proofs.«411645_j14336600834819_1_alg».proof.Proof.RowBias
import proofs.«411645_j14336600834819_1_alg».proof.Proof.LibDot
import Idealize.ShloMosaic.PureOps.Ideal.Laws
import Idealize.ShloMosaic.Lib.ValueIdx
import Idealize.ShloMosaic.Lib.StableHlo.Predicate

open scoped BigOperators

noncomputable section

namespace Cert.ReferenceIdeal.RefValue

open Cert.ReferenceIdeal Idealize.ShloMosaic Idealize.ShloMosaic.ValueIdx

namespace Readout

/-- The first product's record contracts the pooled features' columns against the first weights' rows. -/
theorem dotHid_rowsCols : Cert.Lib.Dot.IsRowsCols dot_S128x64_S64x16_S128x16_1_0_0_1_n_n :=
  ⟨rfl, rfl, rfl, rfl, rfl, rfl⟩

/-- The second product's record contracts the hidden layer's columns against the second weights' rows. -/
theorem dotOut_rowsCols : Cert.Lib.Dot.IsRowsCols dot_S128x16_S16x1_S128x1_1_0_0_1_n_n :=
  ⟨rfl, rfl, rfl, rfl, rfl, rfl⟩

/-- A scalar zero spread over any shape is zero at every entry. -/
theorem zeros_apply {t : Shape} (h : (⟨0, ![]⟩ : Shape).BroadcastsInDim t ![]) (j : t.Idx) :
    broadcastInDim t ![] h (constant (F := Ideal) ⟨0, ![]⟩ .f32 0x00000000#32) j = 0 := by
  rw [StableHlo.Predicate.bcast_scalar h Nat.one_pos, constant_apply, Ideal.ofBits_zero_f32]

/-- The reference's clipped first layer at graph `p` and hidden unit `k`: the pooled row of `p` against column
    `k` of `w1`, plus the bias of `k`, clipped below at zero. -/
theorem hid_apply (pooled : FVec Ideal S128x64 .f32) (w1 : FVec Ideal S64x16 .f32) (b1 : FVec Ideal S16 .f32)
    (p : Fin 128) (k : Fin 16) :
    maximumf
        (addf (Host.dotGeneral dot_S128x64_S64x16_S128x16_1_0_0_1_n_n none pooled w1)
          (broadcastInDim S128x16 ![0, 1] Gen.bcast_S1x16_S128x16_0_1
            (broadcastInDim S1x16 ![1] Gen.bcast_S16_S1x16_1 b1)))
        (broadcastInDim S128x16 ![] Gen.bcast_S_S128x16 (constant S_ .f32 0x00000000#32)) (ix2 p k)
      = Cert.Spec.readoutHidAt pooled w1 b1 p k := by
  unfold Cert.Spec.readoutHidAt
  simp only [maximumf_apply, addf_apply]
  rw [Cert.Lib.Dot.hostDot_rc _ dotHid_rowsCols, Cert.Spec.rowSpread_bcast_apply, zeros_apply]

end Readout

/-- The reference's readout, entry by entry, is the specification's: at `(p, q)` the second product sums, over the
    hidden units, the clipped first layer against column `q` of `w2`, and the bias of `q` is added. -/
theorem refReadout_eq (pooled : FVec Ideal S128x64 .f32) (w1 : FVec Ideal S64x16 .f32) (b1 : FVec Ideal S16 .f32)
    (w2 : FVec Ideal S16x1 .f32) (b2 : FVec Ideal S1 .f32) :
    refReadout (F := Ideal) pooled w1 b1 w2 b2 = Cert.Spec.readout pooled w1 b1 w2 b2 := by
  funext j
  obtain ⟨p, q, rfl⟩ : ∃ (p : Fin 128) (q : Fin 1), j = ix2 p q := ⟨j 0, j 1, eq_ix2 j⟩
  rw [Cert.Spec.readout_apply]
  unfold refReadout Cert.Spec.readoutAt
  simp only [addf_apply]
  rw [Cert.Lib.Dot.hostDot_rc _ Readout.dotOut_rowsCols, Cert.Spec.rowSpread_bcast_apply]
  congr 1
  refine Finset.sum_congr rfl fun k _ => ?_
  rw [Readout.hid_apply]

end Cert.ReferenceIdeal.RefValue

end
-- ==== Proof.TakeMask.lean ====
/-
  Under the precondition every source index is in range, so every flag of the masked row lookup is set.

  The precondition is a conjunction of one-bit facts; its last conjunct says of the source row of the edge index array
  that, after a negative index `i` has been moved up to `i + 50000`, every index `w` passes the two signed tests
  `0 ≤ w` and `w ≤ 49999`: the conjunction of the two tests, taken over all 800000 edges starting from a set bit, is set.
  An and over many bits that ends set started set and met only set bits, so each edge's pair of tests is set.

  The row lookup computes, per edge, a flag from the SAME normalised index by the SAME two tests against the SAME two
  words; it only lays the indices out as a column of 800000 rows and one entry each, and takes the and along that
  one-entry axis starting from a set bit. Conversely to the above, an and that starts set and meets only set bits
  ends set. Each entry of the column is the normalised index of some edge, whose pair of tests is set by the
  precondition; so every flag is set. Nothing is computed on the words themselves: both sides are read as one and
  the same one-bit function `inWord` of the normalised index.
-/
import proofs.«411645_j14336600834819_1_alg».proof.Defs
import proofs.«411645_j14336600834819_1_alg».proof.Proof.Gen.Pre_finite_inputs
import proofs.«411645_j14336600834819_1_alg».proof.Proof.Gen.KernelIdeal
import proofs.«411645_j14336600834819_1_alg».proof.Proof.Take
import Idealize.ShloMosaic.Lib.ReduceAll
import Idealize.ShloMosaic.Lib.ValueIdx

noncomputable section

namespace Cert.KernelIdeal.TakeMask

open Cert.KernelIdeal Cert.KernelIdeal.Gen Idealize.ShloMosaic

namespace Aux

/-- The two range tests on one index word, as one bit: `0 ≤ w` and `w ≤ 49999`, both signed. -/
def inWord (w : BitVec 32) : BitVec 1 := IntOp.andi (IntOp.cmpi .sge w 0#32) (IntOp.cmpi .sle w 49999#32)

/-- An array with no axis has one index. -/
instance : Subsingleton Cert.Pre_finite_inputs.S_.Idx := ⟨fun a b => funext fun d => d.elim0⟩

/-- A left fold by `and` that starts at a set bit and meets only set bits ends at a set bit. -/
theorem foldl_andi_ones {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, _, hi, hl =>
    foldl_andi_ones f l _ (IntOp.andi_eq_one.2 ⟨hi, hl a List.mem_cons_self⟩)
      (fun n hn => hl n (List.mem_cons_of_mem _ hn))

/-- An and-reduction of an array of set bits, from a set bit, is set at every index of its result. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1)
    (hi : init (Shape.Idx.first hu) = 1#1) : Host.reduce IntOp.andi x init h hu j = 1#1 := by
  rw [Host.reduce_eq_foldl]
  exact foldl_andi_ones x _ _ hi (fun n _ => hx n)

/-- The precondition's last conjunct: the and over all edges of the range tests on the normalised source index is
    set. It is the second operand of the outermost `and` of the printed precondition, read off by unfolding. -/
theorem pre_last (m : (ℓ : Loc nD τ sig) → Buf (Elt Ideal) ℓ)
    (hpre : Cert.Pre_KernelIdeal (hPre_finite_inputs := Cert.Pre_finite_inputs.Gen.facts) m) (c : Dev nD) :
    Host.reduce IntOp.andi
      (fun e : Cert.Pre_finite_inputs.S800000.Idx =>
        inWord (Cert.KernelIdeal.Take.wrap (Cert.KernelIdeal.Take.srcRow (m ((c.tc : Thread nD τ).loc main_arg2))) e))
      (constantI Cert.Pre_finite_inputs.S_ 1 1#1) Cert.Pre_finite_inputs.Gen.reducesTo_S800000_S_d0
      Cert.Pre_finite_inputs.Gen.h_S_ ValueIdx.ix0 = 1#1 := by
  have h := congrFun (hpre c) ValueIdx.ix0
  exact (IntOp.andi_eq_one.1 h).2

/-- Under the precondition every edge's normalised source index passes both range tests. -/
theorem pre_edge (m : (ℓ : Loc nD τ sig) → Buf (Elt Ideal) ℓ)
    (hpre : Cert.Pre_KernelIdeal (hPre_finite_inputs := Cert.Pre_finite_inputs.Gen.facts) m) (c : Dev nD)
    (e : S800000.Idx) :
    inWord (Cert.KernelIdeal.Take.wrap (Cert.KernelIdeal.Take.srcRow (m ((c.tc : Thread nD τ).loc main_arg2))) e)
      = 1#1 :=
  Host.reduce_andi_all
    (fun e : Cert.Pre_finite_inputs.S800000.Idx =>
      inWord (Cert.KernelIdeal.Take.wrap (Cert.KernelIdeal.Take.srcRow (m ((c.tc : Thread nD τ).loc main_arg2))) e))
    _ _ _ ValueIdx.ix0 (pre_last m hpre c) e

/-- An entry of the column of tests the row lookup reduces is the pair of range tests on the normalised index of
    some edge: the column holds the normalised indices, and the two words it is compared with are spread constants. -/
theorem col_entry (s : IVec S800000 32) (i : S800000x1.Idx) :
    ∃ e : S800000.Idx,
      (andi (cmpi .sge (Cert.KernelIdeal.Take.idxCol s)
          (broadcastInDim S800000x1 ![] bcast_S_S800000x1 (constantI S_ 32 0#32)))
        (cmpi .sle (Cert.KernelIdeal.Take.idxCol s) (broadcastInDim S800000x1 ![0, 1] bcast_S1x1_S800000x1_0_1
          (broadcastInDim S1x1 ![1] bcast_S1_S1x1_1 (constantI S1 32 49999#32))))) i
        = inWord (Cert.KernelIdeal.Take.wrap s e) :=
  ⟨_, rfl⟩

end Aux

/-- Under the precondition the flag of every edge is set: the masked row lookup keeps every gathered row. -/
theorem inRange_all (m : (ℓ : Loc nD τ sig) → Buf (Elt Ideal) ℓ)
    (hpre : Cert.Pre_KernelIdeal (hPre_finite_inputs := Cert.Pre_finite_inputs.Gen.facts) m) (c : Dev nD) (e : S800000.Idx) :
    Cert.KernelIdeal.Take.inRange (Cert.KernelIdeal.Take.srcRow (m ((c.tc : Thread nD τ).loc main_arg2))) e = 1#1 := by
  unfold Cert.KernelIdeal.Take.inRange
  refine Aux.reduce_andi_ones _ _ _ _ e (fun i => ?_) rfl
  obtain ⟨e', he'⟩ := Aux.col_entry (Cert.KernelIdeal.Take.srcRow (m ((c.tc : Thread nD τ).loc main_arg2))) i
  exact he'.trans (Aux.pre_edge m hpre c e')

end Cert.KernelIdeal.TakeMask

end
-- ==== Proof.LibSelectOnes.lean ====
/-
  Selecting by a vector of row flags that are all set.

  A vector `M` of `n` one-bit flags is spread along the rows of an `n × w` array by a single broadcast along the
  first axis: entry `(p, q)` of the spread array is flag `p`, whatever the column `q`. A select between two
  `n × w` arrays `G` and `N` by those spread flags takes, in row `p`, the entries of `G` where flag `p` is set and
  the entries of `N` where it is clear. So if every flag is set the select is `G` itself. Nothing is asked of the
  elements: the statement holds for any element type and any extents.
-/
import Idealize.ShloMosaic.Lib.ValueIdx
import Idealize.ShloMosaic.Lib.StableHlo.Predicate

namespace Cert.Lib.SelectOnes

open Idealize.ShloMosaic Idealize.ShloMosaic.ValueIdx

/-- A vector of n flags spread along the rows of an n × w array reads, at (p, q), flag p. -/
theorem rowFlags_apply {n w : ℕ} {α : Type} (v : (⟨1, ![n]⟩ : Shape).Idx → α)
    (h : (⟨1, ![n]⟩ : Shape).BroadcastsInDim ⟨2, ![n, w]⟩ ![0]) (p : Fin n) (q : Fin w) :
    broadcastInDim ⟨2, ![n, w]⟩ ![0] h v (ix2 p q) = v (ix1 p) := by
  simp only [broadcastInDim]
  congr 1
  funext a
  have ha : a = 0 := Subsingleton.elim _ _
  subst ha
  apply Fin.ext
  have hp := p.isLt
  split
  · next h1 => change n = 1 at h1; show (0 : Nat) = p.val; omega
  · rfl

/-- A scalar select on the set flag returns its first operand. -/
theorem select_set {α : Type} (a b : α) : Scalar.select 1#1 a b = a := if_pos rfl

/-- Where every flag is set, selecting by the spread flags returns the first array. -/
theorem select_of_all_set {n w : ℕ} {α : Type} (M : IVec ⟨1, ![n]⟩ 1) (hM : ∀ e, M e = 1#1)
    (h : (⟨1, ![n]⟩ : Shape).BroadcastsInDim ⟨2, ![n, w]⟩ ![0]) (G N : (⟨2, ![n, w]⟩ : Shape).Idx → α) :
    select (broadcastInDim ⟨2, ![n, w]⟩ ![0] h M) G N = G := by
  funext j
  obtain ⟨p, q, rfl⟩ : ∃ (p : Fin n) (q : Fin w), j = ix2 p q := ⟨j 0, j 1, eq_ix2 j⟩
  rw [select_apply, rowFlags_apply, hM, select_set]

end Cert.Lib.SelectOnes
-- ==== Proof.NetEq.lean ====
/-
  The reference's network of its arguments is the kernel's network of its arguments.

  Both programs compute, layer by layer: for every edge the row of the current node features at the edge's source
  index, the edge's message from that row and the edge's attributes, the sum of the messages per destination node
  starting from zeros, and every node's update from its own features and its sum; then the sum of the last layer's
  node features per graph, and the readout of that. The message, update and readout functions are the same
  specification functions on both sides (for the reference this is what its three families of lemmas say). The sums
  are the same scatter-add, from the same zero array, at the same column of destination indices. What differs is how
  a row is looked up: the reference gathers at the normalised source indices laid out as a column; the kernel gathers
  at that same column and then keeps a gathered row only where the edge's flag is set. Under the precondition every
  flag is set, and selecting by flags that are all set returns the gathered rows; so the two lookups agree.

  The two programs name the same dimension records, index vectors and shapes each in its own name space; each such
  pair is one small term written twice, and is identified here by a small equation of its own before the large
  expressions are compared, so that the large expressions are never unfolded. Finally the two launch contents agree
  on all 38 arguments, which turns the reference's network of its own arguments into the kernel's network of the
  kernel's.
-/
import proofs.«411645_j14336600834819_1_alg».proof.Defs
import proofs.«411645_j14336600834819_1_alg».proof.Proof.Gen.Pre_finite_inputs
import proofs.«411645_j14336600834819_1_alg».proof.Proof.KernelNet
import proofs.«411645_j14336600834819_1_alg».proof.Proof.RefTerms
import proofs.«411645_j14336600834819_1_alg».proof.Proof.RefEdge
import proofs.«411645_j14336600834819_1_alg».proof.Proof.RefNode
import proofs.«411645_j14336600834819_1_alg».proof.Proof.RefReadout
import proofs.«411645_j14336600834819_1_alg».proof.Proof.TakeMask
import proofs.«411645_j14336600834819_1_alg».proof.Proof.LibSelectOnes

noncomputable section

namespace Cert.Proof.NetEq

open Idealize.ShloMosaic Idealize.SL.Sem

namespace Aux

/-! ### One small term, two names -/

/-- The row-lookup record of the 64-column table is the same record in both programs. -/
theorem gather64_eq : Cert.ReferenceIdeal.gather_S50000x64_S800000x1_S800000x64_1_0_n_n_0_1_164
    = Cert.KernelIdeal.gather_S50000x64_S800000x1_S800000x64_1_0_n_n_0_1_164 := rfl

/-- The row-lookup record of the 256-column table is the same record in both programs. -/
theorem gather256_eq : Cert.ReferenceIdeal.gather_S50000x256_S800000x1_S800000x256_1_0_n_n_0_1_1256
    = Cert.KernelIdeal.gather_S50000x256_S800000x1_S800000x256_1_0_n_n_0_1_1256 := rfl

/-- The row-lookup record of the 128-column table is the same record in both programs. -/
theorem gather128_eq : Cert.ReferenceIdeal.gather_S50000x128_S800000x1_S800000x128_1_0_n_n_0_1_1128
    = Cert.KernelIdeal.gather_S50000x128_S800000x1_S800000x128_1_0_n_n_0_1_1128 := rfl

/-- The per-node sum's record for 64-feature messages is the same record in both programs. -/
theorem scatter64_eq : Cert.ReferenceIdeal.scatter_S50000x64_S800000x1_S800000x64_1_0_0_1
    = Cert.KernelIdeal.scatter_S50000x64_S800000x1_S800000x64_1_0_0_1 := rfl

/-- The per-node sum's record for 256-feature messages is the same record in both programs. -/
theorem scatter256_eq : Cert.ReferenceIdeal.scatter_S50000x256_S800000x1_S800000x256_1_0_0_1
    = Cert.KernelIdeal.scatter_S50000x256_S800000x1_S800000x256_1_0_0_1 := rfl

/-- The per-node sum's record for 128-feature messages is the same record in both programs. -/
theorem scatter128_eq : Cert.ReferenceIdeal.scatter_S50000x128_S800000x1_S800000x128_1_0_0_1
    = Cert.KernelIdeal.scatter_S50000x128_S800000x1_S800000x128_1_0_0_1 := rfl

/-- The per-graph sum's record is the same record in both programs. -/
theorem scatterPool_eq : Cert.ReferenceIdeal.scatter_S128x64_S50000x1_S50000x64_1_0_0_1
    = Cert.KernelIdeal.scatter_S128x64_S50000x1_S50000x64_1_0_0_1 := rfl

/-- Row 0 of the edge index array, as the reference names it and as the kernel names it. -/
theorem srcRow_eq (ei : IVec Cert.KernelIdeal.S2x800000 32) :
    Cert.ReferenceIdeal.RefValue.edgeRow 0 ei = Cert.KernelIdeal.Take.srcRow ei := rfl

/-- Row 1 of the edge index array, as the reference names it and as the kernel names it. -/
theorem dstRow_eq (ei : IVec Cert.KernelIdeal.S2x800000 32) :
    Cert.ReferenceIdeal.RefValue.edgeRow 1 ei = Cert.KernelIdeal.Take.dstRow ei := rfl

/-- The normalised source indices laid out as a column, as the reference writes it and as the kernel names it. -/
theorem col_eq (s : IVec Cert.KernelIdeal.S800000 32) :
    broadcastInDim Cert.ReferenceIdeal.S800000x1 ![0] Cert.ReferenceIdeal.Gen.bcast_S800000_S800000x1_0
        (Cert.ReferenceIdeal.RefValue.wrapIdx s)
      = Cert.KernelIdeal.Take.idxCol s := rfl

/-! ### A masked row lookup whose every flag is set is the plain row lookup -/

theorem take64_eq (x : FVec Ideal Cert.KernelIdeal.S50000x64 .f32) (s : IVec Cert.KernelIdeal.S800000 32)
    (hs : ∀ e, Cert.KernelIdeal.Take.inRange s e = 1#1) :
    Cert.KernelIdeal.Take.take64 x s
      = Host.gather Cert.KernelIdeal.gather_S50000x64_S800000x1_S800000x64_1_0_n_n_0_1_164 x
          (Cert.KernelIdeal.Take.idxCol s) := by
  unfold Cert.KernelIdeal.Take.take64
  exact Cert.Lib.SelectOnes.select_of_all_set (Cert.KernelIdeal.Take.inRange s) hs _ _ _

theorem take256_eq (x : FVec Ideal Cert.KernelIdeal.S50000x256 .f32) (s : IVec Cert.KernelIdeal.S800000 32)
    (hs : ∀ e, Cert.KernelIdeal.Take.inRange s e = 1#1) :
    Cert.KernelIdeal.Take.take256 x s
      = Host.gather Cert.KernelIdeal.gather_S50000x256_S800000x1_S800000x256_1_0_n_n_0_1_1256 x
          (Cert.KernelIdeal.Take.idxCol s) := by
  unfold Cert.KernelIdeal.Take.take256
  exact Cert.Lib.SelectOnes.select_of_all_set (Cert.KernelIdeal.Take.inRange s) hs _ _ _

theorem take128_eq (x : FVec Ideal Cert.KernelIdeal.S50000x128 .f32) (s : IVec Cert.KernelIdeal.S800000 32)
    (hs : ∀ e, Cert.KernelIdeal.Take.inRange s e = 1#1) :
    Cert.KernelIdeal.Take.take128 x s
      = Host.gather Cert.KernelIdeal.gather_S50000x128_S800000x1_S800000x128_1_0_n_n_0_1_1128 x
          (Cert.KernelIdeal.Take.idxCol s) := by
  unfold Cert.KernelIdeal.Take.take128
  exact Cert.Lib.SelectOnes.select_of_all_set (Cert.KernelIdeal.Take.inRange s) hs _ _ _

/-! ### The layers, the pooling -/

/-- Layer 1 of the reference is layer 1 of the kernel, when every source index is in range. -/
theorem layer1_eq (x : FVec Ideal Cert.KernelIdeal.S50000x64 .f32) (ea : FVec Ideal Cert.KernelIdeal.S800000x16 .f32)
    (ei : IVec Cert.KernelIdeal.S2x800000 32) (we : FVec Ideal Cert.KernelIdeal.S16x64 .f32)
    (be : FVec Ideal Cert.KernelIdeal.S64 .f32) (wa : FVec Ideal Cert.KernelIdeal.S64x256 .f32)
    (ba : FVec Ideal Cert.KernelIdeal.S256 .f32) (wb : FVec Ideal Cert.KernelIdeal.S256x256 .f32)
    (bb g sh mu var : FVec Ideal Cert.KernelIdeal.S256 .f32)
    (hs : ∀ e, Cert.KernelIdeal.Take.inRange (Cert.KernelIdeal.Take.srcRow ei) e = 1#1) :
    Cert.ReferenceIdeal.RefValue.refLayer1 (F := Ideal) x ea (Cert.ReferenceIdeal.RefValue.edgeRow 0 ei)
        (Cert.ReferenceIdeal.RefValue.edgeRow 1 ei) we be wa ba wb bb g sh mu var
      = Cert.KernelIdeal.Net.layer1 x ea (Cert.KernelIdeal.Take.srcRow ei) (Cert.KernelIdeal.Take.dstRow ei) we be
          wa ba wb bb g sh mu var := by
  unfold Cert.ReferenceIdeal.RefValue.refLayer1 Cert.KernelIdeal.Net.layer1 Cert.KernelIdeal.Net.sumTo64
  rw [Cert.ReferenceIdeal.RefValue.refNode1_eq, Cert.ReferenceIdeal.RefValue.refEdge1_eq, take64_eq x _ hs,
    srcRow_eq, dstRow_eq, col_eq, gather64_eq, scatter64_eq]

/-- Layer 2 of the reference is layer 2 of the kernel, when every source index is in range. -/
theorem layer2_eq (x : FVec Ideal Cert.KernelIdeal.S50000x256 .f32) (ea : FVec Ideal Cert.KernelIdeal.S800000x16 .f32)
    (ei : IVec Cert.KernelIdeal.S2x800000 32) (we : FVec Ideal Cert.KernelIdeal.S16x256 .f32)
    (be : FVec Ideal Cert.KernelIdeal.S256 .f32) (wa : FVec Ideal Cert.KernelIdeal.S256x128 .f32)
    (ba : FVec Ideal Cert.KernelIdeal.S128 .f32) (wb : FVec Ideal Cert.KernelIdeal.S128x128 .f32)
    (bb g sh mu var : FVec Ideal Cert.KernelIdeal.S128 .f32)
    (hs : ∀ e, Cert.KernelIdeal.Take.inRange (Cert.KernelIdeal.Take.srcRow ei) e = 1#1) :
    Cert.ReferenceIdeal.RefValue.refLayer2 (F := Ideal) x ea (Cert.ReferenceIdeal.RefValue.edgeRow 0 ei)
        (Cert.ReferenceIdeal.RefValue.edgeRow 1 ei) we be wa ba wb bb g sh mu var
      = Cert.KernelIdeal.Net.layer2 x ea (Cert.KernelIdeal.Take.srcRow ei) (Cert.KernelIdeal.Take.dstRow ei) we be
          wa ba wb bb g sh mu var := by
  unfold Cert.ReferenceIdeal.RefValue.refLayer2 Cert.KernelIdeal.Net.layer2 Cert.KernelIdeal.Net.sumTo256
  rw [Cert.ReferenceIdeal.RefValue.refNode2_eq, Cert.ReferenceIdeal.RefValue.refEdge2_eq, take256_eq x _ hs,
    srcRow_eq, dstRow_eq, col_eq, gather256_eq, scatter256_eq]

/-- Layer 3 of the reference is layer 3 of the kernel, when every source index is in range. -/
theorem layer3_eq (x : FVec Ideal Cert.KernelIdeal.S50000x128 .f32) (ea : FVec Ideal Cert.KernelIdeal.S800000x16 .f32)
    (ei : IVec Cert.KernelIdeal.S2x800000 32) (we : FVec Ideal Cert.KernelIdeal.S16x128 .f32)
    (be : FVec Ideal Cert.KernelIdeal.S128 .f32) (wa : FVec Ideal Cert.KernelIdeal.S128x64 .f32)
    (ba : FVec Ideal Cert.KernelIdeal.S64 .f32) (wb : FVec Ideal Cert.KernelIdeal.S64x64 .f32)
    (bb g sh mu var : FVec Ideal Cert.KernelIdeal.S64 .f32)
    (hs : ∀ e, Cert.KernelIdeal.Take.inRange (Cert.KernelIdeal.Take.srcRow ei) e = 1#1) :
    Cert.ReferenceIdeal.RefValue.refLayer3 (F := Ideal) x ea (Cert.ReferenceIdeal.RefValue.edgeRow 0 ei)
        (Cert.ReferenceIdeal.RefValue.edgeRow 1 ei) we be wa ba wb bb g sh mu var
      = Cert.KernelIdeal.Net.layer3 x ea (Cert.KernelIdeal.Take.srcRow ei) (Cert.KernelIdeal.Take.dstRow ei) we be
          wa ba wb bb g sh mu var := by
  unfold Cert.ReferenceIdeal.RefValue.refLayer3 Cert.KernelIdeal.Net.layer3 Cert.KernelIdeal.Net.sumTo128
  rw [Cert.ReferenceIdeal.RefValue.refNode3_eq, Cert.ReferenceIdeal.RefValue.refEdge3_eq, take128_eq x _ hs,
    srcRow_eq, dstRow_eq, col_eq, gather128_eq, scatter128_eq]

/-- The per-graph sum of the reference is the per-graph sum of the kernel. -/
theorem pool_eq (h : FVec Ideal Cert.KernelIdeal.S50000x64 .f32) (batch : IVec Cert.KernelIdeal.S50000 32) :
    Cert.ReferenceIdeal.RefValue.refPool (F := Ideal) h batch = Cert.KernelIdeal.Net.pool batch h := by
  unfold Cert.ReferenceIdeal.RefValue.refPool Cert.KernelIdeal.Net.pool
  rw [scatterPool_eq]

/-! ### The stages, each from arrays that equal the kernel's launch contents -/

/-- An argument's launch contents on core `c`, in the kernel's program. -/
abbrev kArg (m : (ℓ : Loc Cert.KernelIdeal.nD Cert.KernelIdeal.τ Cert.KernelIdeal.sig) → Buf (Elt Ideal) ℓ) (c : Dev Cert.KernelIdeal.nD)
    (r : Ref Cert.KernelIdeal.sig .tc) : Buf (Elt Ideal) ((c.tc : Thread Cert.KernelIdeal.nD Cert.KernelIdeal.τ).loc r) :=
  m ((c.tc : Thread Cert.KernelIdeal.nD Cert.KernelIdeal.τ).loc r)

section Stages

variable (m : (ℓ : Loc Cert.KernelIdeal.nD Cert.KernelIdeal.τ Cert.KernelIdeal.sig) → Buf (Elt Ideal) ℓ) (c : Dev Cert.KernelIdeal.nD)
  (hs : ∀ e, Cert.KernelIdeal.Take.inRange (Cert.KernelIdeal.Take.srcRow (kArg m c Cert.KernelIdeal.main_arg2)) e = 1#1)

include hs

/-- The reference's first layer, of arrays equal to the kernel's arguments, is the kernel's first layer. -/
theorem h1_of (y0 : FVec Ideal Cert.KernelIdeal.S50000x64 .f32) (y1 : FVec Ideal Cert.KernelIdeal.S800000x16 .f32)
    (y2 : IVec Cert.KernelIdeal.S2x800000 32) (y4 : FVec Ideal Cert.KernelIdeal.S16x64 .f32) (y5 : FVec Ideal Cert.KernelIdeal.S64 .f32)
    (y6 : FVec Ideal Cert.KernelIdeal.S64x256 .f32) (y7 : FVec Ideal Cert.KernelIdeal.S256 .f32) (y8 : FVec Ideal Cert.KernelIdeal.S256x256 .f32)
    (y9 y10 y11 y12 y13 : FVec Ideal Cert.KernelIdeal.S256 .f32)
    (e0 : y0 = kArg m c Cert.KernelIdeal.main_arg0) (e1 : y1 = kArg m c Cert.KernelIdeal.main_arg1) (e2 : y2 = kArg m c Cert.KernelIdeal.main_arg2)
    (e4 : y4 = kArg m c Cert.KernelIdeal.main_arg4) (e5 : y5 = kArg m c Cert.KernelIdeal.main_arg5) (e6 : y6 = kArg m c Cert.KernelIdeal.main_arg6)
    (e7 : y7 = kArg m c Cert.KernelIdeal.main_arg7) (e8 : y8 = kArg m c Cert.KernelIdeal.main_arg8) (e9 : y9 = kArg m c Cert.KernelIdeal.main_arg9)
    (e10 : y10 = kArg m c Cert.KernelIdeal.main_arg10) (e11 : y11 = kArg m c Cert.KernelIdeal.main_arg11)
    (e12 : y12 = kArg m c Cert.KernelIdeal.main_arg12) (e13 : y13 = kArg m c Cert.KernelIdeal.main_arg13) :
    Cert.ReferenceIdeal.RefValue.refLayer1 (F := Ideal) y0 y1 (Cert.ReferenceIdeal.RefValue.edgeRow 0 y2) (Cert.ReferenceIdeal.RefValue.edgeRow 1 y2) y4 y5 y6 y7 y8
        y9 y10 y11 y12 y13
      = Cert.KernelIdeal.Net.h1 m c := by
  subst e0 e1 e2 e4 e5 e6 e7 e8 e9 e10 e11 e12 e13
  unfold Cert.KernelIdeal.Net.h1
  exact layer1_eq _ _ _ _ _ _ _ _ _ _ _ _ _ hs

/-- The reference's second layer, of the kernel's first layer and arrays equal to the kernel's arguments, is the
    kernel's second layer. -/
theorem h2_of (z : FVec Ideal Cert.KernelIdeal.S50000x256 .f32) (y1 : FVec Ideal Cert.KernelIdeal.S800000x16 .f32)
    (y2 : IVec Cert.KernelIdeal.S2x800000 32) (y14 : FVec Ideal Cert.KernelIdeal.S16x256 .f32) (y15 : FVec Ideal Cert.KernelIdeal.S256 .f32)
    (y16 : FVec Ideal Cert.KernelIdeal.S256x128 .f32) (y17 : FVec Ideal Cert.KernelIdeal.S128 .f32) (y18 : FVec Ideal Cert.KernelIdeal.S128x128 .f32)
    (y19 y20 y21 y22 y23 : FVec Ideal Cert.KernelIdeal.S128 .f32)
    (ez : z = Cert.KernelIdeal.Net.h1 m c) (e1 : y1 = kArg m c Cert.KernelIdeal.main_arg1) (e2 : y2 = kArg m c Cert.KernelIdeal.main_arg2)
    (e14 : y14 = kArg m c Cert.KernelIdeal.main_arg14) (e15 : y15 = kArg m c Cert.KernelIdeal.main_arg15)
    (e16 : y16 = kArg m c Cert.KernelIdeal.main_arg16) (e17 : y17 = kArg m c Cert.KernelIdeal.main_arg17)
    (e18 : y18 = kArg m c Cert.KernelIdeal.main_arg18) (e19 : y19 = kArg m c Cert.KernelIdeal.main_arg19)
    (e20 : y20 = kArg m c Cert.KernelIdeal.main_arg20) (e21 : y21 = kArg m c Cert.KernelIdeal.main_arg21)
    (e22 : y22 = kArg m c Cert.KernelIdeal.main_arg22) (e23 : y23 = kArg m c Cert.KernelIdeal.main_arg23) :
    Cert.ReferenceIdeal.RefValue.refLayer2 (F := Ideal) z y1 (Cert.ReferenceIdeal.RefValue.edgeRow 0 y2) (Cert.ReferenceIdeal.RefValue.edgeRow 1 y2) y14 y15 y16 y17
        y18 y19 y20 y21 y22 y23
      = Cert.KernelIdeal.Net.h2 m c := by
  subst ez e1 e2 e14 e15 e16 e17 e18 e19 e20 e21 e22 e23
  unfold Cert.KernelIdeal.Net.h2
  exact layer2_eq _ _ _ _ _ _ _ _ _ _ _ _ _ hs

/-- The reference's third layer, of the kernel's second layer and arrays equal to the kernel's arguments, is the
    kernel's third layer. -/
theorem h3_of (z : FVec Ideal Cert.KernelIdeal.S50000x128 .f32) (y1 : FVec Ideal Cert.KernelIdeal.S800000x16 .f32)
    (y2 : IVec Cert.KernelIdeal.S2x800000 32) (y24 : FVec Ideal Cert.KernelIdeal.S16x128 .f32) (y25 : FVec Ideal Cert.KernelIdeal.S128 .f32)
    (y26 : FVec Ideal Cert.KernelIdeal.S128x64 .f32) (y27 : FVec Ideal Cert.KernelIdeal.S64 .f32) (y28 : FVec Ideal Cert.KernelIdeal.S64x64 .f32)
    (y29 y30 y31 y32 y33 : FVec Ideal Cert.KernelIdeal.S64 .f32)
    (ez : z = Cert.KernelIdeal.Net.h2 m c) (e1 : y1 = kArg m c Cert.KernelIdeal.main_arg1) (e2 : y2 = kArg m c Cert.KernelIdeal.main_arg2)
    (e24 : y24 = kArg m c Cert.KernelIdeal.main_arg24) (e25 : y25 = kArg m c Cert.KernelIdeal.main_arg25)
    (e26 : y26 = kArg m c Cert.KernelIdeal.main_arg26) (e27 : y27 = kArg m c Cert.KernelIdeal.main_arg27)
    (e28 : y28 = kArg m c Cert.KernelIdeal.main_arg28) (e29 : y29 = kArg m c Cert.KernelIdeal.main_arg29)
    (e30 : y30 = kArg m c Cert.KernelIdeal.main_arg30) (e31 : y31 = kArg m c Cert.KernelIdeal.main_arg31)
    (e32 : y32 = kArg m c Cert.KernelIdeal.main_arg32) (e33 : y33 = kArg m c Cert.KernelIdeal.main_arg33) :
    Cert.ReferenceIdeal.RefValue.refLayer3 (F := Ideal) z y1 (Cert.ReferenceIdeal.RefValue.edgeRow 0 y2) (Cert.ReferenceIdeal.RefValue.edgeRow 1 y2) y24 y25 y26 y27
        y28 y29 y30 y31 y32 y33
      = Cert.KernelIdeal.Net.h3 m c := by
  subst ez e1 e2 e24 e25 e26 e27 e28 e29 e30 e31 e32 e33
  unfold Cert.KernelIdeal.Net.h3
  exact layer3_eq _ _ _ _ _ _ _ _ _ _ _ _ _ hs

omit hs in
/-- The reference's pooling and readout, of the kernel's third layer and arrays equal to the kernel's arguments, is
    the kernel's result. -/
theorem net_of (z : FVec Ideal Cert.KernelIdeal.S50000x64 .f32) (y3 : IVec Cert.KernelIdeal.S50000 32) (y34 : FVec Ideal Cert.KernelIdeal.S64x16 .f32)
    (y35 : FVec Ideal Cert.KernelIdeal.S16 .f32) (y36 : FVec Ideal Cert.KernelIdeal.S16x1 .f32) (y37 : FVec Ideal Cert.KernelIdeal.S1 .f32)
    (ez : z = Cert.KernelIdeal.Net.h3 m c) (e3 : y3 = kArg m c Cert.KernelIdeal.main_arg3) (e34 : y34 = kArg m c Cert.KernelIdeal.main_arg34)
    (e35 : y35 = kArg m c Cert.KernelIdeal.main_arg35) (e36 : y36 = kArg m c Cert.KernelIdeal.main_arg36)
    (e37 : y37 = kArg m c Cert.KernelIdeal.main_arg37) :
    Cert.ReferenceIdeal.RefValue.refReadout (F := Ideal) (Cert.ReferenceIdeal.RefValue.refPool z y3) y34 y35 y36 y37 = Cert.KernelIdeal.Net.net m c := by
  subst ez e3 e34 e35 e36 e37
  unfold Cert.KernelIdeal.Net.net
  rw [pool_eq, Cert.ReferenceIdeal.RefValue.refReadout_eq]

end Stages

end Aux

/-- The reference's network of its own launch contents is the kernel's network of the kernel's, when the two
    agree on the arguments and the precondition holds of the kernel's. -/
theorem net_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m)
    (hagree :
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)))
    (c : Dev Cert.KernelIdeal.nD) :
    Cert.ReferenceIdeal.RefValue.refNet (F := Ideal) m' c = Cert.KernelIdeal.Net.net m c := by
  obtain ⟨a0, a1, a2, a3, a4, a5, a6, a7, a8, a9, a10, a11, a12, a13, a14, a15, a16, a17, a18,
    a19, a20, a21, a22, a23, a24, a25, a26, a27, a28, a29, a30, a31, a32, a33, a34, a35, a36, a37⟩ := hagree c
  have hs : ∀ e, Cert.KernelIdeal.Take.inRange (Cert.KernelIdeal.Take.srcRow
      (Aux.kArg m c Cert.KernelIdeal.main_arg2)) e = 1#1 :=
    fun e => Cert.KernelIdeal.TakeMask.inRange_all m hpre c e
  have e1 := Aux.h1_of m c hs _ _ _ _ _ _ _ _ _ _ _ _ _ a0 a1 a2 a4 a5 a6 a7 a8 a9 a10 a11 a12 a13
  have e2 := Aux.h2_of m c hs _ _ _ _ _ _ _ _ _ _ _ _ _ e1 a1 a2 a14 a15 a16 a17 a18 a19 a20 a21 a22 a23
  have e3 := Aux.h3_of m c hs _ _ _ _ _ _ _ _ _ _ _ _ _ e2 a1 a2 a24 a25 a26 a27 a28 a29 a30 a31 a32 a33
  unfold Cert.ReferenceIdeal.RefValue.refNet
  exact Aux.net_of m c _ _ _ _ _ _ e3 a3 a34 a35 a36 a37

end Cert.Proof.NetEq

end
-- ==== Proof.lean ====
/-
  A three-layer graph network computed by seven kernels equals its reference, on the extended reals.

  Each layer takes, for every edge, the row of the current node features at the edge's source index; forms the edge's
  message `max (row + attributes · we + be) 0`; adds the messages up per destination node; and updates every node by
  two dense layers, each clipped below at zero, followed by a per-feature normalisation
  `((o - mean) * rsqrt (variance + ε)) * scale + shift`. The last layer's node features are added up per graph and a
  two-layer readout gives one number per graph.

  The kernel's program and the reference compute this with the same operations in the same grouping: every matrix
  product is a sum of products over the contracted coordinate, a change of float format is the identity, and `ε` is one
  word both programs carry. They differ in one place. The kernel's program takes rows with a range check, keeping a
  filler in the rows whose (normalised) source index falls outside the table, while the reference gathers without a
  check. Under the precondition that every source index is a valid row index, after the usual move of a negative index
  up by the number of rows, every check passes and the two are the same gather. So both programs, run from memories
  that agree on the arguments, end with the same result: the network of the arguments.

  The kernel's seven regions each leave in their output array one layer function of the arrays they found (a block of
  rows at a time, the blocks covering the array); the host operations between them are read one stretch at a time; an
  argument, and a result not yet consumed, is carried unchanged across the steps that do not write it. The reference's
  result is the same composition spelt with host operations. The three frames are the generated ones; the kernel's
  idealisation rewrote nothing.
-/
import proofs.«411645_j14336600834819_1_alg».proof.Defs
import proofs.«411645_j14336600834819_1_alg».proof.Proof.Gen.Kernel
import proofs.«411645_j14336600834819_1_alg».proof.Proof.Gen.Kernel.Frame
import proofs.«411645_j14336600834819_1_alg».proof.Proof.Gen.KernelIdeal
import proofs.«411645_j14336600834819_1_alg».proof.Proof.Gen.KernelIdeal.Frame
import proofs.«411645_j14336600834819_1_alg».proof.Proof.Gen.ReferenceIdeal
import proofs.«411645_j14336600834819_1_alg».proof.Proof.Gen.ReferenceIdeal.Run
import proofs.«411645_j14336600834819_1_alg».proof.Proof.Gen.Pre_finite_inputs
import proofs.«411645_j14336600834819_1_alg».proof.Proof.KernelRun
import proofs.«411645_j14336600834819_1_alg».proof.Proof.WalkOut
import proofs.«411645_j14336600834819_1_alg».proof.Proof.RefTerms
import proofs.«411645_j14336600834819_1_alg».proof.Proof.NetEq
import Idealize.ShloMosaic.Adequacy
import Idealize.ShloMosaic.Init

noncomputable section

namespace Cert.Proof

open Idealize.ShloMosaic Idealize.SL.Sem

/-- The word-level program runs without a fault and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does its idealisation. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- So does the reference: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments, with every source index a valid row index, both programs end with the
    network of the arguments in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Net.net m c, ?_, ?_⟩
  · exact (θ_run Cert.KernelIdeal.defs _ _).mono
      (fun _ h c => ⟨(h c).1.trans (Cert.KernelIdeal.WalkOut.out_val m ρ c), (h c).2⟩)
      (Cert.KernelIdeal.RunValue.run_result (F := Ideal) m ρ)
  · exact (θ_run Cert.ReferenceIdeal.defs _ _).mono
      (fun _ h c => ⟨(h c).1.trans ((Cert.ReferenceIdeal.RefValue.result_eq m' c).trans (Cert.Proof.NetEq.net_eq m m' hpre hagree c)),
        (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
